-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg3 : IVec S100000 32) (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S100000 32 := broadcastInDim S100000 ![] bcast_S_S100000 main_c_14
  let main_v40 : IVec S100000 1 := cmpi .sge main_arg3 main_v39
  let main_c_15 : IVec S_ 32 := constantI S_ 32 64#32
  let main_v41 : IVec S100000 32 := broadcastInDim S100000 ![] bcast_S_S100000 main_c_15
  let main_v42 : IVec S100000 1 := cmpi .slt main_arg3 main_v41
  let main_v43 : IVec S100000 1 := andi main_v40 main_v42
  let main_c_16 : IVec S_ 1 := constantI S_ 1 1#1
  let main_v44 : IVec S_ 1 := (fun x v => Host.reduce IntOp.andi x v reducesTo_S100000_S_d0 h_S_) main_v43 main_c_16
  let main_v45 : IVec S_ 1 := andi main_v38 main_v44
  main_v45

def fn_part1 {F : FTy → Type} [FloatOps F] (main_arg3 : IVec S100000 32) (main_arg6 : FVec F S64x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg9 main_v33

def fn {F : FTy → Type} [FloatOps F] (main_arg0 : FVec F S100000x64 .f32) (main_arg1 : IVec S2x1600000 32) (main_arg2 : FVec F S1600000 .f32) (main_arg3 : IVec S100000 32) (main_arg4 : FVec F S64x64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg3 main_arg6 main_arg7 main_arg8 main_arg9 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S100000x1 : Shape := ⟨2, ![100000, 1]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S2x64x64 : Shape := ⟨3, ![2, 64, 64]⟩
abbrev S2x64x1 : Shape := ⟨3, ![2, 64, 1]⟩
abbrev S5000x64 : Shape := ⟨2, ![5000, 64]⟩
abbrev S5000x1 : Shape := ⟨2, ![5000, 1]⟩
abbrev S1x64x64 : Shape := ⟨3, ![1, 64, 64]⟩
abbrev S1x64x1 : Shape := ⟨3, ![1, 64, 1]⟩
abbrev S64x1 : Shape := ⟨2, ![64, 1]⟩

abbrev nBuf : Space → Nat
  | .hbm => 66
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000x1, .i32⟩
  | .hbm, ⟨15, _⟩ => ⟨S1600000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S64x64, .f32⟩
  | .hbm, ⟨32, _⟩ => ⟨S64x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S100000x64, .f32⟩
  | .hbm, ⟨38, _⟩ => ⟨S2x64x64, .f32⟩
  | .hbm, ⟨39, _⟩ => ⟨S2x64x64, .f32⟩
  | .hbm, ⟨40, _⟩ => ⟨S2x64x1, .f32⟩
  | .hbm, ⟨41, _⟩ => ⟨S_, .f32⟩
  | .hbm, ⟨42, _⟩ => ⟨S64x64, .f32⟩
  | .hbm, ⟨43, _⟩ => ⟨S_, .f32⟩
  | .hbm, ⟨44, _⟩ => ⟨S64x64, .f32⟩
  | .hbm, ⟨45, _⟩ => ⟨S_, .f32⟩
  | .hbm, ⟨46, _⟩ => ⟨S64x1, .f32⟩
  | .hbm, ⟨47, _⟩ => ⟨S64x64, .f32⟩
  | .hbm, ⟨48, _⟩ => ⟨S64x64, .f32⟩
  | .hbm, ⟨49, _⟩ => ⟨S1x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S_, .f32⟩
  | .hbm, ⟨56, _⟩ => ⟨S1x64, .f32⟩
  | .hbm, ⟨57, _⟩ => ⟨S1x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S_, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .i32⟩
  | .local _ .vmem, ⟨5, _⟩ => ⟨S5000x1, .i32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S1x64x64, .f32⟩
  | .local _ .vmem, ⟨12, _⟩ => ⟨S1x64x64, .f32⟩
  | .local _ .vmem, ⟨13, _⟩ => ⟨S1x64x64, .f32⟩
  | .local _ .vmem, ⟨14, _⟩ => ⟨S1x64x64, .f32⟩
  | .local _ .vmem, ⟨15, _⟩ => ⟨S1x64x1, .f32⟩
  | .local _ .vmem, ⟨16, _⟩ => ⟨S1x64x1, .f32⟩
  | .local _ .vmem, ⟨17, _⟩ => ⟨S5000x64, .f32⟩
  | .local _ .vmem, ⟨18, _⟩ => ⟨S5000x64, .f32⟩
  | .local _ .vmem, ⟨19, _⟩ => ⟨S5000x1, .i32⟩
  | .local _ .vmem, ⟨20, _⟩ => ⟨S5000x1, .i32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_cst_1 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  reducesTo_S2x64x64_S64x64_d0 : S2x64x64.ReducesTo [0] S64x64
  h_S_ : 0 < S_.numel
  reducesTo_S2x64x1_S64x1_d0 : S2x64x1.ReducesTo [0] S64x1
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S1x64 : S_.BroadcastsInDim S1x64 (![] : Fin 0 → Fin S1x64.rank)
  bcast_S_S64x64 : S_.BroadcastsInDim S64x64 (![] : Fin 0 → Fin S64x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S5000x64_S64x64_0_0_1_1_n_n_wf : DotDims.WF S5000x64 S5000x64 S64x64 [0] [0] [1] [1] [] []
  dot_S5000x64_S5000x1_S64x1_0_0_1_1_n_n_wf : DotDims.WF S5000x64 S5000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .i32 = 32 ∨ (Rect.block (s := S100000x1) S5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x64.size a ≤ S2x64x64.size a
  hwx0_7 : ∀ i : grid0.Coords, EltTy.bits .f32 = 32 ∨ (Rect.block (s := S2x64x64) S1x64x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64.size a ≤ S2x64x64.size a
  hwx0_8 : ∀ i : grid0.Coords, EltTy.bits .f32 = 32 ∨ (Rect.block (s := S2x64x64) S1x64x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x1.size a ≤ S2x64x1.size a
  hwx0_9 : ∀ i : grid0.Coords, EltTy.bits .f32 = 32 ∨ (Rect.block (s := S2x64x1) S1x64x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .i32 = 32 ∨ (Rect.block (s := S100000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf

abbrev win0_0 : Pipeline.Window sig grid0 :=
  Pipeline.Window.ofSpec (Memref.whole main_v17) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x64x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x64x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_3) S1x64x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v24_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000x1 : Shape := ⟨2, ![100000, 1]⟩
abbrev S64x1 : Shape := ⟨2, ![64, 1]⟩

abbrev nBuf : Space → Nat
  | .hbm => 93
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S64x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S64x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x1, .f32⟩
  | .hbm, ⟨43, _⟩ => ⟨S_, .f32⟩
  | .hbm, ⟨44, _⟩ => ⟨S64x1, .f32⟩
  | .hbm, ⟨45, _⟩ => ⟨S100000x1, .i32⟩
  | .hbm, ⟨46, _⟩ => ⟨S64x1, .f32⟩
  | .hbm, ⟨47, _⟩ => ⟨S_, .f32⟩
  | .hbm, ⟨48, _⟩ => ⟨S64x64, .f32⟩
  | .hbm, ⟨49, _⟩ => ⟨S100000x1, .i32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S64x64, .f32⟩
  | .hbm, ⟨69, _⟩ => ⟨S100000x1, .i32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S_, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S_S64x1 : S_.BroadcastsInDim S64x1 (![] : Fin 0 → Fin S64x1.rank)
  bcast_S100000_S100000x1_0 : S100000.BroadcastsInDim S100000x1 (![0] : Fin 1 → Fin S100000x1.rank)
  bcast_S_S64x64 : S_.BroadcastsInDim S64x64 (![] : Fin 0 → Fin S64x64.rank)
  bcast_S64x1_S64x64_0_1 : S64x1.BroadcastsInDim S64x64 (![0, 1] : Fin 2 → Fin S64x64.rank)
  bcast_S_S100000 : S_.BroadcastsInDim S100000 (![] : Fin 0 → Fin S100000.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x1_S100000x1_S100000x1_1_0_0_1_wf : ScatterDims.WF S64x1 S100000x1 S100000x1 [1] [0] [0] 1
  scatter_S64x64_S100000x1_S100000x64_1_0_0_1_wf : ScatterDims.WF S64x64 S100000x1 S100000x64 [1] [0] [0] 1
  gather_S64x64_S100000x1_S100000x64_1_0_n_n_0_1_164_wf : GatherDims.WF S64x64 S100000x1 S100000x64 [1] [0] [] [0] [] 1 ![1, 64]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf

class Facts : Prop extends Facts₀ where

variable [Facts]
-- ==== Proof.Arrays.lean ====
/-
  Names, at their literal array types, for the buffers of the kernel's program that the value proof reads: for any
  buffer contents `V` of a core, the operand and result arrays of the two kernel calls, and the program's ten
  arguments in a memory `m`.
-/
import proofs.«426248_j35416300323760_2_alg».proof.Proof.Gen.KernelIdeal.Frame
import Idealize.ShloMosaic.PureOps.Ideal

noncomputable section

namespace Cert.KernelIdeal.Arr

open Cert.KernelIdeal Cert.KernelIdeal.Gen Idealize.ShloMosaic Idealize.ShloMosaic.TcCoe Idealize.SL.Sem
open Idealize.ShloMosaic.Pipeline (Dat Cfg Window)

section Contents
variable (V : (c : Dev nD) → (b : Ref sig .tc) → Buf (Elt Ideal) ((c : Thread nD τ).loc b)) (c : Dev nD)

/-- The edge aggregation `agg[n,k]`. -/
abbrev agg : S100000x64.Idx → EReal := V c main_v17
/-- The node features `x[n,k]`. -/
abbrev x : S100000x64.Idx → EReal := V c main_arg0
/-- The graph ids as a column `b[n,0]`. -/
abbrev bcol : S100000x1.Idx → BitVec 32 := V c main_v4
/-- `W_relᵀ[k,d]`, `W_rootᵀ[k,d]`, and `b_rel` as a row. -/
abbrev wrelT : S64x64.Idx → EReal := V c main_v18
abbrev wrootT : S64x64.Idx → EReal := V c main_v19
abbrev brelRow : S1x64.Idx → EReal := V c main_v20
/-- The first call's results: the dense layer `h[n,d]`, and per half of the nodes the per-graph sums of `h`, of `h²` and the counts. -/
abbrev h : S100000x64.Idx → EReal := V c main_v24_0
abbrev sum1 : S2x64x64.Idx → EReal := V c main_v24_1
abbrev sum2 : S2x64x64.Idx → EReal := V c main_v24_2
abbrev cntp : S2x64x1.Idx → EReal := V c main_v24_3
/-- The mean and standard-deviation tables, and the scale, weight and shift rows. -/
abbrev meanT : S64x64.Idx → EReal := V c main_v29
abbrev stdT : S64x64.Idx → EReal := V c main_v43
abbrev scaleRow : S1x64.Idx → EReal := V c main_v21
abbrev weightRow : S1x64.Idx → EReal := V c main_v22
abbrev biasRow : S1x64.Idx → EReal := V c main_v23
/-- The second call's result. -/
abbrev out : S100000x64.Idx → EReal := V c main_v44

/-- The first call's four result arrays after its twenty grid points, from entry contents `V`. -/
abbrev r0h : S100000x64.Idx → EReal := (dat0 (F := Ideal) V c).arrAt 6 cfg0.N
abbrev r0sum : S2x64x64.Idx → EReal := (dat0 (F := Ideal) V c).arrAt 7 cfg0.N
abbrev r0sumsq : S2x64x64.Idx → EReal := (dat0 (F := Ideal) V c).arrAt 8 cfg0.N
abbrev r0cnt : S2x64x1.Idx → EReal := (dat0 (F := Ideal) V c).arrAt 9 cfg0.N
/-- The second call's result array after its twenty grid points, from entry contents `V`. -/
abbrev r1out : S100000x64.Idx → EReal := (dat1 (F := Ideal) V c).arrAt 7 cfg1.N
end Contents

section Args
variable (m : (ℓ : Loc nD τ sig) → Buf (Elt Ideal) ℓ) (c : Dev nD)
/-- The program's arguments in a memory. -/
abbrev a0 : S100000x64.Idx → EReal := m ((c : Thread nD τ).loc main_arg0)
abbrev a1 : S2x1600000.Idx → BitVec 32 := m ((c : Thread nD τ).loc main_arg1)
abbrev a2 : S1600000.Idx → EReal := m ((c : Thread nD τ).loc main_arg2)
abbrev a3 : S100000.Idx → BitVec 32 := m ((c : Thread nD τ).loc main_arg3)
abbrev a4 : S64x64.Idx → EReal := m ((c : Thread nD τ).loc main_arg4)
abbrev a5 : S64.Idx → EReal := m ((c : Thread nD τ).loc main_arg5)
abbrev a6 : S64x64.Idx → EReal := m ((c : Thread nD τ).loc main_arg6)
abbrev a7 : S64.Idx → EReal := m ((c : Thread nD τ).loc main_arg7)
abbrev a8 : S64.Idx → EReal := m ((c : Thread nD τ).loc main_arg8)
abbrev a9 : S64.Idx → EReal := m ((c : Thread nD τ).loc main_arg9)
end Args

end Cert.KernelIdeal.Arr

end
-- ==== Proof.Spec.lean ====
/-
  The mathematics both programs compute, as functions over literal index types, on the extended reals.

  A node `n` (of 100000) carries a row of 64 features and belongs to the graph `β n` (of 64).
  `hval` is the dense layer: relu of (agg · W_relᵀ + b_rel + x · W_rootᵀ).
  `seg β f g` is the sum of `f` over the nodes of graph `g`; `cnt` the number of those nodes; `mean` the
  per-graph mean of a feature column; `dev` a node's deviation from the scaled mean of its graph.
  The reference takes the variance as the mean of squared deviations (`varRef`); the kernel takes it from the
  mean of squares, `E[h²] − mean² · s · (2 − s)` (`varKer`).  `outOf var` is the normalised, affinely mapped output
  for either variance.
-/
import Idealize.ShloMosaic.PureOps.Ideal
import Idealize.ShloMosaic.Lib.ValueIdx

noncomputable section

namespace Cert.GNSpec

open Idealize.ShloMosaic Idealize.ShloMosaic.ValueIdx

/-- The literal `2.0` of the kernel's variance formula. -/
abbrev two : EReal := Ideal.ofBits .f32 0x40000000#32
/-- The literal `1e-5` (as f32) both programs add under the square root. -/
abbrev eps : EReal := Ideal.ofBits .f32 0x3727C5AC#32

/-- The dense layer at node `n`, feature `d`: relu (Σₖ agg[n,k]·W_rel[d,k] + b_rel[d] + Σₖ x[n,k]·W_root[d,k]). -/
def hval (agg x : (⟨2, ![100000, 64]⟩ : Shape).Idx → EReal) (wrel wroot : (⟨2, ![64, 64]⟩ : Shape).Idx → EReal)
    (brel : (⟨1, ![64]⟩ : Shape).Idx → EReal) (n : Fin 100000) (d : Fin 64) : EReal :=
  max ((∑ k : Fin 64, agg (ix2 n k) * wrel (ix2 d k) + brel (ix1 d)) + ∑ k : Fin 64, x (ix2 n k) * wroot (ix2 d k)) 0

/-- The sum of `f` over the nodes of graph `g`. -/
def seg (β : Fin 100000 → Fin 64) (f : Fin 100000 → EReal) (g : Fin 64) : EReal :=
  ∑ n ∈ Finset.univ.filter (fun n => β n = g), f n

/-- The number of nodes of graph `g`. -/
def cnt (β : Fin 100000 → Fin 64) (g : Fin 64) : EReal := seg β (fun _ => 1) g

/-- The mean of feature `d` over graph `g`. -/
def mean (h : Fin 100000 → Fin 64 → EReal) (β : Fin 100000 → Fin 64) (g d : Fin 64) : EReal :=
  Ideal.div (seg β (fun n => h n d) g) (cnt β g)

/-- Node `n`'s deviation from the scaled mean of its own graph. -/
def dev (h : Fin 100000 → Fin 64 → EReal) (β : Fin 100000 → Fin 64) (s : Fin 64 → EReal) (n : Fin 100000) (d : Fin 64) : EReal :=
  h n d - mean h β (β n) d * s d

/-- The reference's variance: the mean over the graph of the squared deviations. -/
def varRef (h : Fin 100000 → Fin 64 → EReal) (β : Fin 100000 → Fin 64) (s : Fin 64 → EReal) (g d : Fin 64) : EReal :=
  Ideal.div (seg β (fun n => dev h β s n d * dev h β s n d) g) (cnt β g)

/-- The kernel's variance: the mean of squares less `mean² · s · (2 − s)`. -/
def varKer (h : Fin 100000 → Fin 64 → EReal) (β : Fin 100000 → Fin 64) (s : Fin 64 → EReal) (g d : Fin 64) : EReal :=
  Ideal.div (seg β (fun n => h n d * h n d) g) (cnt β g) - mean h β g d * mean h β g d * s d * (two - s d)

/-- The standard deviation of a variance table: `sqrt (var + eps)`. -/
def stdOf (var : Fin 64 → Fin 64 → EReal) (g d : Fin 64) : EReal := Ideal.sqrt (var g d + eps)

/-- The normalised output for a variance table: `w · dev / std + bias`. -/
def outOf (var : Fin 64 → Fin 64 → EReal) (h : Fin 100000 → Fin 64 → EReal) (β : Fin 100000 → Fin 64)
    (s w bias : Fin 64 → EReal) (n : Fin 100000) (d : Fin 64) : EReal :=
  Ideal.div (w d * dev h β s n d) (stdOf var (β n) d) + bias d

/-- An array all of whose entries are real numbers. -/
def IsReal {ι : Type} (v : ι → EReal) : Prop := ∀ i, ∃ r : ℝ, v i = (r : EReal)

end Cert.GNSpec

end
-- ==== Proof.HostK.lean ====
/-
  The host operations of the kernel's program, read as values: what the first kernel call finds in its operand
  arrays (the edge aggregation, the two transposed weight matrices, the bias row, the graph ids as a column), and
  what the host computes between the two calls from the per-half partial sums: the mean Σh / count, and the
  standard deviation sqrt (Σh² / count − mean² · s · (2 − s) + eps).
-/
import proofs.«426248_j35416300323760_2_alg».proof.Proof.Arrays
import proofs.«426248_j35416300323760_2_alg».proof.Proof.Gen.ReferenceIdeal.Read
import proofs.«426248_j35416300323760_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostK

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The host operations between the calls, read at an entry -/

/-- The host's sum over the leading axis of a [2,64,64] array from +0.0: the two halves' entries added. -/
theorem reduce_halves (X : S2x64x64.Idx → EReal) (g d : Fin 64) :
    Host.reduceAdd (F := Ideal) (φ := .f32) X (constant (F := Ideal) S_ .f32 0#32) reducesTo_S2x64x64_S64x64_d0 h_S_ (ix2 g d)
      = X (ix3 0 g d) + X (ix3 1 g d) := by
  have h : S2x64x64.Reduces [0] S64x64 := by decide
  show Ideal.hostReduceAdd reducesTo_S2x64x64_S64x64_d0 X (Ideal.ofBits .f32 0#32) (ix2 g d) = _
  rw [Ideal.hostReduceAdd_single _ h, Ideal.ofBits_zero_f32, zero_add]
  show ∑ k : Fin 2, X (h.lift (ix2 g d) k) = _
  rw [Fin.sum_univ_two]
  congr 1 <;> exact congrArg X (funext fun a => Fin.ext (by match a with | ⟨0,_⟩ => rfl | ⟨1,_⟩ => rfl | ⟨2,_⟩ => rfl))

/-- The same for the [2,64,1] counts. -/
theorem reduce_halves1 (X : S2x64x1.Idx → EReal) (g : Fin 64) :
    Host.reduceAdd (F := Ideal) (φ := .f32) X (constant (F := Ideal) S_ .f32 0#32) reducesTo_S2x64x1_S64x1_d0 h_S_ (ix2 g 0)
      = X (ix3 0 g 0) + X (ix3 1 g 0) := by
  have h : S2x64x1.Reduces [0] S64x1 := by decide
  show Ideal.hostReduceAdd reducesTo_S2x64x1_S64x1_d0 X (Ideal.ofBits .f32 0#32) (ix2 g 0) = _
  rw [Ideal.hostReduceAdd_single _ h, Ideal.ofBits_zero_f32, zero_add]
  show ∑ k : Fin 2, X (h.lift (ix2 g 0) k) = _
  rw [Fin.sum_univ_two]
  congr 1 <;> exact congrArg X (funext fun a => Fin.ext (by match a with | ⟨0,_⟩ => rfl | ⟨1,_⟩ => rfl | ⟨2,_⟩ => rfl))

/-- A column broadcast along the rows reads the column's entry of the same row. -/
theorem bcast_col {α : Type} (Y : S64x1.Idx → α) (g d : Fin 64) :
    broadcastInDim S64x64 ![0, 1] bcast_S64x1_S64x64_0_1 Y (ix2 g d) = Y (ix2 g 0) :=
  broadcastInDim_apply _ bcast_S64x1_S64x64_0_1 Y _ _ (fun a => match a with
    | ⟨0, _⟩ => by show g.val = if (64 : Nat) = 1 then 0 else g.val; rw [if_neg (by decide)]
    | ⟨1, _⟩ => by show 0 = if (1 : Nat) = 1 then 0 else d.val; rw [if_pos rfl])

/-- A row broadcast down the columns reads the row's entry of the same column. -/
theorem bcast_row {α : Type} (Y : S1x64.Idx → α) (g d : Fin 64) :
    broadcastInDim S64x64 ![0, 1] bcast_S1x64_S64x64_0_1 Y (ix2 g d) = Y (ix2 0 d) :=
  broadcastInDim_apply _ bcast_S1x64_S64x64_0_1 Y _ _ (fun a => match a with
    | ⟨0, _⟩ => by show 0 = if (1 : Nat) = 1 then 0 else g.val; rw [if_pos rfl]
    | ⟨1, _⟩ => by show d.val = if (64 : Nat) = 1 then 0 else d.val; rw [if_neg (by decide)])

/-- A scalar broadcast to any shape reads the scalar. -/
theorem bcast_scalar {α : Type} {T : Shape} (h : S_.BroadcastsInDim T ![]) (x : S_.Idx → α) (j : T.Idx) :
    broadcastInDim T ![] h x j = x ix0 := by
  unfold broadcastInDim; exact congrArg x (funext fun a => a.elim0)

theorem hostSqrt_apply {s : Shape} {φ : FTy} (a : FVec Ideal s φ) (i : s.Idx) : Host.sqrt a i = Ideal.sqrt (a i) := rfl
theorem hostDivf_apply' {s : Shape} {φ : FTy} (a b : FVec Ideal s φ) (i : s.Idx) : Host.divf a b i = Ideal.div (a i) (b i) := rfl

/-- The mean table's term at an entry. -/
theorem mean_val (S1 : S2x64x64.Idx → EReal) (C : S2x64x1.Idx → EReal) (g d : Fin 64) :
    Host.divf (F := Ideal) (φ := .f32)
        (Host.reduceAdd (F := Ideal) (φ := .f32) S1 (constant (F := Ideal) S_ .f32 0#32) reducesTo_S2x64x64_S64x64_d0 h_S_)
        (broadcastInDim S64x64 ![0, 1] bcast_S64x1_S64x64_0_1
          (Host.reduceAdd (F := Ideal) (φ := .f32) C (constant (F := Ideal) S_ .f32 0#32) reducesTo_S2x64x1_S64x1_d0 h_S_)) (ix2 g d)
      = Ideal.div (S1 (ix3 0 g d) + S1 (ix3 1 g d)) (C (ix3 0 g 0) + C (ix3 1 g 0)) := by
  rw [hostDivf_apply', reduce_halves, bcast_col, reduce_halves1]

/-- The standard-deviation table's term at an entry, over a mean table `M`. -/
theorem std_val (M : S64x64.Idx → EReal) (S2 : S2x64x64.Idx → EReal) (C : S2x64x1.Idx → EReal) (s : S64.Idx → EReal) (g d : Fin 64) :
    Host.sqrt (F := Ideal) (φ := .f32)
      (addf
        (subf
          (Host.divf (F := Ideal) (φ := .f32)
            (Host.reduceAdd (F := Ideal) (φ := .f32) S2 (constant (F := Ideal) S_ .f32 0#32) reducesTo_S2x64x64_S64x64_d0 h_S_)
            (broadcastInDim S64x64 ![0, 1] bcast_S64x1_S64x64_0_1
              (Host.reduceAdd (F := Ideal) (φ := .f32) C (constant (F := Ideal) S_ .f32 0#32) reducesTo_S2x64x1_S64x1_d0 h_S_)))
          (mulf
            (mulf (mulf M M)
              (broadcastInDim S64x64 ![0, 1] bcast_S1x64_S64x64_0_1 (shapeCast S1x64 s shapeCasts_S64_S1x64)))
            (broadcastInDim S64x64 ![0, 1] bcast_S1x64_S64x64_0_1
              (subf (broadcastInDim S1x64 ![] bcast_S_S1x64 (constant (F := Ideal) S_ .f32 0x40000000#32))
                (shapeCast S1x64 s shapeCasts_S64_S1x64)))))
        (broadcastInDim S64x64 ![] bcast_S_S64x64 (constant (F := Ideal) S_ .f32 0x3727C5AC#32))) (ix2 g d)
      = Ideal.sqrt ((Ideal.div (S2 (ix3 0 g d) + S2 (ix3 1 g d)) (C (ix3 0 g 0) + C (ix3 1 g 0))
            - M (ix2 g d) * M (ix2 g d) * s (ix1 d) * (Cert.GNSpec.two - s (ix1 d)))
          + Cert.GNSpec.eps) := by
  rw [hostSqrt_apply, addf_apply, subf_apply, hostDivf_apply', reduce_halves, bcast_col, reduce_halves1,
    mulf_apply, mulf_apply, mulf_apply, bcast_row, bcast_row, subf_apply, bcast_scalar, bcast_scalar,
    shapeCast_a_1a_apply]
  rfl

/-! ## Before the first kernel call (`V1`: the contents after the first stretch of host operations) -/

/-- The edge aggregation the first call reads is the reference's own scatter-add term of the same arguments. -/
theorem V1_agg : Arr.agg (V1 (F := Ideal) m ρ) c
    = Cert.ReferenceIdeal.Read.val_main_v16 (F := Ideal) (Arr.a0 m c) (Arr.a1 m c) (Arr.a2 m c) := by
  show StableHlo.after hostOps0 (W0 m ρ c) (Proc.devRef .tc main_v17) = _
  after_results_simp
  unfold Cert.ReferenceIdeal.Read.val_main_v16 Cert.ReferenceIdeal.Read.val_main_v15 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0
  rfl

theorem V1_x : Arr.x (V1 (F := Ideal) m ρ) c = Arr.a0 m c := by
  show StableHlo.after hostOps0 (W0 m ρ c) (Proc.devRef .tc main_arg0) = _
  after_results_simp

/-- The transposed weights. -/
theorem V1_wrelT (k d : Fin 64) : Arr.wrelT (V1 (F := Ideal) m ρ) c (ix2 k d) = Arr.a4 m c (ix2 d k) := by
  have e : Arr.wrelT (V1 (F := Ideal) m ρ) c = transpose S64x64 [1, 0] (Arr.a4 m c) transposes_S64x64_S64x64_1_0 := by
    show StableHlo.after hostOps0 (W0 m ρ c) (Proc.devRef .tc main_v18) = _
    after_results_simp
  exact (congrFun e (ix2 k d)).trans (transpose_ix2_apply (Arr.a4 m c) transposes_S64x64_S64x64_1_0 k d)
theorem V1_wrootT (k d : Fin 64) : Arr.wrootT (V1 (F := Ideal) m ρ) c (ix2 k d) = Arr.a6 m c (ix2 d k) := by
  have e : Arr.wrootT (V1 (F := Ideal) m ρ) c = transpose S64x64 [1, 0] (Arr.a6 m c) transposes_S64x64_S64x64_1_0 := by
    show StableHlo.after hostOps0 (W0 m ρ c) (Proc.devRef .tc main_v19) = _
    after_results_simp
  exact (congrFun e (ix2 k d)).trans (transpose_ix2_apply (Arr.a6 m c) transposes_S64x64_S64x64_1_0 k d)

/-- The bias as a row. -/
theorem V1_brel (d : Fin 64) : Arr.brelRow (V1 (F := Ideal) m ρ) c (ix2 0 d) = Arr.a5 m c (ix1 d) := by
  have e : Arr.brelRow (V1 (F := Ideal) m ρ) c = shapeCast S1x64 (Arr.a5 m c) shapeCasts_S64_S1x64 := by
    show StableHlo.after hostOps0 (W0 m ρ c) (Proc.devRef .tc main_v20) = _
    after_results_simp
    rfl
  exact (congrFun e (ix2 0 d)).trans (shapeCast_a_1a_apply (Arr.a5 m c) shapeCasts_S64_S1x64 0 d)

/-- The graph ids as a column, as an array: the vector of ids cast to one column. -/
theorem W1_bcol : W1 (F := Ideal) m ρ c (Proc.devRef .tc main_v4) = shapeCast S100000x1 (Arr.a3 m c) shapeCasts_S100000_S100000x1 := by
  show StableHlo.after hostOps0 (W0 m ρ c) (Proc.devRef .tc main_v4) = _
  after_results_simp
  rfl

/-- A vector cast to one column reads, at row `n`, the vector's entry `n`. -/
theorem col_apply {α : Type} (x : S100000.Idx → α) (n : Fin 100000) :
    shapeCast S100000x1 x shapeCasts_S100000_S100000x1 (ix2 n 0) = x (ix1 n) := by
  refine shapeCast_apply x shapeCasts_S100000_S100000x1 _ _ ?_
  rw [Shape.rowMajor_val_two, Shape.rowMajor_val_one]
  show n.val = n.val * 1 + 0
  omega

/-- The graph ids as a column. -/
theorem V1_bcol (n : Fin 100000) : Arr.bcol (V1 (F := Ideal) m ρ) c (ix2 n 0) = Arr.a3 m c (ix1 n) :=
  (congrFun (W1_bcol m ρ c) (ix2 n 0)).trans (col_apply (Arr.a3 m c) n)

/-! ## Between the two kernel calls (`V2`: the contents at the first call's exit; `V3`: after the second stretch) -/

/-- The first call's dense output reaches the second call untouched. -/
theorem V3_h : Arr.h (V3 (F := Ideal) m ρ) c = Arr.h (V2 (F := Ideal) m ρ) c := by
  show StableHlo.after hostOps1 (W2 m ρ c) (Proc.devRef .tc main_v24_0) = _
  after_results_simp

theorem V3_bcol (n : Fin 100000) : Arr.bcol (V3 (F := Ideal) m ρ) c (ix2 n 0) = Arr.a3 m c (ix1 n) := by
  have e3 : Arr.bcol (V3 (F := Ideal) m ρ) c = W2 (F := Ideal) m ρ c (Proc.devRef .tc main_v4) := by
    show StableHlo.after hostOps1 (W2 m ρ c) (Proc.devRef .tc main_v4) = _
    after_results_simp
  have e2 : W2 (F := Ideal) m ρ c (Proc.devRef .tc main_v4) = W1 (F := Ideal) m ρ c (Proc.devRef .tc main_v4) :=
    (W2_arr m ρ c 2).trans (((dat0 (V1 m ρ) c).arrAt_in 2 rfl _).trans (A_eq0 (V1 m ρ) c 2))
  exact (congrFun ((e3.trans e2).trans (W1_bcol m ρ c)) (ix2 n 0)).trans (col_apply (Arr.a3 m c) n)

/-- A buffer the first stretch wrote and neither the first call nor the second stretch writes, read at the second
    call's entry, holds what the first stretch left. -/
theorem V3_scale (d : Fin 64) : Arr.scaleRow (V3 (F := Ideal) m ρ) c (ix2 0 d) = Arr.a9 m c (ix1 d) := by
  have e3 : Arr.scaleRow (V3 (F := Ideal) m ρ) c = W2 (F := Ideal) m ρ c (Proc.devRef .tc main_v21) := by
    show StableHlo.after hostOps1 (W2 m ρ c) (Proc.devRef .tc main_v21) = _
    after_results_simp
  have e2 : W2 (F := Ideal) m ρ c (Proc.devRef .tc main_v21) = W1 (F := Ideal) m ρ c (Proc.devRef .tc main_v21) :=
    W2_of_ne m ρ c main_v21 (by decide)
  have e1 : W1 (F := Ideal) m ρ c (Proc.devRef .tc main_v21) = shapeCast S1x64 (Arr.a9 m c) shapeCasts_S64_S1x64 := by
    show StableHlo.after hostOps0 (W0 m ρ c) (Proc.devRef .tc main_v21) = _
    after_results_simp
    rfl
  exact (congrFun ((e3.trans e2).trans e1) (ix2 0 d)).trans (shapeCast_a_1a_apply (Arr.a9 m c) shapeCasts_S64_S1x64 0 d)
theorem V3_weight (d : Fin 64) : Arr.weightRow (V3 (F := Ideal) m ρ) c (ix2 0 d) = Arr.a7 m c (ix1 d) := by
  have e3 : Arr.weightRow (V3 (F := Ideal) m ρ) c = W2 (F := Ideal) m ρ c (Proc.devRef .tc main_v22) := by
    show StableHlo.after hostOps1 (W2 m ρ c) (Proc.devRef .tc main_v22) = _
    after_results_simp
  have e2 : W2 (F := Ideal) m ρ c (Proc.devRef .tc main_v22) = W1 (F := Ideal) m ρ c (Proc.devRef .tc main_v22) :=
    W2_of_ne m ρ c main_v22 (by decide)
  have e1 : W1 (F := Ideal) m ρ c (Proc.devRef .tc main_v22) = shapeCast S1x64 (Arr.a7 m c) shapeCasts_S64_S1x64 := by
    show StableHlo.after hostOps0 (W0 m ρ c) (Proc.devRef .tc main_v22) = _
    after_results_simp
    rfl
  exact (congrFun ((e3.trans e2).trans e1) (ix2 0 d)).trans (shapeCast_a_1a_apply (Arr.a7 m c) shapeCasts_S64_S1x64 0 d)
theorem V3_bias (d : Fin 64) : Arr.biasRow (V3 (F := Ideal) m ρ) c (ix2 0 d) = Arr.a8 m c (ix1 d) := by
  have e3 : Arr.biasRow (V3 (F := Ideal) m ρ) c = W2 (F := Ideal) m ρ c (Proc.devRef .tc main_v23) := by
    show StableHlo.after hostOps1 (W2 m ρ c) (Proc.devRef .tc main_v23) = _
    after_results_simp
  have e2 : W2 (F := Ideal) m ρ c (Proc.devRef .tc main_v23) = W1 (F := Ideal) m ρ c (Proc.devRef .tc main_v23) :=
    W2_of_ne m ρ c main_v23 (by decide)
  have e1 : W1 (F := Ideal) m ρ c (Proc.devRef .tc main_v23) = shapeCast S1x64 (Arr.a8 m c) shapeCasts_S64_S1x64 := by
    show StableHlo.after hostOps0 (W0 m ρ c) (Proc.devRef .tc main_v23) = _
    after_results_simp
    rfl
  exact (congrFun ((e3.trans e2).trans e1) (ix2 0 d)).trans (shapeCast_a_1a_apply (Arr.a8 m c) shapeCasts_S64_S1x64 0 d)

/-- The mean table as an array: the host's quotient of the summed halves. -/
theorem V3_mean_arr : Arr.meanT (V3 (F := Ideal) m ρ) c
    = Host.divf (F := Ideal) (φ := .f32)
        (Host.reduceAdd (F := Ideal) (φ := .f32) (Arr.sum1 (V2 (F := Ideal) m ρ) c) (constant (F := Ideal) S_ .f32 0#32) reducesTo_S2x64x64_S64x64_d0 h_S_)
        (broadcastInDim S64x64 ![0, 1] bcast_S64x1_S64x64_0_1
          (Host.reduceAdd (F := Ideal) (φ := .f32) (Arr.cntp (V2 (F := Ideal) m ρ) c) (constant (F := Ideal) S_ .f32 0#32) reducesTo_S2x64x1_S64x1_d0 h_S_)) := by
  show StableHlo.after hostOps1 (W2 m ρ c) (Proc.devRef .tc main_v29) = _
  after_results_simp

/-- The mean table: the two halves' sums over the two halves' counts. -/
theorem V3_mean (g d : Fin 64) : Arr.meanT (V3 (F := Ideal) m ρ) c (ix2 g d)
    = Ideal.div (Arr.sum1 (V2 (F := Ideal) m ρ) c (ix3 0 g d) + Arr.sum1 (V2 (F := Ideal) m ρ) c (ix3 1 g d))
        (Arr.cntp (V2 (F := Ideal) m ρ) c (ix3 0 g 0) + Arr.cntp (V2 (F := Ideal) m ρ) c (ix3 1 g 0)) :=
  (congrFun (V3_mean_arr m ρ c) (ix2 g d)).trans
    (mean_val (Arr.sum1 (V2 (F := Ideal) m ρ) c) (Arr.cntp (V2 (F := Ideal) m ρ) c) g d)

/-- The scale vector is still the program's argument at the first call's exit. -/
theorem W2_a9 : W2 (F := Ideal) m ρ c (Proc.devRef .tc main_arg9) = Arr.a9 m c :=
  (W2_of_ne m ρ c main_arg9 (by decide)).trans (by
    show StableHlo.after hostOps0 (W0 m ρ c) (Proc.devRef .tc main_arg9) = _
    after_results_simp)

/-- The standard-deviation table as an array, over the mean table. -/
theorem V3_std_arr : Arr.stdT (V3 (F := Ideal) m ρ) c
    = Host.sqrt (F := Ideal) (φ := .f32)
      (addf
        (subf
          (Host.divf (F := Ideal) (φ := .f32)
            (Host.reduceAdd (F := Ideal) (φ := .f32) (Arr.sum2 (V2 (F := Ideal) m ρ) c) (constant (F := Ideal) S_ .f32 0#32) reducesTo_S2x64x64_S64x64_d0 h_S_)
            (broadcastInDim S64x64 ![0, 1] bcast_S64x1_S64x64_0_1
              (Host.reduceAdd (F := Ideal) (φ := .f32) (Arr.cntp (V2 (F := Ideal) m ρ) c) (constant (F := Ideal) S_ .f32 0#32) reducesTo_S2x64x1_S64x1_d0 h_S_)))
          (mulf
            (mulf (mulf (Arr.meanT (V3 (F := Ideal) m ρ) c) (Arr.meanT (V3 (F := Ideal) m ρ) c))
              (broadcastInDim S64x64 ![0, 1] bcast_S1x64_S64x64_0_1 (shapeCast S1x64 (Arr.a9 m c) shapeCasts_S64_S1x64)))
            (broadcastInDim S64x64 ![0, 1] bcast_S1x64_S64x64_0_1
              (subf (broadcastInDim S1x64 ![] bcast_S_S1x64 (constant (F := Ideal) S_ .f32 0x40000000#32))
                (shapeCast S1x64 (Arr.a9 m c) shapeCasts_S64_S1x64)))))
        (broadcastInDim S64x64 ![] bcast_S_S64x64 (constant (F := Ideal) S_ .f32 0x3727C5AC#32))) := by
  rw [V3_mean_arr m ρ c, ← W2_a9 m ρ c]
  show StableHlo.after hostOps1 (W2 m ρ c) (Proc.devRef .tc main_v43) = _
  after_results_simp
  rfl

/-- The standard-deviation table. -/
theorem V3_std (g d : Fin 64) : Arr.stdT (V3 (F := Ideal) m ρ) c (ix2 g d)
    = Ideal.sqrt ((Ideal.div (Arr.sum2 (V2 (F := Ideal) m ρ) c (ix3 0 g d) + Arr.sum2 (V2 (F := Ideal) m ρ) c (ix3 1 g d))
            (Arr.cntp (V2 (F := Ideal) m ρ) c (ix3 0 g 0) + Arr.cntp (V2 (F := Ideal) m ρ) c (ix3 1 g 0))
          - Arr.meanT (V3 (F := Ideal) m ρ) c (ix2 g d) * Arr.meanT (V3 (F := Ideal) m ρ) c (ix2 g d)
            * Arr.a9 m c (ix1 d) * (Cert.GNSpec.two - Arr.a9 m c (ix1 d)))
        + Cert.GNSpec.eps) :=
  (congrFun (V3_std_arr m ρ c) (ix2 g d)).trans
    (std_val (Arr.meanT (V3 (F := Ideal) m ρ) c) (Arr.sum2 (V2 (F := Ideal) m ρ) c) (Arr.cntp (V2 (F := Ideal) m ρ) c) (Arr.a9 m c) g d)

end Cert.KernelIdeal.HostK

end
-- ==== Proof.Payload.lean ====
/-
  The two kernel bodies' arithmetic, read at an index on the extended reals.

  First kernel, per tile of 5000 nodes: the dense layer (two 64-term products, a bias row, relu), the one-hot
  matrix of the tile's graph ids, and the three accumulator updates: accumulator + (one-hot)ᵀ · value, a sum over
  the tile's 5000 rows.  Second kernel: the one-hot matrix times the mean and standard-deviation tables, a sum
  over the 64 graphs, then the normalisation.
-/
import proofs.«426248_j35416300323760_2_alg».proof.Proof.Gen.KernelIdeal.Skeleton
import proofs.«426248_j35416300323760_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The one-hot entry: 1 where the row's graph id is the column, else 0. -/
def oh (b : BitVec 32) (g : Fin 64) : EReal := if b = BitVec.ofNat 32 g.val then 1 else 0

/-! The dense layer's product contracts axis 1 of the left operand with axis 0 of the right: the operand indices at
output `(r, d)` and contraction coordinate `k` are `(r, k)` and `(k, d)`. -/
theorem lhs_dense_0 (i : S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin S5000x64.rank) ∈ Cert.KernelIdeal.dot_S5000x64_S64x64_S5000x64_1_0_0_1_n_n.lhsBatch by decide), dif_pos (show (0 : Fin S5000x64.rank) ∈ Cert.KernelIdeal.dot_S5000x64_S64x64_S5000x64_1_0_0_1_n_n.lhsNonContracting by decide)]
  rfl
theorem lhs_dense_1 (i : S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
theorem rhs_dense_0 (i : S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
theorem rhs_dense_1 (i : S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin S64x64.rank) ∈ Cert.KernelIdeal.dot_S5000x64_S64x64_S5000x64_1_0_0_1_n_n.rhsBatch by decide), dif_pos (show (1 : Fin S64x64.rank) ∈ Cert.KernelIdeal.dot_S5000x64_S64x64_S5000x64_1_0_0_1_n_n.rhsNonContracting by decide)]
  rfl

/-- A 5000×64 by 64×64 product into the zero accumulator, read at `(r, d)`: the 64-term sum of products. -/
theorem dense_mm_apply {φ₁ φ₂ : FTy} (prec : Option ContractPrecision) (lhs : FVec Ideal S5000x64 φ₁) (rhs : FVec Ideal S64x64 φ₂)
    (r : Fin 5000) (d : Fin 64) :
    matmul (F := Ideal) Cert.KernelIdeal.dot_S5000x64_S64x64_S5000x64_1_0_0_1_n_n prec lhs rhs (constant S5000x64 .f32 0x00000000#32) (ix2 r d)
      = ∑ k : Fin 64, lhs (ix2 r k) * rhs (ix2 k d) := by
  show FloatOps.matmul Cert.KernelIdeal.dot_S5000x64_S64x64_S5000x64_1_0_0_1_n_n prec lhs rhs (constant S5000x64 .f32 0x00000000#32) (ix2 r d) = _
  rw [Ideal.matmul_constant_zero_apply, ← Equiv.sum_comp (ValueIdx.contrEquiv1 Cert.KernelIdeal.dot_S5000x64_S64x64_S5000x64_1_0_0_1_n_n 64 rfl rfl).symm]
  refine Finset.sum_congr rfl fun k _ => ?_
  have hk := ValueIdx.contrEquiv1_symm_val Cert.KernelIdeal.dot_S5000x64_S64x64_S5000x64_1_0_0_1_n_n 64 rfl rfl k
  have el : Cert.KernelIdeal.dot_S5000x64_S64x64_S5000x64_1_0_0_1_n_n.lhsIdx (ix2 r d) ((ValueIdx.contrEquiv1 Cert.KernelIdeal.dot_S5000x64_S64x64_S5000x64_1_0_0_1_n_n 64 rfl rfl).symm k) = ix2 r k := funext fun a => Fin.ext (by
    match a with
    | ⟨0, _⟩ => exact lhs_dense_0 _ _
    | ⟨1, _⟩ => exact (lhs_dense_1 _ _).trans hk)
  have er : Cert.KernelIdeal.dot_S5000x64_S64x64_S5000x64_1_0_0_1_n_n.rhsIdx (ix2 r d) ((ValueIdx.contrEquiv1 Cert.KernelIdeal.dot_S5000x64_S64x64_S5000x64_1_0_0_1_n_n 64 rfl rfl).symm k) = ix2 k d := funext fun a => Fin.ext (by
    match a with
    | ⟨0, _⟩ => exact (rhs_dense_0 _ _).trans hk
    | ⟨1, _⟩ => exact rhs_dense_1 _ _)
  rw [el, er]

/-- The dense layer of a tile at row `r`, feature `d`. -/
theorem pay7_apply (a x : Vec Ideal S5000x64 .f32) (w1 w2 : Vec Ideal S64x64 .f32) (b1 : Vec Ideal S1x64 .f32) (r : Fin 5000) (d : Fin 64) :
    k0_pay7 (F := Ideal) a x w1 w2 b1 (ix2 r d)
      = max ((∑ k : Fin 64, a (ix2 r k) * w1 (ix2 k d) + b1 (ix2 0 d)) + ∑ k : Fin 64, x (ix2 r k) * w2 (ix2 k d)) 0 := by
  unfold k0_pay7
  simp only [shapeCast_self]
  refine (maximumf_apply _ _ _).trans ?_
  refine congrArg₂ max ?_ Ideal.ofBits_zero_f32
  refine (addf_apply _ _ _).trans ?_
  refine congrArg₂ (· + ·) ?_ (dense_mm_apply _ _ _ r d)
  refine (addf_apply _ _ _).trans ?_
  exact congrArg₂ (· + ·) (dense_mm_apply _ _ _ r d) (broadcastTo_1b_ab_apply _ _ r d)

/-- A column broadcast over many: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The equality comparison of two equal words is the bit 1. -/
theorem cmpi_eq_pos {a b : BitVec 32} (h : a = b) : IntOp.cmpi .eq a b = 1#1 := by
  subst h; simp [IntOp.cmpi]
/-- The equality comparison of two different words is the bit 0. -/
theorem cmpi_eq_neg {a b : BitVec 32} (h : ¬ a = b) : IntOp.cmpi .eq a b = 0#1 := by
  have e : (a == b) = false := beq_eq_false_iff_ne.mpr h
  show BitVec.ofBool (a == b) = 0#1
  rw [e]; rfl

/-- The one-hot matrix of a tile's graph ids. -/
theorem pay8_apply (bv : Vec Ideal S5000x1 .i32) (r : Fin 5000) (g : Fin 64) :
    k0_pay8 (F := Ideal) bv (ix2 r g) = oh (bv (ix2 r 0)) g := by
  unfold k0_pay8
  show FloatOps.sitofp (F := Ideal) .f32 ((IntOp.cmpi .eq
      (broadcastTo S5000x64 (shapeCast S5000x1 bv shapeCasts_S5000x1_S5000x1) broadcasts_S5000x1_S5000x64 (ix2 r g))
      (iota .tc S5000x64 32 [1] iota_S5000x64_d1_w32 (ix2 r g))).setWidth 32) = _
  rw [shapeCast_self, broadcastTo_a1_ab_apply, iota_single_apply]
  show FloatOps.sitofp (F := Ideal) .f32 (BitVec.setWidth 32 (IntOp.cmpi .eq (bv (ix2 r 0)) (BitVec.ofNat 32 g.val))) = _
  unfold oh
  by_cases h : bv (ix2 r 0) = BitVec.ofNat 32 g.val
  · rw [if_pos h, cmpi_eq_pos h]
    show (((BitVec.setWidth 32 1#1).toInt : ℝ) : EReal) = 1
    have e : (BitVec.setWidth 32 1#1).toInt = 1 := by decide
    rw [e, Int.cast_one, EReal.coe_one]
  · rw [if_neg h, cmpi_eq_neg h]
    show (((BitVec.setWidth 32 0#1).toInt : ℝ) : EReal) = 0
    have e : (BitVec.setWidth 32 0#1).toInt = 0 := by decide
    rw [e, Int.cast_zero, EReal.coe_zero]

/-- The carried accumulator read as a 64×64 table. -/
theorem pay9_apply (acc : Vec Ideal S1x64x64 .f32) (g d : Fin 64) :
    k0_pay9 (F := Ideal) acc (ix2 g d) = acc (ix3 0 g d) := by
  unfold k0_pay9
  exact shapeCast_1ab_ab_apply acc _ g d

/-- The three resets write zero. -/
theorem pay4_apply (g d : Fin 64) : k0_pay4 (F := Ideal) (ix3 0 g d) = 0 := by
  unfold k0_pay4
  refine (shapeCast_ab_1ab_apply _ _ 0 g d).trans ?_
  exact Ideal.ofBits_zero_f32
theorem pay5_apply (g d : Fin 64) : k0_pay5 (F := Ideal) (ix3 0 g d) = 0 := by
  unfold k0_pay5
  refine (shapeCast_ab_1ab_apply _ _ 0 g d).trans ?_
  exact Ideal.ofBits_zero_f32
theorem pay6_apply (g : Fin 64) : k0_pay6 (F := Ideal) (ix3 0 g 0) = 0 := by
  unfold k0_pay6
  refine (shapeCast_ab_1ab_apply _ _ 0 g 0).trans ?_
  exact Ideal.ofBits_zero_f32

end Cert.KernelIdeal.Pay

end
-- ==== Proof.Spec2.lean ====
/-
  Two more functions of the specification, as the kernel's program meets them: the dense layer over weights that
  are already transposed and a bias held as a row, and a graph's sum restricted to one half of the nodes (the
  first kernel accumulates nodes 0 … 49999 and 50000 … 99999 separately).
-/
import proofs.«426248_j35416300323760_2_alg».proof.Proof.Spec

noncomputable section

namespace Cert.GNSpec

open Idealize.ShloMosaic Idealize.ShloMosaic.ValueIdx

/-- The dense layer over transposed weights `wᵀ[k,d]` and a bias row `b[0,d]`. -/
def hvalT (agg x : (⟨2, ![100000, 64]⟩ : Shape).Idx → EReal) (wrelT wrootT : (⟨2, ![64, 64]⟩ : Shape).Idx → EReal)
    (brel2 : (⟨2, ![1, 64]⟩ : Shape).Idx → EReal) (n : Fin 100000) (d : Fin 64) : EReal :=
  max ((∑ k : Fin 64, agg (ix2 n k) * wrelT (ix2 k d) + brel2 (ix2 0 d)) + ∑ k : Fin 64, x (ix2 n k) * wrootT (ix2 k d)) 0

/-- The sum of `f` over the nodes of graph `g` in half `k` of the node range. -/
def segHalf (β : Fin 100000 → Fin 64) (f : Fin 100000 → EReal) (k : Fin 2) (g : Fin 64) : EReal :=
  ∑ n ∈ Finset.univ.filter (fun n : Fin 100000 => n.val / 50000 = k.val ∧ β n = g), f n

end Cert.GNSpec

end
-- ==== Proof.Region0H.lean ====
/-
  The first kernel call's dense output as an array: tile t (5000 rows) of the result holds relu (agg · W_relᵀ + b_rel +
  x · W_rootᵀ) of rows 5000 t … 5000 t + 4999 of the operand arrays, and the twenty tiles cover the 100000 rows.
-/
import proofs.«426248_j35416300323760_2_alg».proof.Proof.Arrays
import proofs.«426248_j35416300323760_2_alg».proof.Proof.Payload
import proofs.«426248_j35416300323760_2_alg».proof.Proof.Spec2
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.R0

open Cert.KernelIdeal Cert.KernelIdeal.Gen Idealize.ShloMosaic Idealize.ShloMosaic.TcCoe Idealize.SL.Sem Idealize.ShloMosaic.ValueIdx
open Idealize.ShloMosaic.Pipeline (Dat Cfg Window)
open Idealize.ShloMosaic.Tactic

variable {F : FTy → Type} [FloatOps F]

theorem hz : (![0, 0] : Fin 2 → Nat) = fun _ => 0 := funext fun a => by fin_cases a <;> rfl

/-- At a reset point the body leaves the dense layer of the point's input blocks in the tile's buffer: its one covering
    store's payload, whose loads read the whole buffers. -/
theorem tileA_eq (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x1 .f32) (harg11 : arg11.IsWhole) (hc0 : cond0_0 i) (x0 : Vec F S5000x64 .f32) (x1 : Vec F S5000x64 .f32) (x2 : Vec F S5000x1 .i32) (x3 : Vec F S64x64 .f32) (x4 : Vec F S1x64 .f32) (x5 : Vec F S64x64 .f32) :
    out0_A_6 c i arg2 harg2 arg3 harg3 arg4 harg4 arg5 harg5 arg6 harg6 arg7 harg7 arg8 harg8 arg9 harg9 arg10 harg10 arg11 harg11 hc0 x0 x1 x2 x3 x4 x5 = k0_pay7 x0 x1 x3 x5 x4 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  try sl_unfold_words
  rw [View.canon_unit_zero hz]
  simp only [View.readAt_eq_ld, harg2.read_unread, harg3.read_unread, harg5.read_unread, harg6.read_unread, harg7.read_unread,
    View.ld_unit_zero (S := S5000x64) hz, View.ld_unit_zero (S := S64x64) hz, View.ld_unit_zero (S := S1x64) hz]

/-- At every other point too: the accumulators the body carries do not enter the tile. -/
theorem tileB_eq (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x1 .f32) (harg11 : arg11.IsWhole) (hc0 : ¬cond0_0 i) (x0 : Vec F S5000x64 .f32) (x1 : Vec F S5000x64 .f32) (x2 : Vec F S5000x1 .i32) (x3 : Vec F S64x64 .f32) (x4 : Vec F S1x64 .f32) (x5 : Vec F S64x64 .f32) (xo7 : Vec F S1x64x64 .f32) (xo8 : Vec F S1x64x64 .f32) (xo9 : Vec F S1x64x1 .f32) :
    out0_B_6 c i arg2 harg2 arg3 harg3 arg4 harg4 arg5 harg5 arg6 harg6 arg7 harg7 arg8 harg8 arg9 harg9 arg10 harg10 arg11 harg11 hc0 x0 x1 x2 x3 x4 x5 xo7 xo8 xo9 = k0_pay7 x0 x1 x3 x5 x4 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xo7 xo8 xo9)]
  unfold kernelRun0_B
  dsimp only
  try sl_unfold_words
  rw [View.canon_unit_zero hz]
  simp only [View.readAt_eq_ld, harg2.read_unread, harg3.read_unread, harg5.read_unread, harg6.read_unread, harg7.read_unread,
    View.ld_unit_zero (S := S5000x64) hz, View.ld_unit_zero (S := S64x64) hz, View.ld_unit_zero (S := S1x64) hz]

-- the TensorCore's buffer contents when the region is entered: any
variable (V : (c : Dev nD) → (b : Ref sig .tc) → Buf (Elt Ideal) ((c : Thread nD τ).loc b))

/-- The input blocks of point `t` that the dense layer reads, at their literal types: the tile's rows of the edge
    aggregation and of the node features, the two transposed weight matrices and the bias row. -/
abbrev aggBlk (c : Dev nD) (t : Fin cfg0.N) : Vec Ideal S5000x64 .f32 := iblk0 (F := Ideal) V c 0 t
abbrev xBlk (c : Dev nD) (t : Fin cfg0.N) : Vec Ideal S5000x64 .f32 := iblk0 (F := Ideal) V c 1 t
abbrev wrelBlk (c : Dev nD) (t : Fin cfg0.N) : Vec Ideal S64x64 .f32 := iblk0 (F := Ideal) V c 3 t
abbrev brelBlk (c : Dev nD) (t : Fin cfg0.N) : Vec Ideal S1x64 .f32 := iblk0 (F := Ideal) V c 4 t
abbrev wrootBlk (c : Dev nD) (t : Fin cfg0.N) : Vec Ideal S64x64 .f32 := iblk0 (F := Ideal) V c 5 t

/-- What every point leaves in the tile's buffer: the dense layer of its input blocks, in both control cases. -/
theorem after_tile (c : Dev nD) (t : Fin cfg0.N) :
    (dat0 (F := Ideal) V c).after 6 t
      = k0_pay7 (F := Ideal) (aggBlk V c t) (xBlk V c t) (wrelBlk V c t) (wrootBlk V c t) (brelBlk V c t) := by
  rw [after0_6]
  by_cases h : t.val % 10 = 0
  · rw [outsAt0_A V c t h]
    dsimp only
    exact tileA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk0 V c 0 t) (iblk0 V c 1 t) (iblk0 V c 2 t) (iblk0 V c 3 t) (iblk0 V c 4 t) (iblk0 V c 5 t)
  · rw [outsAt0_B V c t h]
    dsimp only
    exact tileB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h' => h ((hcond0_0 t).mp h')) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2

/-- The printed index maps, decided over the grid: the tile's window and the two row-tiled inputs sit at block `t` of
    the rows, the weights and the bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The aggregation's block at point `t` is rows `5000 t …` of the array. -/
theorem aggBlk_apply (c : Dev nD) (t : Fin cfg0.N) (r : Fin 5000) (k : Fin 64) (n : Fin 100000) (hn : n.val = 5000 * t.val + r.val) :
    aggBlk V c t (ix2 r k) = Arr.agg V c (ix2 n k) := by
  obtain ⟨e0, e1, -⟩ := idx_facts t
  show iblk0 (F := Ideal) V c 0 t (ix2 r k) = _
  unfold iblk0
  rw [View.read_apply]
  show V c main_v17 _ = V c main_v17 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 64 + 1 * k.val = k.val; rw [e1]; omega

/-- The node features' block at point `t` is rows `5000 t …` of the array. -/
theorem xBlk_apply (c : Dev nD) (t : Fin cfg0.N) (r : Fin 5000) (k : Fin 64) (n : Fin 100000) (hn : n.val = 5000 * t.val + r.val) :
    xBlk V c t (ix2 r k) = Arr.x V c (ix2 n k) := by
  obtain ⟨-, -, e0, e1, -⟩ := idx_facts t
  show iblk0 (F := Ideal) V c 1 t (ix2 r k) = _
  unfold iblk0
  rw [View.read_apply]
  show V c main_arg0 _ = V c main_arg0 _
  congr 1
  funext a
  apply Fin.ext
  match a with
  | ⟨0, _⟩ => show win0_1.index t (0 : Fin 2) * 5000 + 1 * r.val = n.val; rw [e0, hn]; omega
  | ⟨1, _⟩ => show win0_1.index t (1 : Fin 2) * 64 + 1 * k.val = k.val; rw [e1]; omega

/-- The weights' and the bias's blocks are the whole small arrays at every point. -/
theorem wrelBlk_apply (c : Dev nD) (t : Fin cfg0.N) (k d : Fin 64) : wrelBlk V c t (ix2 k d) = Arr.wrelT V c (ix2 k d) := by
  obtain ⟨-, -, -, -, e0, e1, -⟩ := idx_facts t
  show iblk0 (F := Ideal) V c 3 t (ix2 k d) = _
  unfold iblk0
  rw [View.read_apply]
  show V c main_v18 _ = V c main_v18 _
  congr 1
  funext a
  apply Fin.ext
  match a with
  | ⟨0, _⟩ => show win0_3.index t (0 : Fin 2) * 64 + 1 * k.val = k.val; rw [e0]; omega
  | ⟨1, _⟩ => show win0_3.index t (1 : Fin 2) * 64 + 1 * d.val = d.val; rw [e1]; omega
theorem brelBlk_apply (c : Dev nD) (t : Fin cfg0.N) (u : Fin 1) (d : Fin 64) : brelBlk V c t (ix2 u d) = Arr.brelRow V c (ix2 u d) := by
  obtain ⟨-, -, -, -, -, -, e0, e1, -⟩ := idx_facts t
  show iblk0 (F := Ideal) V c 4 t (ix2 u d) = _
  unfold iblk0
  rw [View.read_apply]
  show V c main_v20 _ = V c main_v20 _
  congr 1
  funext a
  apply Fin.ext
  match a with
  | ⟨0, _⟩ => show win0_4.index t (0 : Fin 2) * 1 + 1 * u.val = u.val; rw [e0]; omega
  | ⟨1, _⟩ => show win0_4.index t (1 : Fin 2) * 64 + 1 * d.val = d.val; rw [e1]; omega
theorem wrootBlk_apply (c : Dev nD) (t : Fin cfg0.N) (k d : Fin 64) : wrootBlk V c t (ix2 k d) = Arr.wrootT V c (ix2 k d) := by
  obtain ⟨-, -, -, -, -, -, -, -, e0, e1, -⟩ := idx_facts t
  show iblk0 (F := Ideal) V c 5 t (ix2 k d) = _
  unfold iblk0
  rw [View.read_apply]
  show V c main_v19 _ = V c main_v19 _
  congr 1
  funext a
  apply Fin.ext
  match a with
  | ⟨0, _⟩ => show win0_5.index t (0 : Fin 2) * 64 + 1 * k.val = k.val; rw [e0]; omega
  | ⟨1, _⟩ => show win0_5.index t (1 : Fin 2) * 64 + 1 * d.val = d.val; rw [e1]; omega

/-- The tile of point `t` at `(r, d)` is the dense layer of the arrays at row `5000 t + r`. -/
theorem tile_apply (c : Dev nD) (t : Fin cfg0.N) (r : Fin 5000) (d : Fin 64) (n : Fin 100000) (hn : n.val = 5000 * t.val + r.val) :
    k0_pay7 (F := Ideal) (aggBlk V c t) (xBlk V c t) (wrelBlk V c t) (wrootBlk V c t) (brelBlk V c t) (ix2 r d)
      = Cert.GNSpec.hvalT (Arr.agg V c) (Arr.x V c) (Arr.wrelT V c) (Arr.wrootT V c) (Arr.brelRow V c) n d := by
  refine (Pay.pay7_apply (aggBlk V c t) (xBlk V c t) (wrelBlk V c t) (wrootBlk V c t) (brelBlk V c t) r d).trans ?_
  unfold Cert.GNSpec.hvalT
  refine congrArg₂ max ?_ rfl
  refine congrArg₂ (· + ·) (congrArg₂ (· + ·) (Finset.sum_congr rfl fun k _ => ?_) (brelBlk_apply V c t 0 d)) (Finset.sum_congr rfl fun k _ => ?_)
  · exact congrArg₂ (· * ·) (aggBlk_apply V c t r k n hn) (wrelBlk_apply V c t k d)
  · exact congrArg₂ (· * ·) (xBlk_apply V c t r k n hn) (wrootBlk_apply V c t k d)

/-- The dense layer of the operand arrays as entered, as one array over the 100000 rows. -/
abbrev hArr (c : Dev nD) : S100000x64.Idx → EReal :=
  fun i => Cert.GNSpec.hvalT (Arr.agg V c) (Arr.x V c) (Arr.wrelT V c) (Arr.wrootT V c) (Arr.brelRow V c) (i 0) (i 1)

/-- What point `t` writes back is tile `t` of that array. -/
theorem flushed_eq (c : Dev nD) (t : Fin cfg0.N) :
    (dat0 (F := Ideal) V c).flushed 6 t = ((cfg0.win 6).blk t).view.read (Elt Ideal) (hArr V c) := by
  show (cfg0.win 6).cut (grid0.coords t) ((dat0 (F := Ideal) V c).after 6 t) = _
  rw [after_tile]
  obtain ⟨-, -, -, -, -, -, -, -, -, -, e0, e1⟩ := idx_facts t
  have ht : t.val < 20 := lt_of_lt_of_eq t.isLt (show cfg0.N = 20 from N_0)
  funext j
  obtain ⟨r, d, rfl⟩ : ∃ (r : Fin 5000) (d : Fin 64), j = ix2 r d := ⟨j 0, j 1, eq_ix2 j⟩
  show k0_pay7 (F := Ideal) (aggBlk V c t) (xBlk V c t) (wrelBlk V c t) (wrootBlk V c t) (brelBlk V c t) (ix2 r d)
    = hArr V c (((cfg0.win 6).blk t).view.emb (ix2 r d))
  refine (tile_apply V c t r d ⟨5000 * t.val + r.val, by have := r.isLt; omega⟩ rfl).trans ?_
  show Cert.GNSpec.hvalT (Arr.agg V c) (Arr.x V c) (Arr.wrelT V c) (Arr.wrootT V c) (Arr.brelRow V c) _ _
    = Cert.GNSpec.hvalT (Arr.agg V c) (Arr.x V c) (Arr.wrelT V c) (Arr.wrootT V c) (Arr.brelRow V c) _ _
  congr 1 <;> apply Fin.ext
  · show 5000 * t.val + r.val = win0_6.index t (0 : Fin 2) * 5000 + 1 * r.val; rw [e0]; omega
  · show d.val = win0_6.index t (1 : Fin 2) * 64 + 1 * d.val; rw [e1]; omega

/-- An index of the array is in tile `t` iff each coordinate is in the tile's range on its axis. -/
theorem mem_tile (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v24_0).slice (win0_6.rect t)).set ↔ _
  rw [View.set_slice_whole, Rect.mem_set_unit]
  exact Iff.rfl

/-- The twenty tiles cover the array: row `n` is in tile `n / 5000`. -/
theorem tiles_cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, htv⟩ : ∃ t : Fin cfg0.N, t.val = (i 0).val / 5000 :=
    ⟨⟨(i 0).val / 5000, by rw [show cfg0.N = 20 from N_0]; omega⟩, rfl⟩
  obtain ⟨-, -, -, -, -, -, -, -, -, -, e0, e1⟩ := idx_facts t
  refine ⟨t, flush0_6 t, ?_⟩
  rw [mem_tile]
  intro a
  match a with
  | ⟨0, _⟩ => show win0_6.index t (0 : Fin 2) * 5000 ≤ (i 0).val ∧ (i 0).val < win0_6.index t (0 : Fin 2) * 5000 + 5000; rw [e0, htv]; omega
  | ⟨1, _⟩ => show win0_6.index t (1 : Fin 2) * 64 ≤ (i 1).val ∧ (i 1).val < win0_6.index t (1 : Fin 2) * 64 + 64; rw [e1]; omega

/-- After the first call, row `n`, feature `d` of its first result is the dense layer of the operand arrays as entered. -/
theorem arr_h (c : Dev nD) (n : Fin 100000) (d : Fin 64) :
    Arr.r0h V c (ix2 n d) = (Cert.GNSpec.hvalT (Arr.agg V c) (Arr.x V c) (Arr.wrelT V c) (Arr.wrootT V c) (Arr.brelRow V c) n d) := by
  have e := (dat0 (F := Ideal) V c).arrAt_eq_of_cover 6 (hArr V c) (fun t _ => flushed_eq V c t) tiles_cover
  show (dat0 (F := Ideal) V c).arrAt 6 cfg0.N (ix2 n d) = _
  rw [e]

end Cert.KernelIdeal.R0

end
-- ==== Proof.Payload2.lean ====
/-
  The accumulator updates of the first kernel body and the whole of the second, read at an index on the extended
  reals: accumulator + (one-hot)ᵀ · value is a sum over the tile's 5000 rows; the one-hot matrix times a 64×64 table
  picks the table's row of the node's graph.
-/
import proofs.«426248_j35416300323760_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Pay

open Cert.KernelIdeal Cert.KernelIdeal.Gen Idealize.ShloMosaic Idealize.ShloMosaic.ValueIdx

/-! ## The accumulator contraction: both operands contract their row axis -/

theorem lhs_acc_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem lhs_acc_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem rhs_acc_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem rhs_acc_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- The contraction of the rows of two [5000,64] operands into a [64,64] accumulator, at (g, d). -/
theorem matmul_acc_apply (lhs rhs : FVec Ideal S5000x64 .f32) (acc : FVec Ideal S64x64 .f32) (g d : Fin 64) :
    matmul dot_S5000x64_S5000x64_S64x64_0_0_1_1_n_n (some .fp32) lhs rhs acc (ix2 g d)
      = acc (ix2 g d) + ∑ r : Fin 5000, lhs (ix2 r g) * rhs (ix2 r d) := by
  refine (Ideal.matmul_apply dot_S5000x64_S5000x64_S64x64_0_0_1_1_n_n (some .fp32) lhs rhs acc (ix2 g d)).trans ?_
  refine congrArg (acc (ix2 g d) + ·) ?_
  rw [← Equiv.sum_comp (contrEquiv1 dot_S5000x64_S5000x64_S64x64_0_0_1_1_n_n 5000 rfl rfl).symm]
  refine Finset.sum_congr rfl fun k _ => ?_
  have hk := contrEquiv1_symm_val dot_S5000x64_S5000x64_S64x64_0_0_1_1_n_n 5000 rfl rfl k
  have el : dot_S5000x64_S5000x64_S64x64_0_0_1_1_n_n.lhsIdx (ix2 g d) ((contrEquiv1 dot_S5000x64_S5000x64_S64x64_0_0_1_1_n_n 5000 rfl rfl).symm k) = ix2 k g := funext fun a => Fin.ext (by
    match a with
    | ⟨0, _⟩ => exact (lhs_acc_0 _ _).trans hk
    | ⟨1, _⟩ => exact lhs_acc_1 _ _)
  have er : dot_S5000x64_S5000x64_S64x64_0_0_1_1_n_n.rhsIdx (ix2 g d) ((contrEquiv1 dot_S5000x64_S5000x64_S64x64_0_0_1_1_n_n 5000 rfl rfl).symm k) = ix2 k d := funext fun a => Fin.ext (by
    match a with
    | ⟨0, _⟩ => exact (rhs_acc_0 _ _).trans hk
    | ⟨1, _⟩ => exact rhs_acc_1 _ _)
  rw [el, er]

/-- The sum accumulator's update: accumulator + Σ over the tile's rows of one-hot · value. -/
theorem pay1_apply (h ohm : Vec Ideal S5000x64 .f32) (acc z : Vec Ideal S64x64 .f32) (hz : ∀ i, z i = 0) (g d : Fin 64) :
    k0_pay1 (F := Ideal) h ohm acc z (ix3 0 g d) = acc (ix2 g d) + ∑ r : Fin 5000, ohm (ix2 r g) * h (ix2 r d) := by
  unfold k0_pay1
  refine (shapeCast_ab_1ab_apply _ shapeCasts_S64x64_S1x64x64 0 g d).trans ?_
  refine (addf_apply _ _ _).trans ?_
  refine congrArg (acc (ix2 g d) + ·) ?_
  refine (matmul_acc_apply ohm h z g d).trans ?_
  rw [hz, zero_add]

/-- The sum-of-squares accumulator's update. -/
theorem pay2_apply (h ohm : Vec Ideal S5000x64 .f32) (acc : Vec Ideal S1x64x64 .f32) (g d : Fin 64) :
    k0_pay2 (F := Ideal) h ohm acc (ix3 0 g d) = acc (ix3 0 g d) + ∑ r : Fin 5000, ohm (ix2 r g) * (h (ix2 r d) * h (ix2 r d)) := by
  unfold k0_pay2
  refine (shapeCast_ab_1ab_apply _ shapeCasts_S64x64_S1x64x64 0 g d).trans ?_
  refine (addf_apply _ _ _).trans ?_
  refine congrArg₂ (· + ·) (shapeCast_1ab_ab_apply acc shapeCasts_S1x64x64_S64x64 g d) ?_
  refine (matmul_acc_apply ohm (mulf h h) _ g d).trans ?_
  show Ideal.ofBits .f32 0x00000000#32 + _ = _
  rw [Ideal.ofBits_zero_f32, zero_add]
  rfl

/-! ## The count contraction: a [5000,64] one-hot against a [5000,1] column -/

theorem lhs_cnt_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem lhs_cnt_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem rhs_cnt_0 (i : S64x1.Idx) (q : dot_S5000x64_S5000x1_S64x1_0_0_1_1_n_n.contr.Idx) :
    (dot_S5000x64_S5000x1_S64x1_0_0_1_1_n_n.rhsIdx i q 0).val = (q ⟨0, by decide⟩).val :=
  dot_S5000x64_S5000x1_S64x1_0_0_1_1_n_n.rhsIdx_val_of_single rfl i q
theorem rhs_cnt_1 (i : S64x1.Idx) (q : dot_S5000x64_S5000x1_S64x1_0_0_1_1_n_n.contr.Idx) :
    (dot_S5000x64_S5000x1_S64x1_0_0_1_1_n_n.rhsIdx i q 1).val = (i 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

/-- The contraction of the rows of a [5000,64] operand with a [5000,1] column into a [64,1] accumulator, at (g, c). -/
theorem matmul_cnt_apply (lhs : FVec Ideal S5000x64 .f32) (rhs : FVec Ideal S5000x1 .f32) (acc : FVec Ideal S64x1 .f32) (g : Fin 64) (c : Fin 1) :
    matmul dot_S5000x64_S5000x1_S64x1_0_0_1_1_n_n (some .fp32) lhs rhs acc (ix2 g c)
      = acc (ix2 g c) + ∑ r : Fin 5000, lhs (ix2 r g) * rhs (ix2 r c) := by
  refine (Ideal.matmul_apply dot_S5000x64_S5000x1_S64x1_0_0_1_1_n_n (some .fp32) lhs rhs acc (ix2 g c)).trans ?_
  refine congrArg (acc (ix2 g c) + ·) ?_
  rw [← Equiv.sum_comp (contrEquiv1 dot_S5000x64_S5000x1_S64x1_0_0_1_1_n_n 5000 rfl rfl).symm]
  refine Finset.sum_congr rfl fun k _ => ?_
  have hk := contrEquiv1_symm_val dot_S5000x64_S5000x1_S64x1_0_0_1_1_n_n 5000 rfl rfl k
  have el : dot_S5000x64_S5000x1_S64x1_0_0_1_1_n_n.lhsIdx (ix2 g c) ((contrEquiv1 dot_S5000x64_S5000x1_S64x1_0_0_1_1_n_n 5000 rfl rfl).symm k) = ix2 k g := funext fun a => Fin.ext (by
    match a with
    | ⟨0, _⟩ => exact (lhs_cnt_0 _ _).trans hk
    | ⟨1, _⟩ => exact lhs_cnt_1 _ _)
  have er : dot_S5000x64_S5000x1_S64x1_0_0_1_1_n_n.rhsIdx (ix2 g c) ((contrEquiv1 dot_S5000x64_S5000x1_S64x1_0_0_1_1_n_n 5000 rfl rfl).symm k) = ix2 k c := funext fun a => Fin.ext (by
    match a with
    | ⟨0, _⟩ => exact (rhs_cnt_0 _ _).trans hk
    | ⟨1, _⟩ => exact rhs_cnt_1 _ _)
  rw [el, er]

/-- The count accumulator's update. -/
theorem pay3_apply (ohm : Vec Ideal S5000x64 .f32) (acc : Vec Ideal S1x64x1 .f32) (g : Fin 64) :
    k0_pay3 (F := Ideal) ohm acc (ix3 0 g 0) = acc (ix3 0 g 0) + ∑ r : Fin 5000, ohm (ix2 r g) * 1 := by
  unfold k0_pay3
  refine (shapeCast_ab_1ab_apply _ shapeCasts_S64x1_S1x64x1 0 g 0).trans ?_
  refine (addf_apply _ _ _).trans ?_
  refine congrArg₂ (· + ·) (shapeCast_1ab_ab_apply acc shapeCasts_S1x64x1_S64x1 g 0) ?_
  refine (matmul_cnt_apply ohm _ _ g 0).trans ?_
  show Ideal.ofBits .f32 0x00000000#32 + _ = _
  rw [Ideal.ofBits_zero_f32, zero_add]
  refine Finset.sum_congr rfl fun r _ => ?_
  show ohm (ix2 r g) * Ideal.ofBits .f32 0x3F800000#32 = _
  rw [Ideal.ofBits_one_f32]

/-! ## The table contraction: a [5000,64] operand's columns against a [64,64] table's rows -/

theorem lhs_tab_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_tab_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_tab_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_tab_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] operand times a [64,64] table into the zero accumulator, at (r, d): the sum over the table's rows. -/
theorem matmul_tab_apply (lhs : FVec Ideal S5000x64 .f32) (rhs : FVec Ideal S64x64 .f32) (r : Fin 5000) (d : Fin 64) :
    matmul dot_S5000x64_S64x64_S5000x64_1_0_0_1_n_n (some .fp32) lhs rhs (constant S5000x64 .f32 0x00000000#32) (ix2 r d)
      = ∑ g : Fin 64, lhs (ix2 r g) * rhs (ix2 g d) := by
  refine (Ideal.matmul_constant_zero_apply dot_S5000x64_S64x64_S5000x64_1_0_0_1_n_n (some .fp32) lhs rhs (ix2 r d)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r d) ((contrEquiv1 dot_S5000x64_S64x64_S5000x64_1_0_0_1_n_n 64 rfl rfl).symm k) = ix2 r k := funext fun a => Fin.ext (by
    match a with
    | ⟨0, _⟩ => exact lhs_tab_0 _ _
    | ⟨1, _⟩ => exact (lhs_tab_1 _ _).trans hk)
  have er : dot_S5000x64_S64x64_S5000x64_1_0_0_1_n_n.rhsIdx (ix2 r d) ((contrEquiv1 dot_S5000x64_S64x64_S5000x64_1_0_0_1_n_n 64 rfl rfl).symm k) = ix2 k d := funext fun a => Fin.ext (by
    match a with
    | ⟨0, _⟩ => exact (rhs_tab_0 _ _).trans hk
    | ⟨1, _⟩ => exact rhs_tab_1 _ _)
  rw [el, er]

/-- Two numbers below 64 with the same 32-bit word are equal. -/
theorem ofNat32_inj_of_lt {a b : Nat} (ha : a < 64) (hb : b < 64) (h : BitVec.ofNat 32 a = BitVec.ofNat 32 b) : a = b := by
  have ht := congrArg BitVec.toNat h
  rw [BitVec.toNat_ofNat, BitVec.toNat_ofNat] at ht
  norm_num at ht
  omega

/-- The one-hot matrix's entry at (r, g): one when row r's graph id is the word of g, else zero. -/
theorem onehot_apply (bv : Vec Ideal S5000x1 .i32) (r : Fin 5000) (g : Fin 64) :
    (sitofp .f32 (extui 32 (cmpi .eq (broadcastTo S5000x64 (shapeCast S5000x1 bv shapeCasts_S5000x1_S5000x1) broadcasts_S5000x1_S5000x64)
        (iota .tc S5000x64 32 [1] iota_S5000x64_d1_w32)) natLt_1_32) : FVec Ideal S5000x64 .f32) (ix2 r g)
      = if bv (ix2 r 0) = BitVec.ofNat 32 g.val then (1 : EReal) else 0 := by
  have e1 : broadcastTo S5000x64 (shapeCast S5000x1 bv shapeCasts_S5000x1_S5000x1) broadcasts_S5000x1_S5000x64 (ix2 r g) = bv (ix2 r 0) := by
    rw [shapeCast_self]
    refine broadcastTo_apply bv broadcasts_S5000x1_S5000x64 (ix2 r g) (ix2 r 0) fun a => ?_
    match a with
    | ⟨0, _⟩ => rfl
    | ⟨1, _⟩ => rfl
  have e2 : iota .tc S5000x64 32 [1] iota_S5000x64_d1_w32 (ix2 r g) = BitVec.ofNat 32 g.val :=
    iota_single_apply .tc S5000x64 32 1 iota_S5000x64_d1_w32 (ix2 r g)
  show (((((IntOp.cmpi .eq (broadcastTo S5000x64 (shapeCast S5000x1 bv shapeCasts_S5000x1_S5000x1) broadcasts_S5000x1_S5000x64 (ix2 r g))
      (iota .tc S5000x64 32 [1] iota_S5000x64_d1_w32 (ix2 r g))).setWidth 32).toInt : ℤ) : ℝ) : EReal) = _
  rw [e1, e2]
  by_cases hc : bv (ix2 r 0) = BitVec.ofNat 32 g.val
  · rw [if_pos hc, hc]
    have : IntOp.cmpi .eq (BitVec.ofNat 32 g.val) (BitVec.ofNat 32 g.val) = 1#1 := by
      simp [IntOp.cmpi]
    rw [this]
    have : ((1#1 : BitVec 1).setWidth 32).toInt = 1 := by decide
    rw [this]
    norm_cast
  · rw [if_neg hc]
    have : IntOp.cmpi .eq (bv (ix2 r 0)) (BitVec.ofNat 32 g.val) = 0#1 := by
      show BitVec.ofBool (bv (ix2 r 0) == BitVec.ofNat 32 g.val) = 0#1
      rw [beq_false_of_ne hc]
      rfl
    rw [this]
    have : ((0#1 : BitVec 1).setWidth 32).toInt = 0 := by decide
    rw [this]
    norm_cast

/-- The one-hot row of a node of graph g₀ times a table: the table's row g₀. -/
theorem onehot_table_apply (bv : Vec Ideal S5000x1 .i32) (T : Vec Ideal S64x64 .f32) (r : Fin 5000) (d g₀ : Fin 64)
    (hb : bv (ix2 r 0) = BitVec.ofNat 32 g₀.val) :
    matmul dot_S5000x64_S64x64_S5000x64_1_0_0_1_n_n (some .fp32)
      (sitofp .f32 (extui 32 (cmpi .eq (broadcastTo S5000x64 (shapeCast S5000x1 bv shapeCasts_S5000x1_S5000x1) broadcasts_S5000x1_S5000x64)
        (iota .tc S5000x64 32 [1] iota_S5000x64_d1_w32)) natLt_1_32) : FVec Ideal S5000x64 .f32)
      (shapeCast S64x64 T shapeCasts_S64x64_S64x64 : FVec Ideal S64x64 .f32) (constant S5000x64 .f32 0x00000000#32) (ix2 r d) = T (ix2 g₀ d) := by
  refine (matmul_tab_apply _ _ r d).trans ?_
  rw [Finset.sum_eq_single g₀]
  · rw [onehot_apply, if_pos hb, one_mul, shapeCast_self]
  · intro g _ hne
    rw [onehot_apply, if_neg, zero_mul]
    intro he
    exact hne (Fin.ext (ofNat32_inj_of_lt g.isLt g₀.isLt (he.symm.trans hb)).symm).symm
  · intro hn
    exact absurd (Finset.mem_univ _) hn

/-- The second kernel's body at row `r`, feature `d`, for a row whose graph id is `g₀`: the one-hot products
    pick row `g₀` of the two tables. -/
theorem k1_pay1_apply (h : Vec Ideal S5000x64 .f32) (bv : Vec Ideal S5000x1 .i32) (mn sd : Vec Ideal S64x64 .f32)
    (s w bias : Vec Ideal S1x64 .f32) (r : Fin 5000) (d : Fin 64) (g₀ : Fin 64) (hb : bv (ix2 r 0) = BitVec.ofNat 32 g₀.val) :
    k1_pay1 (F := Ideal) h bv mn sd s w bias (ix2 r d)
      = Ideal.div (w (ix2 0 d) * (h (ix2 r d) - mn (ix2 g₀ d) * s (ix2 0 d))) (sd (ix2 g₀ d)) + bias (ix2 0 d) := by
  unfold k1_pay1
  refine (addf_apply _ _ _).trans ?_
  refine congrArg₂ (· + ·) ?_ ?_
  · refine (divf_apply _ _ _).trans ?_
    refine congrArg₂ Ideal.div ?_ ?_
    · refine (mulf_apply _ _ _).trans ?_
      refine congrArg₂ (· * ·) ?_ ?_
      · rw [shapeCast_self]
        exact broadcastTo_1b_ab_apply w broadcasts_S1x64_S5000x64 r d
      · refine (subf_apply _ _ _).trans ?_
        refine congrArg₂ (· - ·) ?_ ?_
        · rw [shapeCast_self]
        · refine (mulf_apply _ _ _).trans ?_
          refine congrArg₂ (· * ·) ?_ ?_
          · exact onehot_table_apply bv mn r d g₀ hb
          · rw [shapeCast_self]
            exact broadcastTo_1b_ab_apply s broadcasts_S1x64_S5000x64 r d
    · exact onehot_table_apply bv sd r d g₀ hb
  · rw [shapeCast_self]
    exact broadcastTo_1b_ab_apply bias broadcasts_S1x64_S5000x64 r d

end Cert.KernelIdeal.Pay

end
-- ==== Proof.Region0Acc.lean ====
/-
  The first kernel call's three accumulators as arrays.  Core k (of 2) sweeps tiles 10 k … 10 k + 9; it resets its
  accumulators at its first tile and adds (one-hot)ᵀ · value at every tile, so after the sweep entry (k, g, ·) holds the
  sum of the value over the nodes of graph g in half k of the node range.
-/
import proofs.«426248_j35416300323760_2_alg».proof.Proof.Arrays
import proofs.«426248_j35416300323760_2_alg».proof.Proof.Payload
import proofs.«426248_j35416300323760_2_alg».proof.Proof.Payload2
import proofs.«426248_j35416300323760_2_alg».proof.Proof.Spec2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R0Acc

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What one grid point leaves in the three accumulator buffers

At a point that is not the first of its core the buffers hold what the point before left (`xo7`, `xo8`, `xo9`) and the
body adds the tile's contribution; at the first point of a core the body first stores zeros and adds to those. -/

theorem outB7 (c : Dev nD) (i : grid0.Coords) (a2 : Memref sig .tc .vmem S5000x64 .f32) (h2 : a2.IsWhole) (a3 : Memref sig .tc .vmem S5000x64 .f32) (h3 : a3.IsWhole) (a4 : Memref sig .tc .vmem S5000x1 .i32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S5000x64 .f32) (h8 : a8.IsWhole) (a9 : Memref sig .tc .vmem S1x64x64 .f32) (h9 : a9.IsWhole) (a10 : Memref sig .tc .vmem S1x64x64 .f32) (h10 : a10.IsWhole) (a11 : Memref sig .tc .vmem S1x64x1 .f32) (h11 : a11.IsWhole) (hc : ¬cond0_0 i) (x0 : Vec F S5000x64 .f32) (x1 : Vec F S5000x64 .f32) (x2 : Vec F S5000x1 .i32) (x3 : Vec F S64x64 .f32) (x4 : Vec F S1x64 .f32) (x5 : Vec F S64x64 .f32) (xo7 : Vec F S1x64x64 .f32) (xo8 : Vec F S1x64x64 .f32) (xo9 : Vec F S1x64x1 .f32) :
    out0_B_7 c i a2 h2 a3 h3 a4 h4 a5 h5 a6 h6 a7 h7 a8 h8 a9 h9 a10 h10 a11 h11 hc x0 x1 x2 x3 x4 x5 xo7 xo8 xo9 = k0_pay1 (k0_pay7 x0 x1 x3 x5 x4) (k0_pay8 x2) (k0_pay9 xo7) (constant S64x64 .f32 0x00000000#32) := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h9.read_unread, h10.read_unread, h11.read_unread, View.ld_unit_zero (S := S5000x64) hz2, View.ld_unit_zero (S := S5000x1) hz2, View.ld_unit_zero (S := S64x64) hz2, View.ld_unit_zero (S := S1x64) hz2, View.ld_unit_zero (S := S1x64x64) hz3, View.ld_unit_zero (S := S1x64x1) hz3]

theorem outB8 (c : Dev nD) (i : grid0.Coords) (a2 : Memref sig .tc .vmem S5000x64 .f32) (h2 : a2.IsWhole) (a3 : Memref sig .tc .vmem S5000x64 .f32) (h3 : a3.IsWhole) (a4 : Memref sig .tc .vmem S5000x1 .i32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S5000x64 .f32) (h8 : a8.IsWhole) (a9 : Memref sig .tc .vmem S1x64x64 .f32) (h9 : a9.IsWhole) (a10 : Memref sig .tc .vmem S1x64x64 .f32) (h10 : a10.IsWhole) (a11 : Memref sig .tc .vmem S1x64x1 .f32) (h11 : a11.IsWhole) (hc : ¬cond0_0 i) (x0 : Vec F S5000x64 .f32) (x1 : Vec F S5000x64 .f32) (x2 : Vec F S5000x1 .i32) (x3 : Vec F S64x64 .f32) (x4 : Vec F S1x64 .f32) (x5 : Vec F S64x64 .f32) (xo7 : Vec F S1x64x64 .f32) (xo8 : Vec F S1x64x64 .f32) (xo9 : Vec F S1x64x1 .f32) :
    out0_B_8 c i a2 h2 a3 h3 a4 h4 a5 h5 a6 h6 a7 h7 a8 h8 a9 h9 a10 h10 a11 h11 hc x0 x1 x2 x3 x4 x5 xo7 xo8 xo9 = k0_pay2 (k0_pay7 x0 x1 x3 x5 x4) (k0_pay8 x2) xo8 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h9.read_unread, h10.read_unread, h11.read_unread, View.ld_unit_zero (S := S5000x64) hz2, View.ld_unit_zero (S := S5000x1) hz2, View.ld_unit_zero (S := S64x64) hz2, View.ld_unit_zero (S := S1x64) hz2, View.ld_unit_zero (S := S1x64x64) hz3, View.ld_unit_zero (S := S1x64x1) hz3]

theorem outB9 (c : Dev nD) (i : grid0.Coords) (a2 : Memref sig .tc .vmem S5000x64 .f32) (h2 : a2.IsWhole) (a3 : Memref sig .tc .vmem S5000x64 .f32) (h3 : a3.IsWhole) (a4 : Memref sig .tc .vmem S5000x1 .i32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S5000x64 .f32) (h8 : a8.IsWhole) (a9 : Memref sig .tc .vmem S1x64x64 .f32) (h9 : a9.IsWhole) (a10 : Memref sig .tc .vmem S1x64x64 .f32) (h10 : a10.IsWhole) (a11 : Memref sig .tc .vmem S1x64x1 .f32) (h11 : a11.IsWhole) (hc : ¬cond0_0 i) (x0 : Vec F S5000x64 .f32) (x1 : Vec F S5000x64 .f32) (x2 : Vec F S5000x1 .i32) (x3 : Vec F S64x64 .f32) (x4 : Vec F S1x64 .f32) (x5 : Vec F S64x64 .f32) (xo7 : Vec F S1x64x64 .f32) (xo8 : Vec F S1x64x64 .f32) (xo9 : Vec F S1x64x1 .f32) :
    out0_B_9 c i a2 h2 a3 h3 a4 h4 a5 h5 a6 h6 a7 h7 a8 h8 a9 h9 a10 h10 a11 h11 hc x0 x1 x2 x3 x4 x5 xo7 xo8 xo9 = k0_pay3 (k0_pay8 x2) xo9 := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h9.read_unread, h10.read_unread, h11.read_unread, View.ld_unit_zero (S := S5000x64) hz2, View.ld_unit_zero (S := S5000x1) hz2, View.ld_unit_zero (S := S64x64) hz2, View.ld_unit_zero (S := S1x64) hz2, View.ld_unit_zero (S := S1x64x64) hz3, View.ld_unit_zero (S := S1x64x1) hz3]

theorem outA7 (c : Dev nD) (i : grid0.Coords) (a2 : Memref sig .tc .vmem S5000x64 .f32) (h2 : a2.IsWhole) (a3 : Memref sig .tc .vmem S5000x64 .f32) (h3 : a3.IsWhole) (a4 : Memref sig .tc .vmem S5000x1 .i32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S5000x64 .f32) (h8 : a8.IsWhole) (a9 : Memref sig .tc .vmem S1x64x64 .f32) (h9 : a9.IsWhole) (a10 : Memref sig .tc .vmem S1x64x64 .f32) (h10 : a10.IsWhole) (a11 : Memref sig .tc .vmem S1x64x1 .f32) (h11 : a11.IsWhole) (hc : cond0_0 i) (x0 : Vec F S5000x64 .f32) (x1 : Vec F S5000x64 .f32) (x2 : Vec F S5000x1 .i32) (x3 : Vec F S64x64 .f32) (x4 : Vec F S1x64 .f32) (x5 : Vec F S64x64 .f32) :
    out0_A_7 c i a2 h2 a3 h3 a4 h4 a5 h5 a6 h6 a7 h7 a8 h8 a9 h9 a10 h10 a11 h11 hc x0 x1 x2 x3 x4 x5 = k0_pay1 (k0_pay7 x0 x1 x3 x5 x4) (k0_pay8 x2) (k0_pay9 k0_pay4) (constant S64x64 .f32 0x00000000#32) := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x64x64) hz3, View.readCov_unit_zero (S := S1x64x64) _ hz3]
  simp only [View.readAt_eq_ld, h2.read_unread, h3.read_unread, h4.read_unread, h5.read_unread, h6.read_unread, h7.read_unread, h9.read_unread, h10.read_unread, h11.read_unread, View.ld_unit_zero (S := S5000x64) hz2, View.ld_unit_zero (S := S5000x1) hz2, View.ld_unit_zero (S := S64x64) hz2, View.ld_unit_zero (S := S1x64) hz2, View.ld_unit_zero (S := S1x64x64) hz3, View.ld_unit_zero (S := S1x64x1) hz3]

theorem outA8 (c : Dev nD) (i : grid0.Coords) (a2 : Memref sig .tc .vmem S5000x64 .f32) (h2 : a2.IsWhole) (a3 : Memref sig .tc .vmem S5000x64 .f32) (h3 : a3.IsWhole) (a4 : Memref sig .tc .vmem S5000x1 .i32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S5000x64 .f32) (h8 : a8.IsWhole) (a9 : Memref sig .tc .vmem S1x64x64 .f32) (h9 : a9.IsWhole) (a10 : Memref sig .tc .vmem S1x64x64 .f32) (h10 : a10.IsWhole) (a11 : Memref sig .tc .vmem S1x64x1 .f32) (h11 : a11.IsWhole) (hc : cond0_0 i) (x0 : Vec F S5000x64 .f32) (x1 : Vec F S5000x64 .f32) (x2 : Vec F S5000x1 .i32) (x3 : Vec F S64x64 .f32) (x4 : Vec F S1x64 .f32) (x5 : Vec F S64x64 .f32) :
    out0_A_8 c i a2 h2 a3 h3 a4 h4 a5 h5 a6 h6 a7 h7 a8 h8 a9 h9 a10 h10 a11 h11 hc x0 x1 x2 x3 x4 x5 = k0_pay2 (k0_pay7 x0 x1 x3 x5 x4) (k0_pay8 x2) k0_pay5 := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x64x64) hz3, View.readCov_unit_zero (S := S1x64x64) _ hz3]
  simp only [View.readAt_eq_ld, h2.read_unread, h3.read_unread, h4.read_unread, h5.read_unread, h6.read_unread, h7.read_unread, h9.read_unread, h10.read_unread, h11.read_unread, View.ld_unit_zero (S := S5000x64) hz2, View.ld_unit_zero (S := S5000x1) hz2, View.ld_unit_zero (S := S64x64) hz2, View.ld_unit_zero (S := S1x64) hz2, View.ld_unit_zero (S := S1x64x64) hz3, View.ld_unit_zero (S := S1x64x1) hz3]

theorem outA9 (c : Dev nD) (i : grid0.Coords) (a2 : Memref sig .tc .vmem S5000x64 .f32) (h2 : a2.IsWhole) (a3 : Memref sig .tc .vmem S5000x64 .f32) (h3 : a3.IsWhole) (a4 : Memref sig .tc .vmem S5000x1 .i32) (h4 : a4.IsWhole) (a5 : Memref sig .tc .vmem S64x64 .f32) (h5 : a5.IsWhole) (a6 : Memref sig .tc .vmem S1x64 .f32) (h6 : a6.IsWhole) (a7 : Memref sig .tc .vmem S64x64 .f32) (h7 : a7.IsWhole) (a8 : Memref sig .tc .vmem S5000x64 .f32) (h8 : a8.IsWhole) (a9 : Memref sig .tc .vmem S1x64x64 .f32) (h9 : a9.IsWhole) (a10 : Memref sig .tc .vmem S1x64x64 .f32) (h10 : a10.IsWhole) (a11 : Memref sig .tc .vmem S1x64x1 .f32) (h11 : a11.IsWhole) (hc : cond0_0 i) (x0 : Vec F S5000x64 .f32) (x1 : Vec F S5000x64 .f32) (x2 : Vec F S5000x1 .i32) (x3 : Vec F S64x64 .f32) (x4 : Vec F S1x64 .f32) (x5 : Vec F S64x64 .f32) :
    out0_A_9 c i a2 h2 a3 h3 a4 h4 a5 h5 a6 h6 a7 h7 a8 h8 a9 h9 a10 h10 a11 h11 hc x0 x1 x2 x3 x4 x5 = k0_pay3 (k0_pay8 x2) k0_pay6 := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x64x1) hz3, View.readCov_unit_zero (S := S1x64x1) _ hz3]
  simp only [View.readAt_eq_ld, h2.read_unread, h3.read_unread, h4.read_unread, h5.read_unread, h6.read_unread, h7.read_unread, h9.read_unread, h10.read_unread, h11.read_unread, View.ld_unit_zero (S := S5000x64) hz2, View.ld_unit_zero (S := S5000x1) hz2, View.ld_unit_zero (S := S64x64) hz2, View.ld_unit_zero (S := S1x64) hz2, View.ld_unit_zero (S := S1x64x64) hz3, View.ld_unit_zero (S := S1x64x1) hz3]

/-! ## Sums over a range of nodes

`upto β f lo hi g` is the sum of `f` over the nodes `lo ≤ n < hi` of graph `g`.  Adjacent ranges add, one tile's
5000 one-hot-weighted rows are the range `5000 t ≤ n < 5000 (t + 1)`, and half `k` of the nodes is the range
`50000 k ≤ n < 50000 (k + 1)`. -/

/-- The sum of `f` over the nodes `lo ≤ n < hi` of graph `g`. -/
def upto (β : Fin 100000 → Fin 64) (f : Fin 100000 → EReal) (lo hi : ℕ) (g : Fin 64) : EReal :=
  ∑ n : Fin 100000, if lo ≤ n.val ∧ n.val < hi ∧ β n = g then f n else 0

theorem upto_add (β : Fin 100000 → Fin 64) (f : Fin 100000 → EReal) (lo mid hi : ℕ) (g : Fin 64) (h1 : lo ≤ mid) (h2 : mid ≤ hi) :
    upto β f lo mid g + upto β f mid hi g = upto β f lo hi g := by
  unfold upto
  rw [← Finset.sum_add_distrib]
  refine Finset.sum_congr rfl fun n _ => ?_
  by_cases p1 : lo ≤ n.val ∧ n.val < mid ∧ β n = g
  · obtain ⟨a, b, e⟩ := p1
    rw [if_pos ⟨a, b, e⟩, if_neg (fun p2 => absurd p2.1 (by omega)), if_pos ⟨a, by omega, e⟩, add_zero]
  · by_cases p2 : mid ≤ n.val ∧ n.val < hi ∧ β n = g
    · obtain ⟨a, b, e⟩ := p2
      rw [if_neg p1, if_pos ⟨a, b, e⟩, if_pos ⟨by omega, b, e⟩, zero_add]
    · rw [if_neg p1, if_neg p2, if_neg, add_zero]
      rintro ⟨a, b, e⟩
      by_cases hm : n.val < mid
      · exact p1 ⟨a, hm, e⟩
      · exact p2 ⟨by omega, b, e⟩

/-- Row `r` of tile `t` is node `5000 t + r`. -/
def node (t : ℕ) (ht : t < 20) : Fin 5000 ↪ Fin 100000 :=
  ⟨fun r => ⟨5000 * t + r.val, by have := r.isLt; omega⟩, fun a b h => Fin.ext (by have := Fin.mk.inj_iff.mp h; omega)⟩

theorem node_val (t : ℕ) (ht : t < 20) (r : Fin 5000) : (node t ht r).val = 5000 * t + r.val := rfl

/-- A tile's one-hot-weighted sum of its 5000 rows is the sum over the tile's nodes of the graph. -/
theorem tile_sum (β : Fin 100000 → Fin 64) (f : Fin 100000 → EReal) (t : ℕ) (ht : t < 20) (g : Fin 64) :
    ∑ r : Fin 5000, (if β (node t ht r) = g then (1 : EReal) else 0) * f (node t ht r) = upto β f (5000 * t) (5000 * (t + 1)) g := by
  unfold upto
  rw [← Finset.sum_subset (Finset.subset_univ (Finset.univ.map (node t ht)))]
  · rw [Finset.sum_map]
    refine Finset.sum_congr rfl fun r _ => ?_
    have hr := r.isLt
    have hv := node_val t ht r
    by_cases hg : β (node t ht r) = g
    · rw [if_pos hg, one_mul, if_pos ⟨by omega, by omega, hg⟩]
    · rw [if_neg hg, zero_mul, if_neg (fun h => hg h.2.2)]
  · intro n _ hn
    rw [if_neg]
    rintro ⟨a, b, -⟩
    refine hn (Finset.mem_map.mpr ⟨⟨n.val - 5000 * t, by omega⟩, Finset.mem_univ _, Fin.ext ?_⟩)
    show 5000 * t + (n.val - 5000 * t) = n.val
    omega

/-- Half `k` of the nodes is the range `50000 k ≤ n < 50000 (k + 1)`. -/
theorem upto_half (β : Fin 100000 → Fin 64) (f : Fin 100000 → EReal) (k : Fin 2) (g : Fin 64) :
    upto β f (50000 * k.val) (50000 * (k.val + 1)) g = Cert.GNSpec.segHalf β f k g := by
  unfold upto Cert.GNSpec.segHalf
  rw [Finset.sum_filter]
  refine Finset.sum_congr rfl fun n _ => ?_
  refine if_congr ?_ rfl rfl
  have hn := n.isLt
  have hk := k.isLt
  constructor
  · rintro ⟨a, b, e⟩; exact ⟨by omega, e⟩
  · rintro ⟨a, e⟩; exact ⟨by omega, by omega, e⟩

/-- The one-hot entry of a graph id below 64 against column `g`. -/
theorem oh_ofNat (b g : Fin 64) : Pay.oh (BitVec.ofNat 32 b.val) g = if b = g then (1 : EReal) else 0 := by
  unfold Pay.oh
  refine if_congr ⟨fun h => Fin.ext (Pay.ofNat32_inj_of_lt b.isLt g.isLt h), fun h => by rw [h]⟩ rfl rfl

/-! ## The blocks a grid point reads

Point `t` reads rows `5000 t … 5000 t + 4999` of the edge aggregation, of the features and of the graph-id column,
and the whole weight tables and bias row. -/

section Blocks

variable (V : (c : Dev nD) → (b : Ref sig .tc) → Buf (Elt Ideal) ((c : Thread nD τ).loc b)) (c : Dev nD)

theorem lt20 (t : Fin cfg0.N) : t.val < 20 := lt_of_lt_of_eq t.isLt N_0

/-- The printed index maps of the six operand windows, decided over the grid: the three row-tiled windows are at block
    row `t`, the three tables at block 0. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem aggB_apply (t : Fin cfg0.N) (r : Fin 5000) (k : Fin 64) :
    (iblk0 (F := Ideal) V c 0 t : Vec Ideal S5000x64 .f32) (ix2 r k) = Arr.agg V c (ix2 (node t.val (lt20 t) r) k) := by
  obtain ⟨e0, e1, -⟩ := idx_in t
  unfold iblk0
  rw [View.read_apply]
  show V c main_v17 _ = V c main_v17 _
  congr 1
  funext a
  apply Fin.ext
  match a with
  | ⟨0, _⟩ => show win0_0.index t 0 * 5000 + 1 * r.val = 5000 * t.val + r.val; rw [e0]; omega
  | ⟨1, _⟩ => show win0_0.index t 1 * 64 + 1 * k.val = k.val; rw [e1]; omega

theorem xB_apply (t : Fin cfg0.N) (r : Fin 5000) (k : Fin 64) :
    (iblk0 (F := Ideal) V c 1 t : Vec Ideal S5000x64 .f32) (ix2 r k) = Arr.x V c (ix2 (node t.val (lt20 t) r) k) := by
  obtain ⟨-, -, e0, e1, -⟩ := idx_in t
  unfold iblk0
  rw [View.read_apply]
  show V c main_arg0 _ = V c main_arg0 _
  congr 1
  funext a
  apply Fin.ext
  match a with
  | ⟨0, _⟩ => show win0_1.index t 0 * 5000 + 1 * r.val = 5000 * t.val + r.val; rw [e0]; omega
  | ⟨1, _⟩ => show win0_1.index t 1 * 64 + 1 * k.val = k.val; rw [e1]; omega

theorem idB_apply (t : Fin cfg0.N) (r : Fin 5000) :
    (iblk0 (F := Ideal) V c 2 t : Vec Ideal S5000x1 .i32) (ix2 r 0) = Arr.bcol V c (ix2 (node t.val (lt20 t) r) 0) := by
  obtain ⟨-, -, -, -, e0, e1, -⟩ := idx_in t
  unfold iblk0
  rw [View.read_apply]
  show V c main_v4 _ = V c main_v4 _
  congr 1
  funext a
  apply Fin.ext
  match a with
  | ⟨0, _⟩ => show win0_2.index t 0 * 5000 + 1 * r.val = 5000 * t.val + r.val; rw [e0]; omega
  | ⟨1, _⟩ => show win0_2.index t 1 * 1 + 1 * 0 = 0; rw [e1]

theorem wrelB_apply (t : Fin cfg0.N) (k d : Fin 64) :
    (iblk0 (F := Ideal) V c 3 t : Vec Ideal S64x64 .f32) (ix2 k d) = Arr.wrelT V c (ix2 k d) := by
  obtain ⟨-, -, -, -, -, -, e0, e1, -⟩ := idx_in t
  unfold iblk0
  rw [View.read_apply]
  show V c main_v18 _ = V c main_v18 _
  congr 1
  funext a
  apply Fin.ext
  match a with
  | ⟨0, _⟩ => show win0_3.index t 0 * 64 + 1 * k.val = k.val; rw [e0]; omega
  | ⟨1, _⟩ => show win0_3.index t 1 * 64 + 1 * d.val = d.val; rw [e1]; omega

theorem brelB_apply (t : Fin cfg0.N) (d : Fin 64) :
    (iblk0 (F := Ideal) V c 4 t : Vec Ideal S1x64 .f32) (ix2 0 d) = Arr.brelRow V c (ix2 0 d) := by
  obtain ⟨-, -, -, -, -, -, -, -, e0, e1, -⟩ := idx_in t
  unfold iblk0
  rw [View.read_apply]
  show V c main_v20 _ = V c main_v20 _
  congr 1
  funext a
  apply Fin.ext
  match a with
  | ⟨0, _⟩ => show win0_4.index t 0 * 1 + 1 * 0 = 0; rw [e0]
  | ⟨1, _⟩ => show win0_4.index t 1 * 64 + 1 * d.val = d.val; rw [e1]; omega

theorem wrootB_apply (t : Fin cfg0.N) (k d : Fin 64) :
    (iblk0 (F := Ideal) V c 5 t : Vec Ideal S64x64 .f32) (ix2 k d) = Arr.wrootT V c (ix2 k d) := by
  obtain ⟨-, -, -, -, -, -, -, -, -, -, e0, e1⟩ := idx_in t
  unfold iblk0
  rw [View.read_apply]
  show V c main_v19 _ = V c main_v19 _
  congr 1
  funext a
  apply Fin.ext
  match a with
  | ⟨0, _⟩ => show win0_5.index t 0 * 64 + 1 * k.val = k.val; rw [e0]; omega
  | ⟨1, _⟩ => show win0_5.index t 1 * 64 + 1 * d.val = d.val; rw [e1]; omega

/-- The dense layer of the node's row, as the specification writes it. -/
abbrev hv (d : Fin 64) : Fin 100000 → EReal :=
  fun n => Cert.GNSpec.hvalT (Arr.agg V c) (Arr.x V c) (Arr.wrelT V c) (Arr.wrootT V c) (Arr.brelRow V c) n d

/-- The dense layer the body computes at point `t`, row `r`, is the specification's at node `5000 t + r`. -/
theorem hT_apply (t : Fin cfg0.N) (r : Fin 5000) (d : Fin 64) :
    k0_pay7 (F := Ideal) (iblk0 V c 0 t) (iblk0 V c 1 t) (iblk0 V c 3 t) (iblk0 V c 5 t) (iblk0 V c 4 t) (ix2 r d)
      = hv V c d (node t.val (lt20 t) r) := by
  refine (Pay.pay7_apply (iblk0 V c 0 t) (iblk0 V c 1 t) (iblk0 V c 3 t) (iblk0 V c 5 t) (iblk0 V c 4 t) r d).trans ?_
  unfold hv Cert.GNSpec.hvalT
  refine congrArg₂ max ?_ rfl
  refine congrArg₂ (· + ·) (congrArg₂ (· + ·) (Finset.sum_congr rfl fun k _ => congrArg₂ (· * ·) (aggB_apply V c t r k) (wrelB_apply V c t k d)) (brelB_apply V c t d))
    (Finset.sum_congr rfl fun k _ => congrArg₂ (· * ·) (xB_apply V c t r k) (wrootB_apply V c t k d))

variable (β : Fin 100000 → Fin 64) (hβ : ∀ n : Fin 100000, Arr.bcol V c (ix2 n 0) = BitVec.ofNat 32 (β n).val)
include hβ

/-- The one-hot matrix of point `t`: row `r`, column `g` is 1 when node `5000 t + r` is of graph `g`. -/
theorem ohT_apply (t : Fin cfg0.N) (r : Fin 5000) (g : Fin 64) :
    k0_pay8 (F := Ideal) (iblk0 V c 2 t) (ix2 r g) = if β (node t.val (lt20 t) r) = g then (1 : EReal) else 0 := by
  refine (Pay.pay8_apply (iblk0 V c 2 t) r g).trans ?_
  refine (congrArg (Pay.oh · g) ((idB_apply V c t r).trans (hβ _))).trans ?_
  exact oh_ofNat _ g

/-- Tile `t`'s contribution to the three accumulators: the sums over its nodes of graph `g`. -/
theorem tile7 (t : Fin cfg0.N) (g d : Fin 64) :
    ∑ r : Fin 5000, k0_pay8 (F := Ideal) (iblk0 V c 2 t) (ix2 r g) * k0_pay7 (F := Ideal) (iblk0 V c 0 t) (iblk0 V c 1 t) (iblk0 V c 3 t) (iblk0 V c 5 t) (iblk0 V c 4 t) (ix2 r d)
      = upto β (hv V c d) (5000 * t.val) (5000 * (t.val + 1)) g := by
  rw [← tile_sum β (hv V c d) t.val (lt20 t) g]
  exact Finset.sum_congr rfl fun r _ => congrArg₂ (· * ·) (ohT_apply V c β hβ t r g) (hT_apply V c t r d)

theorem tile8 (t : Fin cfg0.N) (g d : Fin 64) :
    ∑ r : Fin 5000, k0_pay8 (F := Ideal) (iblk0 V c 2 t) (ix2 r g) * (k0_pay7 (F := Ideal) (iblk0 V c 0 t) (iblk0 V c 1 t) (iblk0 V c 3 t) (iblk0 V c 5 t) (iblk0 V c 4 t) (ix2 r d) * k0_pay7 (F := Ideal) (iblk0 V c 0 t) (iblk0 V c 1 t) (iblk0 V c 3 t) (iblk0 V c 5 t) (iblk0 V c 4 t) (ix2 r d))
      = upto β (fun n => hv V c d n * hv V c d n) (5000 * t.val) (5000 * (t.val + 1)) g := by
  rw [← tile_sum β (fun n => hv V c d n * hv V c d n) t.val (lt20 t) g]
  exact Finset.sum_congr rfl fun r _ => congrArg₂ (· * ·) (ohT_apply V c β hβ t r g) (congrArg₂ (· * ·) (hT_apply V c t r d) (hT_apply V c t r d))

theorem tile9 (t : Fin cfg0.N) (g : Fin 64) :
    ∑ r : Fin 5000, k0_pay8 (F := Ideal) (iblk0 V c 2 t) (ix2 r g) * 1
      = upto β (fun _ => 1) (5000 * t.val) (5000 * (t.val + 1)) g := by
  rw [← tile_sum β (fun _ => 1) t.val (lt20 t) g]
  exact Finset.sum_congr rfl fun r _ => congrArg (· * (1 : EReal)) (ohT_apply V c β hβ t r g)

end Blocks

/-! ## What the accumulator buffers hold after each grid point

After point `t` the three buffers hold the sums over the nodes `50000 (t / 10) ≤ n < 5000 (t + 1)` of graph `g`: the
first point of a core starts from the zeros it has just stored, every other point adds its tile to what the point
before left. -/

theorem zero64 (i : S64x64.Idx) : (constant S64x64 .f32 0x00000000#32 : FVec Ideal S64x64 .f32) i = 0 := Ideal.ofBits_zero_f32

section Invariant

variable (V : (c : Dev nD) → (b : Ref sig .tc) → Buf (Elt Ideal) ((c : Thread nD τ).loc b)) (c : Dev nD)
variable (β : Fin 100000 → Fin 64) (hβ : ∀ n : Fin 100000, Arr.bcol V c (ix2 n 0) = BitVec.ofNat 32 (β n).val)
include hβ

/-- A first point of a core: the three buffers hold the tile's sums. -/
theorem stepA7 (t : Fin cfg0.N) (h0 : t.val % 10 = 0) (g d : Fin 64) :
    ((outsAt0 (F := Ideal) V c t.val t.isLt).2.1 : Vec Ideal S1x64x64 .f32) (ix3 0 g d)
      = upto β (hv V c d) (5000 * t.val) (5000 * (t.val + 1)) g := by
  rw [outsAt0_A V c t h0]
  dsimp only
  refine (congrFun (outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t)) (ix3 0 g d)).trans ?_
  refine (Pay.pay1_apply _ _ _ _ zero64 g d).trans ?_
  rw [Pay.pay9_apply, Pay.pay4_apply, zero_add]
  exact tile7 V c β hβ t g d

theorem stepA8 (t : Fin cfg0.N) (h0 : t.val % 10 = 0) (g d : Fin 64) :
    ((outsAt0 (F := Ideal) V c t.val t.isLt).2.2.1 : Vec Ideal S1x64x64 .f32) (ix3 0 g d)
      = upto β (fun n => hv V c d n * hv V c d n) (5000 * t.val) (5000 * (t.val + 1)) g := by
  rw [outsAt0_A V c t h0]
  dsimp only
  refine (congrFun (outA8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t)) (ix3 0 g d)).trans ?_
  refine (Pay.pay2_apply _ _ _ g d).trans ?_
  rw [Pay.pay5_apply, zero_add]
  exact tile8 V c β hβ t g d

theorem stepA9 (t : Fin cfg0.N) (h0 : t.val % 10 = 0) (g : Fin 64) :
    ((outsAt0 (F := Ideal) V c t.val t.isLt).2.2.2 : Vec Ideal S1x64x1 .f32) (ix3 0 g 0)
      = upto β (fun _ => 1) (5000 * t.val) (5000 * (t.val + 1)) g := by
  rw [outsAt0_A V c t h0]
  dsimp only
  refine (congrFun (outA9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t)) (ix3 0 g 0)).trans ?_
  refine (Pay.pay3_apply _ _ g).trans ?_
  rw [Pay.pay6_apply, zero_add]
  exact tile9 V c β hβ t g

/-- Any other point: the buffers hold what the point before left plus the tile's sums. -/
theorem stepB7 (t : Fin cfg0.N) (h0 : ¬t.val % 10 = 0) (g d : Fin 64) :
    ((outsAt0 (F := Ideal) V c t.val t.isLt).2.1 : Vec Ideal S1x64x64 .f32) (ix3 0 g d)
      = ((outsAt0 (F := Ideal) V c (t.val - 1) (Nat.lt_of_le_of_lt (Nat.sub_le _ _) t.isLt)).2.1 : Vec Ideal S1x64x64 .f32) (ix3 0 g d)
        + upto β (hv V c d) (5000 * t.val) (5000 * (t.val + 1)) g := by
  rw [outsAt0_B V c t h0]
  dsimp only
  refine (congrFun (outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 0 g d)).trans ?_
  refine (Pay.pay1_apply _ _ _ _ zero64 g d).trans ?_
  rw [Pay.pay9_apply]
  exact congrArg (_ + ·) (tile7 V c β hβ t g d)

theorem stepB8 (t : Fin cfg0.N) (h0 : ¬t.val % 10 = 0) (g d : Fin 64) :
    ((outsAt0 (F := Ideal) V c t.val t.isLt).2.2.1 : Vec Ideal S1x64x64 .f32) (ix3 0 g d)
      = ((outsAt0 (F := Ideal) V c (t.val - 1) (Nat.lt_of_le_of_lt (Nat.sub_le _ _) t.isLt)).2.2.1 : Vec Ideal S1x64x64 .f32) (ix3 0 g d)
        + upto β (fun n => hv V c d n * hv V c d n) (5000 * t.val) (5000 * (t.val + 1)) g := by
  rw [outsAt0_B V c t h0]
  dsimp only
  refine (congrFun (outB8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 0 g d)).trans ?_
  refine (Pay.pay2_apply _ _ _ g d).trans ?_
  exact congrArg (_ + ·) (tile8 V c β hβ t g d)

theorem stepB9 (t : Fin cfg0.N) (h0 : ¬t.val % 10 = 0) (g : Fin 64) :
    ((outsAt0 (F := Ideal) V c t.val t.isLt).2.2.2 : Vec Ideal S1x64x1 .f32) (ix3 0 g 0)
      = ((outsAt0 (F := Ideal) V c (t.val - 1) (Nat.lt_of_le_of_lt (Nat.sub_le _ _) t.isLt)).2.2.2 : Vec Ideal S1x64x1 .f32) (ix3 0 g 0)
        + upto β (fun _ => 1) (5000 * t.val) (5000 * (t.val + 1)) g := by
  rw [outsAt0_B V c t h0]
  dsimp only
  refine (congrFun (outB9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) (ix3 0 g 0)).trans ?_
  refine (Pay.pay3_apply _ _ g).trans ?_
  exact congrArg (_ + ·) (tile9 V c β hβ t g)

end Invariant

/-! ## After the run

By induction on the point, the buffers after point `t` hold the sums over the nodes `50000 (t / 10) ≤ n < 5000 (t + 1)`;
at a core's last point (`t % 10 = 9`) that is the core's half of the nodes, and that point's write-back is the only
one of the core's block of the array. -/

/-- The printed index maps of the three accumulator windows: block `t / 10` on the first axis. -/
theorem idx_out : ∀ t : Fin cfg0.N,
    win0_7.index t (0 : Fin 3) = t.val / 10 ∧ win0_7.index t (1 : Fin 3) = 0 ∧ win0_7.index t (2 : Fin 3) = 0
    ∧ win0_8.index t (0 : Fin 3) = t.val / 10 ∧ win0_8.index t (1 : Fin 3) = 0 ∧ win0_8.index t (2 : Fin 3) = 0
    ∧ win0_9.index t (0 : Fin 3) = t.val / 10 ∧ win0_9.index t (1 : Fin 3) = 0 ∧ win0_9.index t (2 : Fin 3) = 0 :=
  (by decide +kernel : ∀ t : Fin grid0.N, _)

/-- Every index of an accumulator array is in the block its core's last point writes back. -/

theorem cover7 (i : S2x64x64.Idx) : ∃ t : Fin cfg0.N, (cfg0.win 7).flush t = true ∧ i ∈ ((cfg0.win 7).blk t).view.set := by
  have hi0 : (i 0).val < 2 := (i 0).isLt
  have hi1 : (i 1).val < 64 := (i 1).isLt
  have hi2 : (i 2).val < 64 := (i 2).isLt
  have hlt : 10 * (i 0).val + 9 < cfg0.N := by rw [show cfg0.N = 20 from N_0]; omega
  obtain ⟨e0, e1, e2, -⟩ := idx_out ⟨10 * (i 0).val + 9, hlt⟩
  have ed : (10 * (i 0).val + 9) / 10 = (i 0).val := by omega
  refine ⟨⟨10 * (i 0).val + 9, hlt⟩, (flush0_7 _).mpr (by show (10 * (i 0).val + 9) % 10 = 9; omega), ?_⟩
  show i ∈ ((View.whole main_v24_1).slice (win0_7.rect ⟨10 * (i 0).val + 9, hlt⟩)).set
  rw [View.set_slice_whole, Rect.mem_set_unit]
  intro b
  match b with
  | ⟨0, _⟩ => show win0_7.index ⟨10 * (i 0).val + 9, hlt⟩ 0 * 1 ≤ (i 0).val ∧ (i 0).val < win0_7.index ⟨10 * (i 0).val + 9, hlt⟩ 0 * 1 + 1; rw [e0]; dsimp only; omega
  | ⟨1, _⟩ => show win0_7.index ⟨10 * (i 0).val + 9, hlt⟩ 1 * 64 ≤ (i 1).val ∧ (i 1).val < win0_7.index ⟨10 * (i 0).val + 9, hlt⟩ 1 * 64 + 64; rw [e1]; omega
  | ⟨2, _⟩ => show win0_7.index ⟨10 * (i 0).val + 9, hlt⟩ 2 * 64 ≤ (i 2).val ∧ (i 2).val < win0_7.index ⟨10 * (i 0).val + 9, hlt⟩ 2 * 64 + 64; rw [e2]; omega

theorem cover8 (i : S2x64x64.Idx) : ∃ t : Fin cfg0.N, (cfg0.win 8).flush t = true ∧ i ∈ ((cfg0.win 8).blk t).view.set := by
  have hi0 : (i 0).val < 2 := (i 0).isLt
  have hi1 : (i 1).val < 64 := (i 1).isLt
  have hi2 : (i 2).val < 64 := (i 2).isLt
  have hlt : 10 * (i 0).val + 9 < cfg0.N := by rw [show cfg0.N = 20 from N_0]; omega
  obtain ⟨-, -, -, e0, e1, e2, -⟩ := idx_out ⟨10 * (i 0).val + 9, hlt⟩
  have ed : (10 * (i 0).val + 9) / 10 = (i 0).val := by omega
  refine ⟨⟨10 * (i 0).val + 9, hlt⟩, (flush0_8 _).mpr (by show (10 * (i 0).val + 9) % 10 = 9; omega), ?_⟩
  show i ∈ ((View.whole main_v24_2).slice (win0_8.rect ⟨10 * (i 0).val + 9, hlt⟩)).set
  rw [View.set_slice_whole, Rect.mem_set_unit]
  intro b
  match b with
  | ⟨0, _⟩ => show win0_8.index ⟨10 * (i 0).val + 9, hlt⟩ 0 * 1 ≤ (i 0).val ∧ (i 0).val < win0_8.index ⟨10 * (i 0).val + 9, hlt⟩ 0 * 1 + 1; rw [e0]; dsimp only; omega
  | ⟨1, _⟩ => show win0_8.index ⟨10 * (i 0).val + 9, hlt⟩ 1 * 64 ≤ (i 1).val ∧ (i 1).val < win0_8.index ⟨10 * (i 0).val + 9, hlt⟩ 1 * 64 + 64; rw [e1]; omega
  | ⟨2, _⟩ => show win0_8.index ⟨10 * (i 0).val + 9, hlt⟩ 2 * 64 ≤ (i 2).val ∧ (i 2).val < win0_8.index ⟨10 * (i 0).val + 9, hlt⟩ 2 * 64 + 64; rw [e2]; omega

theorem cover9 (i : S2x64x1.Idx) : ∃ t : Fin cfg0.N, (cfg0.win 9).flush t = true ∧ i ∈ ((cfg0.win 9).blk t).view.set := by
  have hi0 : (i 0).val < 2 := (i 0).isLt
  have hi1 : (i 1).val < 64 := (i 1).isLt
  have hi2 : (i 2).val < 1 := (i 2).isLt
  have hlt : 10 * (i 0).val + 9 < cfg0.N := by rw [show cfg0.N = 20 from N_0]; omega
  obtain ⟨-, -, -, -, -, -, e0, e1, e2⟩ := idx_out ⟨10 * (i 0).val + 9, hlt⟩
  have ed : (10 * (i 0).val + 9) / 10 = (i 0).val := by omega
  refine ⟨⟨10 * (i 0).val + 9, hlt⟩, (flush0_9 _).mpr (by show (10 * (i 0).val + 9) % 10 = 9; omega), ?_⟩
  show i ∈ ((View.whole main_v24_3).slice (win0_9.rect ⟨10 * (i 0).val + 9, hlt⟩)).set
  rw [View.set_slice_whole, Rect.mem_set_unit]
  intro b
  match b with
  | ⟨0, _⟩ => show win0_9.index ⟨10 * (i 0).val + 9, hlt⟩ 0 * 1 ≤ (i 0).val ∧ (i 0).val < win0_9.index ⟨10 * (i 0).val + 9, hlt⟩ 0 * 1 + 1; rw [e0]; dsimp only; omega
  | ⟨1, _⟩ => show win0_9.index ⟨10 * (i 0).val + 9, hlt⟩ 1 * 64 ≤ (i 1).val ∧ (i 1).val < win0_9.index ⟨10 * (i 0).val + 9, hlt⟩ 1 * 64 + 64; rw [e1]; omega
  | ⟨2, _⟩ => show win0_9.index ⟨10 * (i 0).val + 9, hlt⟩ 2 * 1 ≤ (i 2).val ∧ (i 2).val < win0_9.index ⟨10 * (i 0).val + 9, hlt⟩ 2 * 1 + 1; rw [e2]; omega

section FlushedOf
variable (V : (c : Dev nD) → (b : Ref sig .tc) → Buf (Elt Ideal) ((c : Thread nD τ).loc b)) (c : Dev nD)
/-- A core's last point writes back its block of an array `G` when its buffer holds `G`'s entries of that core. -/

theorem flushed7_of (G : S2x64x64.Idx → EReal) (t : Fin cfg0.N) (hf : (cfg0.win 7).flush t = true)
    (hG : ∀ (g : Fin 64) (d : Fin 64), ((outsAt0 (F := Ideal) V c t.val t.isLt).2.1 : Vec Ideal S1x64x64 .f32) (ix3 0 g d) = G (ix3 (⟨t.val / 10, by have := lt20 t; omega⟩ : Fin 2) g d)) :
    (dat0 (F := Ideal) V c).flushed 7 t = ((cfg0.win 7).blk t).view.read (Elt Ideal) G := by
  have hN := lt20 t
  obtain ⟨e0, e1, e2, -⟩ := idx_out t
  show (cfg0.win 7).cut (grid0.coords t) ((dat0 V c).after 7 t) = _
  rw [after0_7]
  funext y
  rw [View.read_apply]
  show ((outsAt0 (F := Ideal) V c t.val t.isLt).2.1 : Vec Ideal S1x64x64 .f32) y = G (((cfg0.win 7).blk t).view.emb y)
  obtain ⟨a, g, d, rfl⟩ : ∃ (a : Fin 1) (g : Fin 64) (d : Fin 64), y = ix3 a g d := ⟨y 0, y 1, y 2, eq_ix3 (n0 := 1) (n1 := 64) (n2 := 64) y⟩
  obtain rfl : a = 0 := Subsingleton.elim _ _

  have hemb : ((cfg0.win 7).blk t).view.emb (ix3 (0 : Fin 1) g d) = (ix3 (⟨t.val / 10, by omega⟩ : Fin 2) g d : S2x64x64.Idx) := by
    funext b; apply Fin.ext
    match b with
    | ⟨0, _⟩ => show win0_7.index t 0 * 1 + 1 * 0 = t.val / 10; rw [e0]; omega
    | ⟨1, _⟩ => show win0_7.index t 1 * 64 + 1 * g.val = g.val; rw [e1]; omega
    | ⟨2, _⟩ => show win0_7.index t 2 * 64 + 1 * d.val = d.val; rw [e2]; omega
  rw [hemb]
  exact hG g d

theorem flushed8_of (G : S2x64x64.Idx → EReal) (t : Fin cfg0.N) (hf : (cfg0.win 8).flush t = true)
    (hG : ∀ (g : Fin 64) (d : Fin 64), ((outsAt0 (F := Ideal) V c t.val t.isLt).2.2.1 : Vec Ideal S1x64x64 .f32) (ix3 0 g d) = G (ix3 (⟨t.val / 10, by have := lt20 t; omega⟩ : Fin 2) g d)) :
    (dat0 (F := Ideal) V c).flushed 8 t = ((cfg0.win 8).blk t).view.read (Elt Ideal) G := by
  have hN := lt20 t
  obtain ⟨-, -, -, e0, e1, e2, -⟩ := idx_out t
  show (cfg0.win 8).cut (grid0.coords t) ((dat0 V c).after 8 t) = _
  rw [after0_8]
  funext y
  rw [View.read_apply]
  show ((outsAt0 (F := Ideal) V c t.val t.isLt).2.2.1 : Vec Ideal S1x64x64 .f32) y = G (((cfg0.win 8).blk t).view.emb y)
  obtain ⟨a, g, d, rfl⟩ : ∃ (a : Fin 1) (g : Fin 64) (d : Fin 64), y = ix3 a g d := ⟨y 0, y 1, y 2, eq_ix3 (n0 := 1) (n1 := 64) (n2 := 64) y⟩
  obtain rfl : a = 0 := Subsingleton.elim _ _

  have hemb : ((cfg0.win 8).blk t).view.emb (ix3 (0 : Fin 1) g d) = (ix3 (⟨t.val / 10, by omega⟩ : Fin 2) g d : S2x64x64.Idx) := by
    funext b; apply Fin.ext
    match b with
    | ⟨0, _⟩ => show win0_8.index t 0 * 1 + 1 * 0 = t.val / 10; rw [e0]; omega
    | ⟨1, _⟩ => show win0_8.index t 1 * 64 + 1 * g.val = g.val; rw [e1]; omega
    | ⟨2, _⟩ => show win0_8.index t 2 * 64 + 1 * d.val = d.val; rw [e2]; omega
  rw [hemb]
  exact hG g d

theorem flushed9_of (G : S2x64x1.Idx → EReal) (t : Fin cfg0.N) (hf : (cfg0.win 9).flush t = true)
    (hG : ∀ (g : Fin 64), ((outsAt0 (F := Ideal) V c t.val t.isLt).2.2.2 : Vec Ideal S1x64x1 .f32) (ix3 0 g 0) = G (ix3 (⟨t.val / 10, by have := lt20 t; omega⟩ : Fin 2) g (0 : Fin 1))) :
    (dat0 (F := Ideal) V c).flushed 9 t = ((cfg0.win 9).blk t).view.read (Elt Ideal) G := by
  have hN := lt20 t
  obtain ⟨-, -, -, -, -, -, e0, e1, e2⟩ := idx_out t
  show (cfg0.win 9).cut (grid0.coords t) ((dat0 V c).after 9 t) = _
  rw [after0_9]
  funext y
  rw [View.read_apply]
  show ((outsAt0 (F := Ideal) V c t.val t.isLt).2.2.2 : Vec Ideal S1x64x1 .f32) y = G (((cfg0.win 9).blk t).view.emb y)
  obtain ⟨a, g, d, rfl⟩ : ∃ (a : Fin 1) (g : Fin 64) (d : Fin 1), y = ix3 a g d := ⟨y 0, y 1, y 2, eq_ix3 (n0 := 1) (n1 := 64) (n2 := 1) y⟩
  obtain rfl : a = 0 := Subsingleton.elim _ _
  obtain rfl : d = 0 := Subsingleton.elim _ _
  have hemb : ((cfg0.win 9).blk t).view.emb (ix3 (0 : Fin 1) g (0 : Fin 1)) = (ix3 (⟨t.val / 10, by omega⟩ : Fin 2) g (0 : Fin 1) : S2x64x1.Idx) := by
    funext b; apply Fin.ext
    match b with
    | ⟨0, _⟩ => show win0_9.index t 0 * 1 + 1 * 0 = t.val / 10; rw [e0]; omega
    | ⟨1, _⟩ => show win0_9.index t 1 * 64 + 1 * g.val = g.val; rw [e1]; omega
    | ⟨2, _⟩ => show win0_9.index t 2 * 1 + 1 * 0 = 0; rw [e2]
  rw [hemb]
  exact hG g

end FlushedOf

section Final

variable (V : (c : Dev nD) → (b : Ref sig .tc) → Buf (Elt Ideal) ((c : Thread nD τ).loc b)) (c : Dev nD)
variable (β : Fin 100000 → Fin 64)

/-- The three arrays after the run, as functions of the index. -/
abbrev Gsum : S2x64x64.Idx → EReal := fun i => Cert.GNSpec.segHalf β (hv V c (i 2)) (i 0) (i 1)
abbrev Gsumsq : S2x64x64.Idx → EReal := fun i => Cert.GNSpec.segHalf β (fun n => hv V c (i 2) n * hv V c (i 2) n) (i 0) (i 1)
abbrev Gcnt : S2x64x1.Idx → EReal := fun i => Cert.GNSpec.segHalf β (fun _ => 1) (i 0) (i 1)

variable (hβ : ∀ n : Fin 100000, Arr.bcol V c (ix2 n 0) = BitVec.ofNat 32 (β n).val)
include hβ

theorem inv7 (n : ℕ) : ∀ (h : n < cfg0.N) (g d : Fin 64),
    ((outsAt0 (F := Ideal) V c n h).2.1 : Vec Ideal S1x64x64 .f32) (ix3 0 g d)
      = upto β (hv V c d) (50000 * (n / 10)) (5000 * (n + 1)) g := by
  induction n with
  | zero =>
    intro h g d
    exact stepA7 V c β hβ ⟨0, h⟩ rfl g d
  | succ n ih =>
    intro h g d
    by_cases h0 : (n + 1) % 10 = 0
    · refine (stepA7 V c β hβ ⟨n + 1, h⟩ h0 g d).trans ?_
      have e : 50000 * ((n + 1) / 10) = 5000 * (n + 1) := by omega
      rw [e]
    · refine (stepB7 V c β hβ ⟨n + 1, h⟩ h0 g d).trans ?_
      have e : (n + 1) / 10 = n / 10 := by omega
      rw [e]
      refine (congrArg (· + _) (ih (Nat.lt_of_succ_lt h) g d)).trans ?_
      exact upto_add β _ (50000 * (n / 10)) (5000 * (n + 1)) (5000 * (n + 1 + 1)) g (by omega) (by omega)

theorem inv8 (n : ℕ) : ∀ (h : n < cfg0.N) (g d : Fin 64),
    ((outsAt0 (F := Ideal) V c n h).2.2.1 : Vec Ideal S1x64x64 .f32) (ix3 0 g d)
      = upto β (fun n => hv V c d n * hv V c d n) (50000 * (n / 10)) (5000 * (n + 1)) g := by
  induction n with
  | zero =>
    intro h g d
    exact stepA8 V c β hβ ⟨0, h⟩ rfl g d
  | succ n ih =>
    intro h g d
    by_cases h0 : (n + 1) % 10 = 0
    · refine (stepA8 V c β hβ ⟨n + 1, h⟩ h0 g d).trans ?_
      have e : 50000 * ((n + 1) / 10) = 5000 * (n + 1) := by omega
      rw [e]
    · refine (stepB8 V c β hβ ⟨n + 1, h⟩ h0 g d).trans ?_
      have e : (n + 1) / 10 = n / 10 := by omega
      rw [e]
      refine (congrArg (· + _) (ih (Nat.lt_of_succ_lt h) g d)).trans ?_
      exact upto_add β _ (50000 * (n / 10)) (5000 * (n + 1)) (5000 * (n + 1 + 1)) g (by omega) (by omega)

theorem inv9 (n : ℕ) : ∀ (h : n < cfg0.N) (g : Fin 64),
    ((outsAt0 (F := Ideal) V c n h).2.2.2 : Vec Ideal S1x64x1 .f32) (ix3 0 g 0)
      = upto β (fun _ => 1) (50000 * (n / 10)) (5000 * (n + 1)) g := by
  induction n with
  | zero =>
    intro h g
    exact stepA9 V c β hβ ⟨0, h⟩ rfl g
  | succ n ih =>
    intro h g
    by_cases h0 : (n + 1) % 10 = 0
    · refine (stepA9 V c β hβ ⟨n + 1, h⟩ h0 g).trans ?_
      have e : 50000 * ((n + 1) / 10) = 5000 * (n + 1) := by omega
      rw [e]
    · refine (stepB9 V c β hβ ⟨n + 1, h⟩ h0 g).trans ?_
      have e : (n + 1) / 10 = n / 10 := by omega
      rw [e]
      refine (congrArg (· + _) (ih (Nat.lt_of_succ_lt h) g)).trans ?_
      exact upto_add β _ (50000 * (n / 10)) (5000 * (n + 1)) (5000 * (n + 1 + 1)) g (by omega) (by omega)

theorem flushed7 (t : Fin cfg0.N) (hf : (cfg0.win 7).flush t = true) :
    (dat0 (F := Ideal) V c).flushed 7 t = ((cfg0.win 7).blk t).view.read (Elt Ideal) (Gsum V c β) := by
  have h9 : t.val % 10 = 9 := (flush0_7 t).mp hf
  have hN := lt20 t
  refine flushed7_of V c (Gsum V c β) t hf fun g d => ?_
  rw [inv7 V c β hβ t.val t.isLt g d]
  have ea : 5000 * (t.val + 1) = 50000 * (t.val / 10 + 1) := by omega
  rw [ea]
  exact upto_half β _ ⟨t.val / 10, by omega⟩ g

theorem flushed8 (t : Fin cfg0.N) (hf : (cfg0.win 8).flush t = true) :
    (dat0 (F := Ideal) V c).flushed 8 t = ((cfg0.win 8).blk t).view.read (Elt Ideal) (Gsumsq V c β) := by
  have h9 : t.val % 10 = 9 := (flush0_8 t).mp hf
  have hN := lt20 t
  refine flushed8_of V c (Gsumsq V c β) t hf fun g d => ?_
  rw [inv8 V c β hβ t.val t.isLt g d]
  have ea : 5000 * (t.val + 1) = 50000 * (t.val / 10 + 1) := by omega
  rw [ea]
  exact upto_half β _ ⟨t.val / 10, by omega⟩ g

theorem flushed9 (t : Fin cfg0.N) (hf : (cfg0.win 9).flush t = true) :
    (dat0 (F := Ideal) V c).flushed 9 t = ((cfg0.win 9).blk t).view.read (Elt Ideal) (Gcnt β) := by
  have h9 : t.val % 10 = 9 := (flush0_9 t).mp hf
  have hN := lt20 t
  refine flushed9_of V c (Gcnt β) t hf fun g => ?_
  rw [inv9 V c β hβ t.val t.isLt g]
  have ea : 5000 * (t.val + 1) = 50000 * (t.val / 10 + 1) := by omega
  rw [ea]
  exact upto_half β _ ⟨t.val / 10, by omega⟩ g

theorem final7 : (dat0 (F := Ideal) V c).arrAt 7 cfg0.N = Gsum V c β :=
  (dat0 (F := Ideal) V c).arrAt_eq_of_cover 7 (Gsum V c β) (flushed7 V c β hβ) cover7
theorem final8 : (dat0 (F := Ideal) V c).arrAt 8 cfg0.N = Gsumsq V c β :=
  (dat0 (F := Ideal) V c).arrAt_eq_of_cover 8 (Gsumsq V c β) (flushed8 V c β hβ) cover8
theorem final9 : (dat0 (F := Ideal) V c).arrAt 9 cfg0.N = Gcnt β :=
  (dat0 (F := Ideal) V c).arrAt_eq_of_cover 9 (Gcnt β) (flushed9 V c β hβ) cover9

end Final

-- the TensorCore's buffer contents when the region is entered: any
variable (V : (c : Dev nD) → (b : Ref sig .tc) → Buf (Elt Ideal) ((c : Thread nD τ).loc b))

variable (c : Dev nD) (β : Fin 100000 → Fin 64)
  (hβ : ∀ n : Fin 100000, Arr.bcol V c (ix2 n 0) = BitVec.ofNat 32 (β n).val)
include hβ

/-- The per-half, per-graph sums of the dense layer. -/
theorem arr_sum (k : Fin 2) (g d : Fin 64) :
    Arr.r0sum V c (ix3 k g d) = Cert.GNSpec.segHalf β (fun n => (Cert.GNSpec.hvalT (Arr.agg V c) (Arr.x V c) (Arr.wrelT V c) (Arr.wrootT V c) (Arr.brelRow V c) n d)) k g :=
  congrFun (final7 V c β hβ) (ix3 k g d)

/-- The per-half, per-graph sums of its squares. -/
theorem arr_sumsq (k : Fin 2) (g d : Fin 64) :
    Arr.r0sumsq V c (ix3 k g d) = Cert.GNSpec.segHalf β (fun n => (Cert.GNSpec.hvalT (Arr.agg V c) (Arr.x V c) (Arr.wrelT V c) (Arr.wrootT V c) (Arr.brelRow V c) n d) * (Cert.GNSpec.hvalT (Arr.agg V c) (Arr.x V c) (Arr.wrelT V c) (Arr.wrootT V c) (Arr.brelRow V c) n d)) k g :=
  congrFun (final8 V c β hβ) (ix3 k g d)

/-- The per-half, per-graph node counts. -/
theorem arr_cnt (k : Fin 2) (g : Fin 64) :
    Arr.r0cnt V c (ix3 k g 0) = Cert.GNSpec.segHalf β (fun _ => 1) k g :=
  congrFun (final9 V c β hβ) (ix3 k g 0)

end Cert.KernelIdeal.R0Acc

end
-- ==== Proof.Region1.lean ====
/-
  The second kernel call's result as an array: tile t of the output holds, row by row, the normalisation
  w · (h − mean[g] · s) / std[g] + bias with g the row's graph, and the twenty tiles cover the 100000 rows.
-/
import proofs.«426248_j35416300323760_2_alg».proof.Proof.Arrays
import proofs.«426248_j35416300323760_2_alg».proof.Proof.Payload2
import proofs.«426248_j35416300323760_2_alg».proof.Proof.Spec2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R1

open Cert.KernelIdeal Cert.KernelIdeal.Gen Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The printed index maps of the second call, decided over its twenty points: the feature tile, the id column and
    the output tile sit at row block t; the two tables and the three rows are whole arrays, at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Tile t of the features: rows 5000 t … 5000 t + 4999 of h. -/
theorem hblk_apply (c : Dev nD) (t : Fin cfg1.N) (y : S5000x64.Idx) (k : S100000x64.Idx)
    (hk0 : (k 0).val = 5000 * t.val + (y 0).val) (hk1 : (k 1).val = (y 1).val) :
    (iblk1 (F := Ideal) V c 0 t : Vec Ideal S5000x64 .f32) y = Arr.h V c k := by
  obtain ⟨e0, e1, -⟩ := idx_facts t
  unfold iblk1
  rw [View.read_apply]
  show V c main_v24_0 _ = V c main_v24_0 _
  congr 1
  funext a
  apply Fin.ext
  match a with
  | ⟨0, _⟩ => show win1_0.index t 0 * 5000 + 1 * (y 0).val = (k 0).val; rw [e0, hk0]; omega
  | ⟨1, _⟩ => show win1_0.index t 1 * 64 + 1 * (y 1).val = (k 1).val; rw [e1, hk1]; omega

/-- Tile t of the graph-id column. -/
theorem bblk_apply (c : Dev nD) (t : Fin cfg1.N) (y : S5000x1.Idx) (k : S100000x1.Idx)
    (hk0 : (k 0).val = 5000 * t.val + (y 0).val) (hk1 : (k 1).val = (y 1).val) :
    (iblk1 (F := Ideal) V c 1 t : Vec Ideal S5000x1 .i32) y = Arr.bcol V c k := by
  obtain ⟨-, -, e0, e1, -⟩ := idx_facts t
  unfold iblk1
  rw [View.read_apply]
  show V c main_v4 _ = V c main_v4 _
  congr 1
  funext a
  apply Fin.ext
  match a with
  | ⟨0, _⟩ => show win1_1.index t 0 * 5000 + 1 * (y 0).val = (k 0).val; rw [e0, hk0]; omega
  | ⟨1, _⟩ => show win1_1.index t 1 * 1 + 1 * (y 1).val = (k 1).val; rw [e1, hk1]; omega

/-- The mean table's one block is the table. -/
theorem meanblk_eq (c : Dev nD) (t : Fin cfg1.N) : (iblk1 (F := Ideal) V c 2 t : Vec Ideal S64x64 .f32) = Arr.meanT V c := by
  obtain ⟨-, -, -, -, e0, e1, -⟩ := idx_facts t
  funext y
  unfold iblk1
  rw [View.read_apply]
  show V c main_v29 _ = V c main_v29 _
  congr 1
  funext a
  apply Fin.ext
  match a with
  | ⟨0, _⟩ => show win1_2.index t 0 * 64 + 1 * (y 0).val = (y 0).val; rw [e0]; omega
  | ⟨1, _⟩ => show win1_2.index t 1 * 64 + 1 * (y 1).val = (y 1).val; rw [e1]; omega

/-- The standard-deviation table's one block is the table. -/
theorem stdblk_eq (c : Dev nD) (t : Fin cfg1.N) : (iblk1 (F := Ideal) V c 3 t : Vec Ideal S64x64 .f32) = Arr.stdT V c := by
  obtain ⟨-, -, -, -, -, -, e0, e1, -⟩ := idx_facts t
  funext y
  unfold iblk1
  rw [View.read_apply]
  show V c main_v43 _ = V c main_v43 _
  congr 1
  funext a
  apply Fin.ext
  match a with
  | ⟨0, _⟩ => show win1_3.index t 0 * 64 + 1 * (y 0).val = (y 0).val; rw [e0]; omega
  | ⟨1, _⟩ => show win1_3.index t 1 * 64 + 1 * (y 1).val = (y 1).val; rw [e1]; omega

/-- The scale row's one block is the row. -/
theorem scaleblk_eq (c : Dev nD) (t : Fin cfg1.N) : (iblk1 (F := Ideal) V c 4 t : Vec Ideal S1x64 .f32) = Arr.scaleRow V c := by
  obtain ⟨-, -, -, -, -, -, -, -, e0, e1, -⟩ := idx_facts t
  funext y
  unfold iblk1
  rw [View.read_apply]
  show V c main_v21 _ = V c main_v21 _
  congr 1
  funext a
  apply Fin.ext
  match a with
  | ⟨0, _⟩ => show win1_4.index t 0 * 1 + 1 * (y 0).val = (y 0).val; rw [e0]; omega
  | ⟨1, _⟩ => show win1_4.index t 1 * 64 + 1 * (y 1).val = (y 1).val; rw [e1]; omega

/-- The weight row's one block is the row. -/
theorem weightblk_eq (c : Dev nD) (t : Fin cfg1.N) : (iblk1 (F := Ideal) V c 5 t : Vec Ideal S1x64 .f32) = Arr.weightRow V c := by
  obtain ⟨-, -, -, -, -, -, -, -, -, -, e0, e1, -⟩ := idx_facts t
  funext y
  unfold iblk1
  rw [View.read_apply]
  show V c main_v22 _ = V c main_v22 _
  congr 1
  funext a
  apply Fin.ext
  match a with
  | ⟨0, _⟩ => show win1_5.index t 0 * 1 + 1 * (y 0).val = (y 0).val; rw [e0]; omega
  | ⟨1, _⟩ => show win1_5.index t 1 * 64 + 1 * (y 1).val = (y 1).val; rw [e1]; omega

/-- The bias row's one block is the row. -/
theorem biasblk_eq (c : Dev nD) (t : Fin cfg1.N) : (iblk1 (F := Ideal) V c 6 t : Vec Ideal S1x64 .f32) = Arr.biasRow V c := by
  obtain ⟨-, -, -, -, -, -, -, -, -, -, -, -, e0, e1, -⟩ := idx_facts t
  funext y
  unfold iblk1
  rw [View.read_apply]
  show V c main_v23 _ = V c main_v23 _
  congr 1
  funext a
  apply Fin.ext
  match a with
  | ⟨0, _⟩ => show win1_6.index t 0 * 1 + 1 * (y 0).val = (y 0).val; rw [e0]; omega
  | ⟨1, _⟩ => show win1_6.index t 1 * 64 + 1 * (y 1).val = (y 1).val; rw [e1]; omega

/-- The second call's result as one function of the whole arrays: at row n, feature d, the normalisation
    w[d] · (h[n,d] − mean[β n, d] · s[d]) / std[β n, d] + bias[d]. -/
def normG (hA : S100000x64.Idx → EReal) (mn sd : S64x64.Idx → EReal) (s w bias : S1x64.Idx → EReal)
    (β : Fin 100000 → Fin 64) : S100000x64.Idx → EReal := fun i =>
  Ideal.div (w (ix2 0 ⟨(i 1).val, idx2_lt1 i⟩)
      * (hA i - mn (ix2 (β ⟨(i 0).val, idx2_lt0 i⟩) ⟨(i 1).val, idx2_lt1 i⟩) * s (ix2 0 ⟨(i 1).val, idx2_lt1 i⟩)))
    (sd (ix2 (β ⟨(i 0).val, idx2_lt0 i⟩) ⟨(i 1).val, idx2_lt1 i⟩))
  + bias (ix2 0 ⟨(i 1).val, idx2_lt1 i⟩)

/-- One entry of the body's result on tile T: with the tile's feature block and id column read off the whole arrays at
    rows 5000 T + r, and the small arrays whole, the entry at (r, d) is the normalisation at row 5000 T + r. -/
theorem tile_entry (hA : S100000x64.Idx → EReal) (bA : S100000x1.Idx → BitVec 32) (mn sd : S64x64.Idx → EReal)
    (s w bias : S1x64.Idx → EReal) (β : Fin 100000 → Fin 64)
    (hβ : ∀ n : Fin 100000, bA (ix2 n 0) = BitVec.ofNat 32 (β n).val) (T : ℕ)
    (x0 : Vec Ideal S5000x64 .f32) (x1 : Vec Ideal S5000x1 .i32) (x2 x3 : Vec Ideal S64x64 .f32) (x4 x5 x6 : Vec Ideal S1x64 .f32)
    (h0 : ∀ (y : S5000x64.Idx) (k : S100000x64.Idx), (k 0).val = 5000 * T + (y 0).val → (k 1).val = (y 1).val → x0 y = hA k)
    (h1 : ∀ (y : S5000x1.Idx) (k : S100000x1.Idx), (k 0).val = 5000 * T + (y 0).val → (k 1).val = (y 1).val → x1 y = bA k)
    (h2 : x2 = mn) (h3 : x3 = sd) (h4 : x4 = s) (h5 : x5 = w) (h6 : x6 = bias)
    (j : S5000x64.Idx) (i : S100000x64.Idx) (hi0 : (i 0).val = 5000 * T + (j 0).val) (hi1 : (i 1).val = (j 1).val) :
    k1_pay1 (F := Ideal) x0 x1 x2 x3 x4 x5 x6 j = normG hA mn sd s w bias β i := by
  subst h2 h3 h4 h5 h6
  obtain ⟨r, d, rfl⟩ : ∃ (r : Fin 5000) (d : Fin 64), j = ix2 r d := ⟨j 0, j 1, eq_ix2 j⟩
  obtain ⟨n, d', rfl⟩ : ∃ (n : Fin 100000) (d' : Fin 64), i = ix2 n d' := ⟨i 0, i 1, eq_ix2 i⟩
  have hd : d' = d := Fin.ext hi1
  subst hd
  have hn : n.val = 5000 * T + r.val := hi0
  have hb : x1 (ix2 r 0) = BitVec.ofNat 32 (β n).val := (h1 (ix2 r 0) (ix2 n 0) hn rfl).trans (hβ n)
  refine (Pay.k1_pay1_apply x0 x1 x2 x3 x4 x5 x6 r d' (β n) hb).trans ?_
  rw [h0 (ix2 r d') (ix2 n d') hn rfl]
  rfl

/-- WHAT POINT t WRITES BACK is block t of the normalisation of the whole arrays. -/
theorem flushed_eq (c : Dev nD) (β : Fin 100000 → Fin 64)
    (hβ : ∀ n : Fin 100000, Arr.bcol V c (ix2 n 0) = BitVec.ofNat 32 (β n).val) (t : Fin cfg1.N) :
    (dat1 (F := Ideal) V c).flushed 7 t = ((cfg1.win 7).blk t).view.read (Elt Ideal)
      (normG (Arr.h V c) (Arr.meanT V c) (Arr.stdT V c) (Arr.scaleRow V c) (Arr.weightRow V c) (Arr.biasRow V c) β) := by
  show (cfg1.win 7).cut (grid1.coords t) ((dat1 (F := Ideal) V c).after 7 t) = _
  rw [after1_7]
  unfold out1_7
  rw [View.canon_unit_zero hz]
  simp only [View.ld_unit_zero (S := S5000x64) hz, View.ld_unit_zero (S := S5000x1) hz, View.ld_unit_zero (S := S64x64) hz,
    View.ld_unit_zero (S := S1x64) hz]
  obtain ⟨-, -, -, -, -, -, -, -, -, -, -, -, -, -, e0, e1⟩ := idx_facts t
  funext j
  show k1_pay1 (F := Ideal) (iblk1 V c 0 t) (iblk1 V c 1 t) (iblk1 V c 2 t) (iblk1 V c 3 t) (iblk1 V c 4 t) (iblk1 V c 5 t) (iblk1 V c 6 t) j
    = normG (Arr.h V c) (Arr.meanT V c) (Arr.stdT V c) (Arr.scaleRow V c) (Arr.weightRow V c) (Arr.biasRow V c) β (((cfg1.win 7).blk t).view.emb j)
  exact tile_entry (Arr.h V c) (Arr.bcol V c) (Arr.meanT V c) (Arr.stdT V c) (Arr.scaleRow V c) (Arr.weightRow V c) (Arr.biasRow V c) β hβ t.val
    (iblk1 V c 0 t) (iblk1 V c 1 t) (iblk1 V c 2 t) (iblk1 V c 3 t) (iblk1 V c 4 t) (iblk1 V c 5 t) (iblk1 V c 6 t)
    (hblk_apply V c t) (bblk_apply V c t) (meanblk_eq V c t) (stdblk_eq V c t) (scaleblk_eq V c t) (weightblk_eq V c t) (biasblk_eq V c t)
    j (((cfg1.win 7).blk t).view.emb j)
    (by show win1_7.index t 0 * 5000 + 1 * (j 0).val = 5000 * t.val + (j 0).val; rw [e0]; omega)
    (by show win1_7.index t 1 * 64 + 1 * (j 1).val = (j 1).val; rw [e1]; omega)

/-- A row-feature index is in point t's block iff each coordinate is in the block's range on its axis. -/
theorem mem_blk (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v44).slice (win1_7.rect t)).set ↔ _
  rw [View.set_slice_whole, Rect.mem_set_unit]
  exact Iff.rfl

/-- The twenty tiles cover the 100000 rows: row n is in tile n / 5000. -/
theorem cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by show _ < 20; omega⟩, rfl⟩
  obtain ⟨-, -, -, -, -, -, -, -, -, -, -, -, -, -, e0, e1⟩ := idx_facts t
  refine ⟨t, flush1_7 t, ?_⟩
  rw [mem_blk]
  intro a
  match a with
  | ⟨0, _⟩ => show win1_7.index t 0 * 5000 ≤ (i 0).val ∧ (i 0).val < win1_7.index t 0 * 5000 + 5000; rw [e0, ht]; omega
  | ⟨1, _⟩ => show win1_7.index t 1 * 64 ≤ (i 1).val ∧ (i 1).val < win1_7.index t 1 * 64 + 64; rw [e1]; omega

/-- After the second call, row `n`, feature `d` of its result, for a node whose graph is `β n`. -/
theorem arr_out (c : Dev nD) (β : Fin 100000 → Fin 64)
    (hβ : ∀ n : Fin 100000, Arr.bcol V c (ix2 n 0) = BitVec.ofNat 32 (β n).val)
    (n : Fin 100000) (d : Fin 64) :
    Arr.r1out V c (ix2 n d)
      = Ideal.div (Arr.weightRow V c (ix2 0 d) * (Arr.h V c (ix2 n d) - Arr.meanT V c (ix2 (β n) d) * Arr.scaleRow V c (ix2 0 d)))
          (Arr.stdT V c (ix2 (β n) d))
        + Arr.biasRow V c (ix2 0 d) := by
  have final : (dat1 (F := Ideal) V c).arrAt 7 cfg1.N
      = normG (Arr.h V c) (Arr.meanT V c) (Arr.stdT V c) (Arr.scaleRow V c) (Arr.weightRow V c) (Arr.biasRow V c) β :=
    (dat1 (F := Ideal) V c).arrAt_eq_of_cover 7
      (normG (Arr.h V c) (Arr.meanT V c) (Arr.stdT V c) (Arr.scaleRow V c) (Arr.weightRow V c) (Arr.biasRow V c) β)
      (fun t _ => flushed_eq V c β hβ t) cover
  exact (congrFun final (ix2 n d)).trans rfl

end Cert.KernelIdeal.R1

end
-- ==== Proof.Algebra.lean ====
/-
  The algebra of the two variance formulas on the extended reals.

  When every entry is a real number, the per-graph sums, the node count (at least one for the graph of a node),
  the means and both variances are real numbers, and over the reals
    (Σ (hₘ − μ s)²) / c = (Σ hₘ²) / c − μ · μ · s · (2 − s),   μ = (Σ hₘ) / c.
-/
import proofs.«426248_j35416300323760_2_alg».proof.Proof.Spec
import Mathlib.Data.EReal.Operations
import Mathlib.Data.EReal.Inv
import Mathlib.Algebra.BigOperators.Group.Finset.Basic
import Mathlib.Algebra.BigOperators.Ring.Finset
import Mathlib.Tactic.FieldSimp
import Mathlib.Tactic.Ring
import Mathlib.Tactic.NormNum

noncomputable section

namespace Cert.GNSpec

open Idealize.ShloMosaic Idealize.ShloMosaic.ValueIdx

/-- The literal `2.0` denotes the real number two. -/
theorem two_eq : two = ((2 : ℝ) : EReal) := by
  simp [Ideal.ofBits, Ideal.ieee, -EReal.coe_mul]; norm_num

/-- A finite sum of coerced reals is the coercion of the real sum. -/
theorem coe_sum {ι : Type} (S : Finset ι) (f : ι → ℝ) :
    ∑ i ∈ S, ((f i : ℝ) : EReal) = ((∑ i ∈ S, f i : ℝ) : EReal) := by
  classical
  induction S using Finset.induction_on with
  | empty => simp
  | insert a s ha ih => rw [Finset.sum_insert ha, Finset.sum_insert ha, ih, EReal.coe_add]

/-- A finite sum of real entries is real. -/
theorem sum_real {ι : Type} (S : Finset ι) (f : ι → EReal) (hf : ∀ i ∈ S, ∃ r : ℝ, f i = (r : EReal)) :
    ∃ r : ℝ, ∑ i ∈ S, f i = (r : EReal) := by
  classical
  induction S using Finset.induction_on with
  | empty => exact ⟨0, by simp⟩
  | insert a s ha ih =>
    obtain ⟨r1, h1⟩ := hf a (Finset.mem_insert_self a s)
    obtain ⟨r2, h2⟩ := ih (fun i hi => hf i (Finset.mem_insert_of_mem hi))
    exact ⟨r1 + r2, by rw [Finset.sum_insert ha, h1, h2, EReal.coe_add]⟩

/-- The dense layer of real arrays is real. -/
theorem hval_real {agg x : (⟨2, ![100000, 64]⟩ : Shape).Idx → EReal} {wrel wroot : (⟨2, ![64, 64]⟩ : Shape).Idx → EReal}
    {brel : (⟨1, ![64]⟩ : Shape).Idx → EReal}
    (ha : IsReal agg) (hx : IsReal x) (hwr : IsReal wrel) (hwo : IsReal wroot) (hb : IsReal brel)
    (n : Fin 100000) (d : Fin 64) : ∃ r : ℝ, hval agg x wrel wroot brel n d = (r : EReal) := by
  obtain ⟨A, hA⟩ := sum_real Finset.univ (fun k : Fin 64 => agg (ix2 n k) * wrel (ix2 d k)) (fun k _ => by
    obtain ⟨a, h1⟩ := ha (ix2 n k)
    obtain ⟨b, h2⟩ := hwr (ix2 d k)
    exact ⟨a * b, by rw [h1, h2, EReal.coe_mul]⟩)
  obtain ⟨B, hB⟩ := sum_real Finset.univ (fun k : Fin 64 => x (ix2 n k) * wroot (ix2 d k)) (fun k _ => by
    obtain ⟨a, h1⟩ := hx (ix2 n k)
    obtain ⟨b, h2⟩ := hwo (ix2 d k)
    exact ⟨a * b, by rw [h1, h2, EReal.coe_mul]⟩)
  obtain ⟨c, hc⟩ := hb (ix1 d)
  refine ⟨max (A + c + B) 0, ?_⟩
  unfold hval
  rw [hA, hB, hc, ← EReal.coe_add, ← EReal.coe_add, ← EReal.coe_zero]
  exact (EReal.coe_strictMono.monotone.map_max).symm

/-- Over the reals: the mean of the squared deviations from the scaled mean is the mean of squares less
    `μ · μ · s · (2 − s)`. -/
theorem real_var {ι : Type} (F : Finset ι) (f : ι → ℝ) (s : ℝ) (hc : (F.card : ℝ) ≠ 0) :
    (∑ m ∈ F, (f m - (∑ k ∈ F, f k) * (1 / (F.card : ℝ)) * s) * (f m - (∑ k ∈ F, f k) * (1 / (F.card : ℝ)) * s))
        * (1 / (F.card : ℝ))
      = (∑ m ∈ F, f m * f m) * (1 / (F.card : ℝ))
        - (∑ k ∈ F, f k) * (1 / (F.card : ℝ)) * ((∑ k ∈ F, f k) * (1 / (F.card : ℝ))) * s * (2 - s) := by
  have key : ∀ a : ℝ, ∑ m ∈ F, (f m - a) * (f m - a)
      = ∑ m ∈ F, f m * f m - 2 * a * ∑ m ∈ F, f m + (F.card : ℝ) * (a * a) := by
    intro a
    have h1 : ∀ m, (f m - a) * (f m - a) = f m * f m - 2 * a * f m + a * a := fun m => by ring
    simp only [h1]
    rw [Finset.sum_add_distrib, Finset.sum_sub_distrib, ← Finset.mul_sum, Finset.sum_const, nsmul_eq_mul]
  rw [key]
  field_simp
  ring

/-- The per-graph sum of a real column is the real sum. -/
theorem seg_coe (β : Fin 100000 → Fin 64) (f : Fin 100000 → ℝ) (g : Fin 64) :
    seg β (fun n => ((f n : ℝ) : EReal)) g
      = ((∑ n ∈ Finset.univ.filter (fun n => β n = g), f n : ℝ) : EReal) :=
  coe_sum _ _

/-- The node count of a graph is the (real) cardinality of its node set. -/
theorem cnt_coe (β : Fin 100000 → Fin 64) (g : Fin 64) :
    cnt β g = ((((Finset.univ.filter (fun n => β n = g)).card : ℝ)) : EReal) := by
  have h1 : cnt β g = seg β (fun _ => (((1 : ℝ)) : EReal)) g := by
    unfold cnt; rw [EReal.coe_one]
  rw [h1, seg_coe]
  rw [Finset.sum_const, nsmul_eq_mul, mul_one]

/-- The mean of a real column over a nonempty graph. -/
theorem mean_coe (β : Fin 100000 → Fin 64) (r : Fin 100000 → Fin 64 → ℝ) (g d : Fin 64)
    (hc : ((Finset.univ.filter (fun n => β n = g)).card : ℝ) ≠ 0) :
    mean (fun n d => ((r n d : ℝ) : EReal)) β g d
      = (((∑ n ∈ Finset.univ.filter (fun n => β n = g), r n d)
          * (1 / ((Finset.univ.filter (fun n => β n = g)).card : ℝ)) : ℝ) : EReal) := by
  show Ideal.div (seg β (fun n => ((r n d : ℝ) : EReal)) g) (cnt β g) = _
  rw [seg_coe β (fun n => r n d) g, cnt_coe, Ideal.div_coe hc, ← EReal.coe_mul]

/-- The kernel's variance of real data over a nonempty graph, as a real number. -/
theorem varKer_coe (β : Fin 100000 → Fin 64) (r : Fin 100000 → Fin 64 → ℝ) (t : Fin 64 → ℝ) (g d : Fin 64)
    (hc : ((Finset.univ.filter (fun n => β n = g)).card : ℝ) ≠ 0) :
    varKer (fun n d => ((r n d : ℝ) : EReal)) β (fun d => ((t d : ℝ) : EReal)) g d
      = (((∑ m ∈ Finset.univ.filter (fun n => β n = g), r m d * r m d)
            * (1 / ((Finset.univ.filter (fun n => β n = g)).card : ℝ))
          - (∑ k ∈ Finset.univ.filter (fun n => β n = g), r k d)
            * (1 / ((Finset.univ.filter (fun n => β n = g)).card : ℝ))
            * ((∑ k ∈ Finset.univ.filter (fun n => β n = g), r k d)
              * (1 / ((Finset.univ.filter (fun n => β n = g)).card : ℝ))) * t d * (2 - t d) : ℝ) : EReal) := by
  show Ideal.div (seg β (fun m => ((r m d : ℝ) : EReal) * ((r m d : ℝ) : EReal)) g) (cnt β g)
      - mean (fun n d => ((r n d : ℝ) : EReal)) β g d * mean (fun n d => ((r n d : ℝ) : EReal)) β g d
        * ((t d : ℝ) : EReal) * (two - ((t d : ℝ) : EReal)) = _
  have hsq : seg β (fun m => ((r m d : ℝ) : EReal) * ((r m d : ℝ) : EReal)) g
      = seg β (fun m => ((r m d * r m d : ℝ) : EReal)) g := by
    unfold seg
    exact Finset.sum_congr rfl fun m _ => (EReal.coe_mul _ _).symm
  rw [hsq, seg_coe β (fun m => r m d * r m d) g, mean_coe β r g d hc, cnt_coe, Ideal.div_coe hc, two_eq]
  simp only [← EReal.coe_mul, ← EReal.coe_sub]

/-- The reference's variance of real data over a nonempty graph, as a real number. -/
theorem varRef_coe (β : Fin 100000 → Fin 64) (r : Fin 100000 → Fin 64 → ℝ) (t : Fin 64 → ℝ) (g d : Fin 64)
    (hc : ((Finset.univ.filter (fun n => β n = g)).card : ℝ) ≠ 0) :
    varRef (fun n d => ((r n d : ℝ) : EReal)) β (fun d => ((t d : ℝ) : EReal)) g d
      = (((∑ m ∈ Finset.univ.filter (fun n => β n = g),
              (r m d - (∑ k ∈ Finset.univ.filter (fun n => β n = g), r k d)
                  * (1 / ((Finset.univ.filter (fun n => β n = g)).card : ℝ)) * t d)
              * (r m d - (∑ k ∈ Finset.univ.filter (fun n => β n = g), r k d)
                  * (1 / ((Finset.univ.filter (fun n => β n = g)).card : ℝ)) * t d))
            * (1 / ((Finset.univ.filter (fun n => β n = g)).card : ℝ)) : ℝ) : EReal) := by
  have hdev : seg β (fun m => dev (fun n d => ((r n d : ℝ) : EReal)) β (fun d => ((t d : ℝ) : EReal)) m d
        * dev (fun n d => ((r n d : ℝ) : EReal)) β (fun d => ((t d : ℝ) : EReal)) m d) g
      = seg β (fun m => (((r m d - (∑ k ∈ Finset.univ.filter (fun n => β n = g), r k d)
                  * (1 / ((Finset.univ.filter (fun n => β n = g)).card : ℝ)) * t d)
              * (r m d - (∑ k ∈ Finset.univ.filter (fun n => β n = g), r k d)
                  * (1 / ((Finset.univ.filter (fun n => β n = g)).card : ℝ)) * t d) : ℝ) : EReal)) g := by
    unfold seg
    refine Finset.sum_congr rfl fun m hm => ?_
    have hm' : β m = g := (Finset.mem_filter.mp hm).2
    have hd : dev (fun n d => ((r n d : ℝ) : EReal)) β (fun d => ((t d : ℝ) : EReal)) m d
        = (((r m d - (∑ k ∈ Finset.univ.filter (fun n => β n = g), r k d)
                  * (1 / ((Finset.univ.filter (fun n => β n = g)).card : ℝ)) * t d) : ℝ) : EReal) := by
      show ((r m d : ℝ) : EReal) - mean (fun n d => ((r n d : ℝ) : EReal)) β (β m) d * ((t d : ℝ) : EReal) = _
      rw [hm', mean_coe β r g d hc, ← EReal.coe_mul, ← EReal.coe_sub]
    beta_reduce
    rw [hd, ← EReal.coe_mul]
  unfold varRef
  rw [hdev, seg_coe, cnt_coe, Ideal.div_coe hc, ← EReal.coe_mul]

/-- The two variances agree on real data, at the graph of any node. -/
theorem var_eq (h : Fin 100000 → Fin 64 → EReal) (β : Fin 100000 → Fin 64) (s : Fin 64 → EReal)
    (hh : ∀ n d, ∃ r : ℝ, h n d = (r : EReal)) (hs : ∀ d, ∃ r : ℝ, s d = (r : EReal)) (n : Fin 100000) (d : Fin 64) :
    varKer h β s (β n) d = varRef h β s (β n) d := by
  choose r hr using hh
  choose t ht using hs
  obtain rfl : h = fun n d => ((r n d : ℝ) : EReal) := funext fun n => funext fun d => hr n d
  obtain rfl : s = fun d => ((t d : ℝ) : EReal) := funext ht
  have hc : ((Finset.univ.filter (fun m => β m = β n)).card : ℝ) ≠ 0 := by
    have hmem : n ∈ Finset.univ.filter (fun m => β m = β n) := by simp
    exact_mod_cast (Finset.card_pos.mpr ⟨n, hmem⟩).ne'
  rw [varKer_coe β r t (β n) d hc, varRef_coe β r t (β n) d hc]
  exact congrArg _ (real_var _ (fun m => r m d) (t d) hc).symm

/-- The normalised outputs built on the two variances agree on real data. -/
theorem out_eq (h : Fin 100000 → Fin 64 → EReal) (β : Fin 100000 → Fin 64) (s w bias : Fin 64 → EReal)
    (hh : ∀ n d, ∃ r : ℝ, h n d = (r : EReal)) (hs : ∀ d, ∃ r : ℝ, s d = (r : EReal)) :
    outOf (varKer h β s) h β s w bias = outOf (varRef h β s) h β s w bias := by
  funext n d
  unfold outOf stdOf
  rw [var_eq h β s hh hs n d]

end Cert.GNSpec

end
-- ==== Proof.Combine.lean ====
/-
  Three bridges between the shapes the kernel's program computes in and the specification's functions.

  * The dense layer over transposed weights and a bias row is the dense layer over the weights and the bias.
  * A graph's sum splits into the sums over the two halves of the node range: every node index below 100000
    has quotient 0 or 1 by 50000.
  * The kernel's output expression, written with the half sums, is the normalised output on the kernel's variance.
-/
import proofs.«426248_j35416300323760_2_alg».proof.Proof.Spec2
import proofs.«426248_j35416300323760_2_alg».proof.Proof.Algebra
import Mathlib.Algebra.BigOperators.Group.Finset.Basic

noncomputable section

namespace Cert.GNSpec

open Idealize.ShloMosaic Idealize.ShloMosaic.ValueIdx

/-- The dense layer over transposed weights and a bias row agrees with the dense layer. -/
theorem hvalT_eq (agg x : (⟨2, ![100000, 64]⟩ : Shape).Idx → EReal)
    (wrel wroot wrelT wrootT : (⟨2, ![64, 64]⟩ : Shape).Idx → EReal) (brel : (⟨1, ![64]⟩ : Shape).Idx → EReal)
    (brel2 : (⟨2, ![1, 64]⟩ : Shape).Idx → EReal)
    (h1 : ∀ k d : Fin 64, wrelT (ix2 k d) = wrel (ix2 d k)) (h2 : ∀ k d : Fin 64, wrootT (ix2 k d) = wroot (ix2 d k))
    (h3 : ∀ d : Fin 64, brel2 (ix2 0 d) = brel (ix1 d)) (n : Fin 100000) (d : Fin 64) :
    hvalT agg x wrelT wrootT brel2 n d = hval agg x wrel wroot brel n d := by
  unfold hvalT hval
  rw [h3 d]
  have e1 : ∑ k : Fin 64, agg (ix2 n k) * wrelT (ix2 k d) = ∑ k : Fin 64, agg (ix2 n k) * wrel (ix2 d k) :=
    Finset.sum_congr rfl fun k _ => by rw [h1 k d]
  have e2 : ∑ k : Fin 64, x (ix2 n k) * wrootT (ix2 k d) = ∑ k : Fin 64, x (ix2 n k) * wroot (ix2 d k) :=
    Finset.sum_congr rfl fun k _ => by rw [h2 k d]
  rw [e1, e2]

/-- A graph's sum is the sum of its two half sums. -/
theorem segHalf_add (β : Fin 100000 → Fin 64) (f : Fin 100000 → EReal) (g : Fin 64) :
    segHalf β f 0 g + segHalf β f 1 g = seg β f g := by
  classical
  have hA : Finset.univ.filter (fun n : Fin 100000 => n.val / 50000 = (0 : Fin 2).val ∧ β n = g)
      = (Finset.univ.filter (fun n : Fin 100000 => β n = g)).filter (fun n => n.val / 50000 = 0) := by
    ext n
    rw [Finset.mem_filter, Finset.mem_filter, Finset.mem_filter]
    exact ⟨fun hn => ⟨⟨Finset.mem_univ _, hn.2.2⟩, hn.2.1⟩, fun hn => ⟨Finset.mem_univ _, hn.2, hn.1.2⟩⟩
  have hB : Finset.univ.filter (fun n : Fin 100000 => n.val / 50000 = (1 : Fin 2).val ∧ β n = g)
      = (Finset.univ.filter (fun n : Fin 100000 => β n = g)).filter (fun n => ¬ n.val / 50000 = 0) := by
    ext n
    rw [Finset.mem_filter, Finset.mem_filter, Finset.mem_filter]
    have hlt : n.val < 100000 := n.isLt
    have e1 : ((1 : Fin 2) : ℕ) = 1 := rfl
    rw [e1]
    constructor
    · intro hn
      exact ⟨⟨Finset.mem_univ _, hn.2.2⟩, by omega⟩
    · intro hn
      exact ⟨Finset.mem_univ _, by omega, hn.1.2⟩
  unfold segHalf seg
  rw [hA, hB]
  exact Finset.sum_filter_add_sum_filter_not _ _ _

/-- The kernel's output expression over the half sums is the normalised output on the kernel's variance. -/
theorem ker_out_eq (h : Fin 100000 → Fin 64 → EReal) (β : Fin 100000 → Fin 64) (s w bias : Fin 64 → EReal)
    (n : Fin 100000) (d : Fin 64) :
    Ideal.div (w d * (h n d - Ideal.div (segHalf β (fun m => h m d) 0 (β n) + segHalf β (fun m => h m d) 1 (β n)) (segHalf β (fun _ => 1) 0 (β n) + segHalf β (fun _ => 1) 1 (β n)) * s d))
        (Ideal.sqrt ((Ideal.div (segHalf β (fun m => h m d * h m d) 0 (β n) + segHalf β (fun m => h m d * h m d) 1 (β n)) (segHalf β (fun _ => 1) 0 (β n) + segHalf β (fun _ => 1) 1 (β n))
            - Ideal.div (segHalf β (fun m => h m d) 0 (β n) + segHalf β (fun m => h m d) 1 (β n)) (segHalf β (fun _ => 1) 0 (β n) + segHalf β (fun _ => 1) 1 (β n))
              * Ideal.div (segHalf β (fun m => h m d) 0 (β n) + segHalf β (fun m => h m d) 1 (β n)) (segHalf β (fun _ => 1) 0 (β n) + segHalf β (fun _ => 1) 1 (β n)) * s d * (two - s d)) + eps)) + bias d
      = outOf (varKer h β s) h β s w bias n d := by
  rw [segHalf_add β (fun m => h m d) (β n), segHalf_add β (fun _ => 1) (β n),
    segHalf_add β (fun m => h m d * h m d) (β n)]
  rfl

end Cert.GNSpec

end
-- ==== Proof.KernelValue.lean ====
/-
  The kernel program's result, index by index, as the specification's normalised output with the kernel's own
  variance.  The chain: the second call's result array is its blocks' function of the mean and standard-deviation
  tables; the tables are the host's quotients of the two halves' partial sums; the partial sums are the first call's
  accumulators, per-graph sums of the dense layer over each half of the nodes; the dense layer's operands are the
  program's arguments, the weights transposed.
-/
import proofs.«426248_j35416300323760_2_alg».proof.Proof.Arrays
import proofs.«426248_j35416300323760_2_alg».proof.Proof.HostK
import proofs.«426248_j35416300323760_2_alg».proof.Proof.Region0H
import proofs.«426248_j35416300323760_2_alg».proof.Proof.Region0Acc
import proofs.«426248_j35416300323760_2_alg».proof.Proof.Region1
import proofs.«426248_j35416300323760_2_alg».proof.Proof.Combine

set_option maxRecDepth 16384

noncomputable section

namespace Cert.KernelIdeal.KV

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The dense layer of the program's arguments: the edge aggregation, the features, the two weight matrices, the bias. -/
abbrev Hk : Fin 100000 → Fin 64 → EReal := fun n d =>
  Cert.GNSpec.hval (Cert.ReferenceIdeal.Read.val_main_v16 (F := Ideal) (Arr.a0 m c) (Arr.a1 m c) (Arr.a2 m c))
    (Arr.a0 m c) (Arr.a4 m c) (Arr.a6 m c) (Arr.a5 m c) n d

/-- What the first call computes from its operands is the dense layer of the arguments. -/
theorem hT_eq (n : Fin 100000) (d : Fin 64) :
    Cert.GNSpec.hvalT (Arr.agg (V1 (F := Ideal) m ρ) c) (Arr.x (V1 (F := Ideal) m ρ) c) (Arr.wrelT (V1 (F := Ideal) m ρ) c)
        (Arr.wrootT (V1 (F := Ideal) m ρ) c) (Arr.brelRow (V1 (F := Ideal) m ρ) c) n d
      = Hk m c n d := by
  rw [HostK.V1_agg m ρ c, HostK.V1_x m ρ c]
  exact Cert.GNSpec.hvalT_eq _ _ (Arr.a4 m c) (Arr.a6 m c) _ _ (Arr.a5 m c) _
    (HostK.V1_wrelT m ρ c) (HostK.V1_wrootT m ρ c) (HostK.V1_brel m ρ c) n d

/-- The kernel program's result at node `n`, feature `d`, when every graph id is in range (`β n` its value). -/
theorem kernel_value (β : Fin 100000 → Fin 64) (hβ : ∀ n : Fin 100000, Arr.a3 m c (ix1 n) = BitVec.ofNat 32 (β n).val)
    (n : Fin 100000) (d : Fin 64) :
    Arr.out (V4 (F := Ideal) m ρ) c (ix2 n d)
      = Cert.GNSpec.outOf (Cert.GNSpec.varKer (Hk m c) β (fun d => Arr.a9 m c (ix1 d))) (Hk m c) β
          (fun d => Arr.a9 m c (ix1 d)) (fun d => Arr.a7 m c (ix1 d)) (fun d => Arr.a8 m c (ix1 d)) n d := by
  have hβ1 : ∀ n : Fin 100000, Arr.bcol (V1 (F := Ideal) m ρ) c (ix2 n 0) = BitVec.ofNat 32 (β n).val :=
    fun n => (HostK.V1_bcol m ρ c n).trans (hβ n)
  have hβ3 : ∀ n : Fin 100000, Arr.bcol (V3 (F := Ideal) m ρ) c (ix2 n 0) = BitVec.ofNat 32 (β n).val :=
    fun n => (HostK.V3_bcol m ρ c n).trans (hβ n)
  have e0 : Arr.out (V4 (F := Ideal) m ρ) c = Arr.r1out (V3 (F := Ideal) m ρ) c := W4_arr m ρ c 7
  have e6 : Arr.h (V2 (F := Ideal) m ρ) c = Arr.r0h (V1 (F := Ideal) m ρ) c := W2_arr m ρ c 6
  have e7 : Arr.sum1 (V2 (F := Ideal) m ρ) c = Arr.r0sum (V1 (F := Ideal) m ρ) c := W2_arr m ρ c 7
  have e8 : Arr.sum2 (V2 (F := Ideal) m ρ) c = Arr.r0sumsq (V1 (F := Ideal) m ρ) c := W2_arr m ρ c 8
  have e9 : Arr.cntp (V2 (F := Ideal) m ρ) c = Arr.r0cnt (V1 (F := Ideal) m ρ) c := W2_arr m ρ c 9
  rw [e0, R1.arr_out (V3 (F := Ideal) m ρ) c β hβ3 n d, HostK.V3_weight m ρ c d, HostK.V3_scale m ρ c d, HostK.V3_bias m ρ c d,
    HostK.V3_std m ρ c (β n) d, HostK.V3_mean m ρ c (β n) d, HostK.V3_h m ρ c, e6, e7, e8, e9,
    R0.arr_h (V1 (F := Ideal) m ρ) c n d]
  simp only [R0Acc.arr_sum (V1 (F := Ideal) m ρ) c β hβ1, R0Acc.arr_sumsq (V1 (F := Ideal) m ρ) c β hβ1,
    R0Acc.arr_cnt (V1 (F := Ideal) m ρ) c β hβ1, hT_eq m ρ c]
  exact Cert.GNSpec.ker_out_eq (Hk m c) β (fun d => Arr.a9 m c (ix1 d)) (fun d => Arr.a7 m c (ix1 d)) (fun d => Arr.a8 m c (ix1 d)) n d

end Cert.KernelIdeal.KV

end
-- ==== Proof.RefValue.lean ====
/-
  The reference program's result, index by index, as the specification's normalised output with the reference's
  own variance.  Its three `segment_sum`s are scatter-adds: on the extended reals each is the zero initial value plus the
  sum of the updates whose (in-range) graph id is the row; its two `[batch_index]` reads are gathers at the graph id.
-/
import proofs.«426248_j35416300323760_2_alg».proof.Proof.Gen.ReferenceIdeal.Read
import proofs.«426248_j35416300323760_2_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.Lib.IdealHost

noncomputable section

namespace Cert.ReferenceIdeal.RefValue

open Cert.ReferenceIdeal Cert.ReferenceIdeal.Gen Idealize.ShloMosaic Idealize.ShloMosaic.ValueIdx

/-- The reference's dense layer `h` as a function of node and feature. -/
abbrev H (x0 : S100000x64.Idx → EReal) (x1 : S2x1600000.Idx → BitVec 32) (x2 : S1600000.Idx → EReal) (x4 x6 : S64x64.Idx → EReal)
    (x5 : S64.Idx → EReal) : Fin 100000 → Fin 64 → EReal :=
  fun n d => Cert.GNSpec.hval (Cert.ReferenceIdeal.Read.val_main_v16 (F := Ideal) x0 x1 x2) x0 x4 x6 x5 n d

/-! ## Row scatters and row gathers, read at an index -/

/-- For a row scatter (window axis 1, inserted axis 0, one index component naming axis 0): the start and the window
    coordinate of update (n, k) on each operand axis. -/
theorem scat_parts {G N C w : Nat} (d : ScatterDims ⟨2, ![G, C]⟩ ⟨2, ![N, 1]⟩ ⟨2, ![N, C]⟩)
    (huw : d.updateWindowDims = [1]) (hiw : d.insertedWindowDims = [0]) (hsd : d.scatterDimsToOperandDims = [0])
    (hiv : d.indexVectorDim = 1) (idx : IVec ⟨2, ![N, 1]⟩ w) (n : Fin N) (k : Fin C) :
    d.start (ix2 n k) idx 0 = (idx (ix2 n 0)).toInt ∧ d.start (ix2 n k) idx 1 = 0 ∧
      d.window (ix2 n k) 0 = 0 ∧ d.window (ix2 n k) 1 = k.val := by
  obtain ⟨uw, iw, sd, iv, wf⟩ := d
  simp only at huw hiw hsd hiv
  subst huw hiw hsd hiv
  have h0 : (0 : Fin 2) ∉ (List.finRange 2).filter (· ∉ ([0] : List (Fin 2))) := by decide
  have h1 : (1 : Fin 2) ∈ (List.finRange 2).filter (· ∉ ([0] : List (Fin 2))) := by decide
  refine ⟨?_, ?_, ?_, ?_⟩
  · unfold ScatterDims.start
    rw [dif_pos (show (0 : Fin 2) ∈ ([0] : List (Fin 2)) by decide)]
    congr 2
    funext b
    match b with
    | ⟨0, _⟩ => rfl
    | ⟨1, _⟩ => rfl
  · unfold ScatterDims.start
    rw [dif_neg (show (1 : Fin 2) ∉ ([0] : List (Fin 2)) by decide)]
  · exact dif_neg h0
  · refine (dif_pos h1).trans ?_
    rfl

/-- Update (n, k) of a row scatter lands at (g, k') exactly when its signed row index is g and k = k'. -/
theorem scat_result_iff {G N C w : Nat} (d : ScatterDims ⟨2, ![G, C]⟩ ⟨2, ![N, 1]⟩ ⟨2, ![N, C]⟩)
    (huw : d.updateWindowDims = [1]) (hiw : d.insertedWindowDims = [0]) (hsd : d.scatterDimsToOperandDims = [0])
    (hiv : d.indexVectorDim = 1) (idx : IVec ⟨2, ![N, 1]⟩ w) (n : Fin N) (k : Fin C) (g : Fin G) (k' : Fin C) :
    d.resultIdx? (ix2 n k) idx = some (ix2 g k') ↔ (idx (ix2 n 0)).toInt = (g.val : Int) ∧ k = k' := by
  obtain ⟨hs0, hs1, hw0, hw1⟩ := scat_parts d huw hiw hsd hiv idx n k
  have hg := g.isLt
  have hk := k.isLt
  have hk' := k'.isLt
  unfold ScatterDims.resultIdx?
  split
  · next h =>
    rw [Option.some.injEq]
    constructor
    · intro e
      have e0 : (d.start (ix2 n k) idx 0 + d.window (ix2 n k) 0).toNat = g.val := congrArg (fun f => (f 0).val) e
      have e1 : (d.start (ix2 n k) idx 1 + d.window (ix2 n k) 1).toNat = k'.val := congrArg (fun f => (f 1).val) e
      have h0 : 0 ≤ d.start (ix2 n k) idx 0 + d.window (ix2 n k) 0 := (h 0).1
      rw [hs0, hw0] at e0 h0
      rw [hs1, hw1] at e1
      refine ⟨by omega, Fin.ext (by omega)⟩
    · rintro ⟨e0, e1⟩
      funext a
      refine Fin.ext ?_
      match a with
      | ⟨0, _⟩ => show (d.start (ix2 n k) idx 0 + d.window (ix2 n k) 0).toNat = g.val; rw [hs0, hw0, e0]; omega
      | ⟨1, _⟩ => show (d.start (ix2 n k) idx 1 + d.window (ix2 n k) 1).toNat = k'.val; rw [hs1, hw1, e1]; omega
  · next h =>
    refine iff_of_false (by simp) ?_
    rintro ⟨e0, e1⟩
    refine h fun a => ?_
    match a with
    | ⟨0, _⟩ =>
      show 0 ≤ d.start (ix2 n k) idx 0 + d.window (ix2 n k) 0 ∧ d.start (ix2 n k) idx 0 + d.window (ix2 n k) 0 < (G : Int)
      rw [hs0, hw0, e0]; omega
    | ⟨1, _⟩ =>
      show 0 ≤ d.start (ix2 n k) idx 1 + d.window (ix2 n k) 1 ∧ d.start (ix2 n k) idx 1 + d.window (ix2 n k) 1 < (C : Int)
      rw [hs1, hw1]; omega

/-- A row gather (offset axis 1, collapsed axis 0, one index component naming axis 0, slices one row wide) reads,
    at (n, k), the table at (g, k) when the signed row index of n is the in-range g. -/
theorem gath_idx {G N C w : Nat} (d : GatherDims ⟨2, ![G, C]⟩ ⟨2, ![N, 1]⟩ ⟨2, ![N, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (idx : IVec ⟨2, ![N, 1]⟩ w) (n : Fin N) (k : Fin C) (g : Fin G)
    (hg : (idx (ix2 n 0)).toInt = (g.val : Int)) :
    d.operandIdx (ix2 n k) idx = ix2 g k := by
  obtain ⟨od, cs, ob, sb, sm, iv, ss, wf⟩ := d
  simp only at hod hcs hob hsb hsm hiv hss
  subst hod hcs hob hsb hsm hiv hss
  have hgl := g.isLt
  have k0 : (0 : Fin 2) ∉ (List.finRange 2).filter (· ∉ (([0] : List (Fin 2)) ++ [])) := by decide
  have k1 : (1 : Fin 2) ∈ (List.finRange 2).filter (· ∉ (([0] : List (Fin 2)) ++ [])) := by decide
  funext a
  refine Fin.ext ?_
  match a with
  | ⟨0, _⟩ =>
    show GatherDims.start _ (ix2 n k) idx 0 + GatherDims.batchCoord _ (ix2 n k) 0 + GatherDims.offCoord _ (ix2 n k) 0 = g.val
    rw [GatherDims.batchCoord_eq_zero _ _ _ List.not_mem_nil, GatherDims.offCoord_eq_zero _ _ _ k0]
    unfold GatherDims.start
    rw [dif_pos (show (0 : Fin 2) ∈ ([0] : List (Fin 2)) by decide)]
    have hsi : GatherDims.siIdx (⟨[1], [0], [], [], [0], 1, ![1, C], wf⟩ : GatherDims ⟨2, ![G, C]⟩ ⟨2, ![N, 1]⟩ ⟨2, ![N, C]⟩) (ix2 n k)
        ⟨List.idxOf (0 : Fin 2) [0], List.idxOf_lt_length_iff.2 (show (0 : Fin 2) ∈ ([0] : List (Fin 2)) by decide)⟩ = ix2 n 0 := by
      funext b
      match b with
      | ⟨0, _⟩ => rfl
      | ⟨1, _⟩ => rfl
    rw [hsi, hg]
    show min (g.val : Int).toNat (G - 1) + 0 + 0 = g.val
    omega
  | ⟨1, _⟩ =>
    show GatherDims.start _ (ix2 n k) idx 1 + GatherDims.batchCoord _ (ix2 n k) 1 + GatherDims.offCoord _ (ix2 n k) 1 = k.val
    rw [GatherDims.batchCoord_eq_zero _ _ _ List.not_mem_nil]
    have hs : GatherDims.start (⟨[1], [0], [], [], [0], 1, ![1, C], wf⟩ : GatherDims ⟨2, ![G, C]⟩ ⟨2, ![N, 1]⟩ ⟨2, ![N, C]⟩) (ix2 n k) idx 1 = 0 :=
      dif_neg (show (1 : Fin 2) ∉ ([0] : List (Fin 2)) by decide)
    have ho : GatherDims.offCoord (⟨[1], [0], [], [], [0], 1, ![1, C], wf⟩ : GatherDims ⟨2, ![G, C]⟩ ⟨2, ![N, 1]⟩ ⟨2, ![N, C]⟩) (ix2 n k) 1 = k.val :=
      (dif_pos k1).trans rfl
    rw [hs, ho]
    omega

/-- A row scatter-add at (g, c): the initial value plus the sum, over the updates whose signed row index is g, of
    their column c. -/
theorem scat_apply {G N C w : Nat} (d : ScatterDims ⟨2, ![G, C]⟩ ⟨2, ![N, 1]⟩ ⟨2, ![N, C]⟩)
    (huw : d.updateWindowDims = [1]) (hiw : d.insertedWindowDims = [0]) (hsd : d.scatterDimsToOperandDims = [0])
    (hiv : d.indexVectorDim = 1) (x : (⟨2, ![G, C]⟩ : Shape).Idx → EReal) (idx : IVec ⟨2, ![N, 1]⟩ w)
    (upd : (⟨2, ![N, C]⟩ : Shape).Idx → EReal) (g : Fin G) (c : Fin C) :
    Ideal.hostScatterAdd d x idx upd (ix2 g c)
      = x (ix2 g c) + ∑ n ∈ Finset.univ.filter (fun n : Fin N => (idx (ix2 n 0)).toInt = (g.val : Int)), upd (ix2 n c) := by
  unfold Ideal.hostScatterAdd
  congr 1
  rw [Finset.sum_filter, sum_idx2, Finset.sum_filter]
  refine Finset.sum_congr rfl fun n _ => ?_
  rw [Finset.sum_eq_single c]
  · exact if_congr ((scat_result_iff d huw hiw hsd hiv idx n c g c).trans (and_iff_left rfl)) rfl rfl
  · intro k _ hk
    rw [if_neg]
    rw [scat_result_iff d huw hiw hsd hiv]
    exact fun h => hk h.2
  · intro h; exact absurd (Finset.mem_univ c) h

/-- With every row index the graph id of its node, the scatter-add is the initial value plus the graph's segment sum. -/
theorem scat_seg {C w : Nat} (d : ScatterDims ⟨2, ![64, C]⟩ ⟨2, ![100000, 1]⟩ ⟨2, ![100000, C]⟩)
    (huw : d.updateWindowDims = [1]) (hiw : d.insertedWindowDims = [0]) (hsd : d.scatterDimsToOperandDims = [0])
    (hiv : d.indexVectorDim = 1) (x : (⟨2, ![64, C]⟩ : Shape).Idx → EReal) (idx : IVec ⟨2, ![100000, 1]⟩ w)
    (upd : (⟨2, ![100000, C]⟩ : Shape).Idx → EReal) (β : Fin 100000 → Fin 64)
    (hidx : ∀ n : Fin 100000, (idx (ix2 n 0)).toInt = ((β n).val : Int)) (g : Fin 64) (c : Fin C) :
    Ideal.hostScatterAdd d x idx upd (ix2 g c) = x (ix2 g c) + Cert.GNSpec.seg β (fun n => upd (ix2 n c)) g := by
  rw [scat_apply d huw hiw hsd hiv]
  unfold Cert.GNSpec.seg
  refine congrArg (x (ix2 g c) + ·) ?_
  refine Finset.sum_congr (Finset.filter_congr fun n _ => ?_) fun _ _ => rfl
  rw [hidx n]
  constructor
  · intro h; exact Fin.ext (by omega)
  · intro h; rw [h]

/-- A graph id below 64 held in a 32-bit word reads, signed, as itself. -/
theorem toInt_graph (x3 : S100000.Idx → BitVec 32) (β : Fin 100000 → Fin 64)
    (hβ : ∀ n : Fin 100000, x3 (ix1 n) = BitVec.ofNat 32 (β n).val) (n : Fin 100000) :
    (x3 (ix1 n)).toInt = ((β n).val : Int) := by
  rw [hβ n]
  exact StableHlo.Predicate.toInt_ofNat_small _ (by have := (β n).isLt; omega)

/-! ## Index bookkeeping of the generated stages -/

theorem idx28 (n : Fin 100000) (k : Fin 1) : Read.idx_main_v28 (ix2 n k) = ix1 n := by
  funext a; match a with | ⟨0, _⟩ => rfl
theorem idx31 (n : Fin 100000) (k : Fin 1) : Read.idx_main_v31 (ix2 n k) = ix1 n := by
  funext a; match a with | ⟨0, _⟩ => rfl
theorem idx48 (n : Fin 100000) (k : Fin 1) : Read.idx_main_v48 (ix2 n k) = ix1 n := by
  funext a; match a with | ⟨0, _⟩ => rfl
theorem idx40 (n : Fin 100000) (k : Fin 1) : Read.idx_main_v40 (ix2 n k) = ix1 n := by
  funext a; match a with | ⟨0, _⟩ => rfl
theorem idx60 (n : Fin 100000) (k : Fin 1) : Read.idx_main_v60 (ix2 n k) = ix1 n := by
  funext a; match a with | ⟨0, _⟩ => rfl
theorem idx33 (g d : Fin 64) : Read.idx_main_v33 (ix2 g d) = ix2 g 0 := by
  funext a; match a with | ⟨0, _⟩ => rfl | ⟨1, _⟩ => rfl
theorem idx50 (g d : Fin 64) : Read.idx_main_v50 (ix2 g d) = ix2 g 0 := by
  funext a; match a with | ⟨0, _⟩ => rfl | ⟨1, _⟩ => rfl
theorem idx20 (n : Fin 100000) (d : Fin 64) : Read.idx_main_v19 (Read.idx_main_v20 (ix2 n d)) = ix1 d := by
  funext a; match a with | ⟨0, _⟩ => rfl
theorem idx43 (n : Fin 100000) (d : Fin 64) : Read.idx_main_v42 (Read.idx_main_v43 (ix2 n d)) = ix1 d := by
  funext a; match a with | ⟨0, _⟩ => rfl
theorem idx63 (n : Fin 100000) (d : Fin 64) : Read.idx_main_v62 (Read.idx_main_v63 (ix2 n d)) = ix1 d := by
  funext a; match a with | ⟨0, _⟩ => rfl
theorem idx67 (n : Fin 100000) (d : Fin 64) : Read.idx_main_v66 (Read.idx_main_v67 (ix2 n d)) = ix1 d := by
  funext a; match a with | ⟨0, _⟩ => rfl
theorem lidx18 (n : Fin 100000) (d k : Fin 64) : Read.lidx_main_v18 (ix2 n d) k = ix2 n k := by
  funext a; match a with | ⟨0, _⟩ => rfl | ⟨1, _⟩ => rfl
theorem ridx18 (n : Fin 100000) (d k : Fin 64) : Read.idx_main_v17 (Read.ridx_main_v18 (ix2 n d) k) = ix2 d k := by
  funext a; match a with | ⟨0, _⟩ => rfl | ⟨1, _⟩ => rfl
theorem lidx23 (n : Fin 100000) (d k : Fin 64) : Read.lidx_main_v23 (ix2 n d) k = ix2 n k := by
  funext a; match a with | ⟨0, _⟩ => rfl | ⟨1, _⟩ => rfl
theorem ridx23 (n : Fin 100000) (d k : Fin 64) : Read.idx_main_v22 (Read.ridx_main_v23 (ix2 n d) k) = ix2 d k := by
  funext a; match a with | ⟨0, _⟩ => rfl | ⟨1, _⟩ => rfl

/-! ## The dense layer -/

/-- The reference's relu output at (n, d) is the specification's dense layer over the opaque edge aggregation. -/
theorem h_apply (x0 : S100000x64.Idx → EReal) (x1 : S2x1600000.Idx → BitVec 32) (x2 : S1600000.Idx → EReal)
    (x4 : S64x64.Idx → EReal) (x5 : S64.Idx → EReal) (x6 : S64x64.Idx → EReal) (n : Fin 100000) (d : Fin 64) :
    Read.val_main_v25 (F := Ideal) x0 x1 x2 x4 x5 x6 (ix2 n d) = H x0 x1 x2 x4 x6 x5 n d := by
  rw [Read.val_main_v25_apply, Read.val_main_v24_apply, Read.val_main_v21_apply, Read.val_main_v18_apply,
    Read.val_main_v23_apply, Read.val_main_v20_apply, Read.val_main_v19_apply, idx20, Read.val_main_call0_v0_apply,
    Read.val_main_call0_cst_apply]
  simp only [Read.val_main_v17_apply, Read.val_main_v22_apply, lidx18, ridx18, lidx23, ridx23]
  show max _ (Ideal.ofBits .f32 0x00000000#32) = _
  rw [Ideal.ofBits_zero_f32]
  rfl

/-! ## The graph ids -/

/-- A non-negative word is left as it is by the normalisation "add 64 when negative". -/
theorem norm_word (b : BitVec 32) (hb : b.toNat < 2 ^ 31) :
    Scalar.select (IntOp.cmpi .slt b 0#32) (IntOp.addi b 64#32) b = b := by
  have h : IntOp.cmpi .slt b 0#32 = 0#1 := eq_zero_of_ne_one fun h1 => by
    have := (StableHlo.Predicate.slt_iff_toNat hb (by decide)).1 h1
    simp at this
  rw [h, select_zero]

theorem graph_lt (x3 : S100000.Idx → BitVec 32) (β : Fin 100000 → Fin 64) (hβ : ∀ n : Fin 100000, x3 (ix1 n) = BitVec.ofNat 32 (β n).val) (n : Fin 100000) : (x3 (ix1 n)).toNat < 2 ^ 31 := by
  rw [hβ n, BitVec.toNat_ofNat]
  have := (β n).isLt
  omega

theorem norm39 (x3 : S100000.Idx → BitVec 32) (β : Fin 100000 → Fin 64) (hβ : ∀ n : Fin 100000, x3 (ix1 n) = BitVec.ofNat 32 (β n).val) (n : Fin 100000) :
    Read.val_main_v39 (F := Ideal) x3 (ix1 n) = x3 (ix1 n) := by
  rw [Read.val_main_v39_apply, Read.val_main_v36_apply, Read.val_main_v38_apply, Read.val_main_v35_apply,
    Read.val_main_c_4_apply, Read.val_main_v37_apply, Read.val_main_c_5_apply]
  exact norm_word _ (graph_lt x3 β hβ n)

theorem norm59 (x3 : S100000.Idx → BitVec 32) (β : Fin 100000 → Fin 64) (hβ : ∀ n : Fin 100000, x3 (ix1 n) = BitVec.ofNat 32 (β n).val) (n : Fin 100000) :
    Read.val_main_v59 (F := Ideal) x3 (ix1 n) = x3 (ix1 n) := by
  rw [Read.val_main_v59_apply, Read.val_main_v56_apply, Read.val_main_v58_apply, Read.val_main_v55_apply,
    Read.val_main_c_8_apply, Read.val_main_v57_apply, Read.val_main_c_9_apply]
  exact norm_word _ (graph_lt x3 β hβ n)

/-! ## Counts, means, deviations, variances -/

/-- The scatter-add of ones by graph id counts each graph's nodes. -/
theorem cnt_apply (x3 : S100000.Idx → BitVec 32) (β : Fin 100000 → Fin 64) (hβ : ∀ n : Fin 100000, x3 (ix1 n) = BitVec.ofNat 32 (β n).val) (g : Fin 64) :
    Read.val_main_v29 (F := Ideal) x3 (ix2 g 0) = Cert.GNSpec.cnt β g := by
  unfold Read.val_main_v29
  refine (scat_seg scatter_S64x1_S100000x1_S100000x1_1_0_0_1 rfl rfl rfl rfl _ _ _ β (fun n => ?_) g 0).trans ?_
  · rw [Read.val_main_v28_apply, idx28]; exact toInt_graph x3 β hβ n
  · rw [Read.val_main_v27_apply, Read.val_main_cst_2_apply]
    show Ideal.ofBits .f32 0x00000000#32 + _ = _
    rw [Ideal.ofBits_zero_f32, zero_add]
    unfold Cert.GNSpec.cnt
    refine congrArg (fun f => Cert.GNSpec.seg β f g) (funext fun n => ?_)
    rw [Read.val_main_v26_apply, Read.val_main_cst_1_apply]
    exact Ideal.ofBits_one_f32

/-- The scatter-add of the dense layer by graph id is each graph's column sum. -/
theorem sum_apply (x0 : S100000x64.Idx → EReal) (x1 : S2x1600000.Idx → BitVec 32) (x2 : S1600000.Idx → EReal)
    (x3 : S100000.Idx → BitVec 32) (x4 : S64x64.Idx → EReal) (x5 : S64.Idx → EReal) (x6 : S64x64.Idx → EReal)
    (β : Fin 100000 → Fin 64) (hβ : ∀ n : Fin 100000, x3 (ix1 n) = BitVec.ofNat 32 (β n).val) (g d : Fin 64) :
    Read.val_main_v32 (F := Ideal) x0 x1 x2 x3 x4 x5 x6 (ix2 g d)
      = Cert.GNSpec.seg β (fun n => H x0 x1 x2 x4 x6 x5 n d) g := by
  unfold Read.val_main_v32
  refine (scat_seg scatter_S64x64_S100000x1_S100000x64_1_0_0_1 rfl rfl rfl rfl _ _ _ β (fun n => ?_) g d).trans ?_
  · rw [Read.val_main_v31_apply, idx31]; exact toInt_graph x3 β hβ n
  · rw [Read.val_main_v30_apply, Read.val_main_cst_3_apply]
    show Ideal.ofBits .f32 0x00000000#32 + _ = _
    rw [Ideal.ofBits_zero_f32, zero_add]
    exact congrArg (fun f => Cert.GNSpec.seg β f g) (funext fun n => h_apply x0 x1 x2 x4 x5 x6 n d)

theorem mean_apply (x0 : S100000x64.Idx → EReal) (x1 : S2x1600000.Idx → BitVec 32) (x2 : S1600000.Idx → EReal)
    (x3 : S100000.Idx → BitVec 32) (x4 : S64x64.Idx → EReal) (x5 : S64.Idx → EReal) (x6 : S64x64.Idx → EReal)
    (β : Fin 100000 → Fin 64) (hβ : ∀ n : Fin 100000, x3 (ix1 n) = BitVec.ofNat 32 (β n).val) (g d : Fin 64) :
    Read.val_main_v34 (F := Ideal) x0 x1 x2 x3 x4 x5 x6 (ix2 g d)
      = Cert.GNSpec.mean (H x0 x1 x2 x4 x6 x5) β g d := by
  rw [Read.val_main_v34_apply, Read.val_main_v33_apply, idx33, sum_apply x0 x1 x2 x3 x4 x5 x6 β hβ, cnt_apply x3 β hβ]
  rfl

/-- The gather of the mean table at the (normalised) graph ids reads each node's own graph. -/
theorem v41_apply (x0 : S100000x64.Idx → EReal) (x1 : S2x1600000.Idx → BitVec 32) (x2 : S1600000.Idx → EReal)
    (x3 : S100000.Idx → BitVec 32) (x4 : S64x64.Idx → EReal) (x5 : S64.Idx → EReal) (x6 : S64x64.Idx → EReal)
    (β : Fin 100000 → Fin 64) (hβ : ∀ n : Fin 100000, x3 (ix1 n) = BitVec.ofNat 32 (β n).val) (n : Fin 100000) (d : Fin 64) :
    Read.val_main_v41 (F := Ideal) x0 x1 x2 x3 x4 x5 x6 (ix2 n d)
      = Cert.GNSpec.mean (H x0 x1 x2 x4 x6 x5) β (β n) d := by
  have hi : (Read.val_main_v40 (F := Ideal) x3 (ix2 n 0)).toInt = ((β n).val : Int) := by
    rw [Read.val_main_v40_apply, idx40, norm39 x3 β hβ]; exact toInt_graph x3 β hβ n
  have hg := gath_idx gather_S64x64_S100000x1_S100000x64_1_0_n_n_0_1_164 rfl rfl rfl rfl rfl rfl rfl
    (Read.val_main_v40 (F := Ideal) x3) n d (β n) hi
  unfold Read.val_main_v41
  show Read.val_main_v34 (F := Ideal) x0 x1 x2 x3 x4 x5 x6 (GatherDims.operandIdx _ (ix2 n d) _) = _
  rw [hg]
  exact mean_apply x0 x1 x2 x3 x4 x5 x6 β hβ (β n) d

theorem dev_apply (x0 : S100000x64.Idx → EReal) (x1 : S2x1600000.Idx → BitVec 32) (x2 : S1600000.Idx → EReal)
    (x3 : S100000.Idx → BitVec 32) (x4 : S64x64.Idx → EReal) (x5 : S64.Idx → EReal) (x6 : S64x64.Idx → EReal) (x9 : S64.Idx → EReal)
    (β : Fin 100000 → Fin 64) (hβ : ∀ n : Fin 100000, x3 (ix1 n) = BitVec.ofNat 32 (β n).val) (n : Fin 100000) (d : Fin 64) :
    Read.val_main_v45 (F := Ideal) x0 x1 x2 x3 x4 x5 x6 x9 (ix2 n d)
      = Cert.GNSpec.dev (H x0 x1 x2 x4 x6 x5) β (fun d => x9 (ix1 d)) n d := by
  rw [Read.val_main_v45_apply, Read.val_main_v44_apply, h_apply, v41_apply x0 x1 x2 x3 x4 x5 x6 β hβ,
    Read.val_main_v43_apply, Read.val_main_v42_apply, idx43]
  rfl

theorem sq_apply (x0 : S100000x64.Idx → EReal) (x1 : S2x1600000.Idx → BitVec 32) (x2 : S1600000.Idx → EReal)
    (x3 : S100000.Idx → BitVec 32) (x4 : S64x64.Idx → EReal) (x5 : S64.Idx → EReal) (x6 : S64x64.Idx → EReal) (x9 : S64.Idx → EReal)
    (β : Fin 100000 → Fin 64) (hβ : ∀ n : Fin 100000, x3 (ix1 n) = BitVec.ofNat 32 (β n).val) (g d : Fin 64) :
    Read.val_main_v49 (F := Ideal) x0 x1 x2 x3 x4 x5 x6 x9 (ix2 g d)
      = Cert.GNSpec.seg β (fun n => Cert.GNSpec.dev (H x0 x1 x2 x4 x6 x5) β (fun d => x9 (ix1 d)) n d
          * Cert.GNSpec.dev (H x0 x1 x2 x4 x6 x5) β (fun d => x9 (ix1 d)) n d) g := by
  unfold Read.val_main_v49
  refine (scat_seg scatter_S64x64_S100000x1_S100000x64_1_0_0_1 rfl rfl rfl rfl _ _ _ β (fun n => ?_) g d).trans ?_
  · rw [Read.val_main_v48_apply, idx48]; exact toInt_graph x3 β hβ n
  · rw [Read.val_main_v47_apply, Read.val_main_cst_6_apply]
    show Ideal.ofBits .f32 0x00000000#32 + _ = _
    rw [Ideal.ofBits_zero_f32, zero_add]
    refine congrArg (fun f => Cert.GNSpec.seg β f g) (funext fun n => ?_)
    rw [Read.val_main_v46_apply, dev_apply x0 x1 x2 x3 x4 x5 x6 x9 β hβ]
    rfl

theorem var_apply (x0 : S100000x64.Idx → EReal) (x1 : S2x1600000.Idx → BitVec 32) (x2 : S1600000.Idx → EReal)
    (x3 : S100000.Idx → BitVec 32) (x4 : S64x64.Idx → EReal) (x5 : S64.Idx → EReal) (x6 : S64x64.Idx → EReal) (x9 : S64.Idx → EReal)
    (β : Fin 100000 → Fin 64) (hβ : ∀ n : Fin 100000, x3 (ix1 n) = BitVec.ofNat 32 (β n).val) (g d : Fin 64) :
    Read.val_main_v51 (F := Ideal) x0 x1 x2 x3 x4 x5 x6 x9 (ix2 g d)
      = Cert.GNSpec.varRef (H x0 x1 x2 x4 x6 x5) β (fun d => x9 (ix1 d)) g d := by
  rw [Read.val_main_v51_apply, Read.val_main_v50_apply, idx50, sq_apply x0 x1 x2 x3 x4 x5 x6 x9 β hβ, cnt_apply x3 β hβ]
  rfl

theorem std_apply (x0 : S100000x64.Idx → EReal) (x1 : S2x1600000.Idx → BitVec 32) (x2 : S1600000.Idx → EReal)
    (x3 : S100000.Idx → BitVec 32) (x4 : S64x64.Idx → EReal) (x5 : S64.Idx → EReal) (x6 : S64x64.Idx → EReal) (x9 : S64.Idx → EReal)
    (β : Fin 100000 → Fin 64) (hβ : ∀ n : Fin 100000, x3 (ix1 n) = BitVec.ofNat 32 (β n).val) (g d : Fin 64) :
    Read.val_main_v54 (F := Ideal) x0 x1 x2 x3 x4 x5 x6 x9 (ix2 g d)
      = Cert.GNSpec.stdOf (Cert.GNSpec.varRef (H x0 x1 x2 x4 x6 x5) β (fun d => x9 (ix1 d))) g d := by
  rw [Read.val_main_v54_apply, Read.val_main_v53_apply, var_apply x0 x1 x2 x3 x4 x5 x6 x9 β hβ, Read.val_main_v52_apply,
    Read.val_main_cst_7_apply, Ideal.hostUnary_sqrt_def, Ideal.addf_def, Ideal.ofBits_def]
  rfl

/-- The gather of the standard-deviation table at the (normalised) graph ids reads each node's own graph. -/
theorem v61_apply (x0 : S100000x64.Idx → EReal) (x1 : S2x1600000.Idx → BitVec 32) (x2 : S1600000.Idx → EReal)
    (x3 : S100000.Idx → BitVec 32) (x4 : S64x64.Idx → EReal) (x5 : S64.Idx → EReal) (x6 : S64x64.Idx → EReal) (x9 : S64.Idx → EReal)
    (β : Fin 100000 → Fin 64) (hβ : ∀ n : Fin 100000, x3 (ix1 n) = BitVec.ofNat 32 (β n).val) (n : Fin 100000) (d : Fin 64) :
    Read.val_main_v61 (F := Ideal) x0 x1 x2 x3 x4 x5 x6 x9 (ix2 n d)
      = Cert.GNSpec.stdOf (Cert.GNSpec.varRef (H x0 x1 x2 x4 x6 x5) β (fun d => x9 (ix1 d))) (β n) d := by
  have hi : (Read.val_main_v60 (F := Ideal) x3 (ix2 n 0)).toInt = ((β n).val : Int) := by
    rw [Read.val_main_v60_apply, idx60, norm59 x3 β hβ]; exact toInt_graph x3 β hβ n
  have hg := gath_idx gather_S64x64_S100000x1_S100000x64_1_0_n_n_0_1_164 rfl rfl rfl rfl rfl rfl rfl
    (Read.val_main_v60 (F := Ideal) x3) n d (β n) hi
  unfold Read.val_main_v61
  show Read.val_main_v54 (F := Ideal) x0 x1 x2 x3 x4 x5 x6 x9 (GatherDims.operandIdx _ (ix2 n d) _) = _
  rw [hg]
  exact std_apply x0 x1 x2 x3 x4 x5 x6 x9 β hβ (β n) d

/-- The reference's result at node `n`, feature `d`, when every graph id is in range (`β n` its value). -/
theorem ref_apply (x0 : S100000x64.Idx → EReal) (x1 : S2x1600000.Idx → BitVec 32) (x2 : S1600000.Idx → EReal) (x3 : S100000.Idx → BitVec 32)
    (x4 : S64x64.Idx → EReal) (x5 : S64.Idx → EReal) (x6 : S64x64.Idx → EReal) (x7 x8 x9 : S64.Idx → EReal)
    (β : Fin 100000 → Fin 64) (hβ : ∀ n : Fin 100000, x3 (ix1 n) = BitVec.ofNat 32 (β n).val) (n : Fin 100000) (d : Fin 64) :
    Cert.ReferenceIdeal.Read.val_main_v68 (F := Ideal) x0 x1 x2 x3 x4 x5 x6 x7 x8 x9 (ix2 n d)
      = Cert.GNSpec.outOf (Cert.GNSpec.varRef (H x0 x1 x2 x4 x6 x5) β (fun d => x9 (ix1 d))) (H x0 x1 x2 x4 x6 x5) β
          (fun d => x9 (ix1 d)) (fun d => x7 (ix1 d)) (fun d => x8 (ix1 d)) n d := by
  rw [Read.val_main_v68_apply, Read.val_main_v65_apply, Read.val_main_v64_apply,
    dev_apply x0 x1 x2 x3 x4 x5 x6 x9 β hβ, v61_apply x0 x1 x2 x3 x4 x5 x6 x9 β hβ,
    Read.val_main_v63_apply, Read.val_main_v62_apply, idx63, Read.val_main_v67_apply, Read.val_main_v66_apply, idx67]
  rfl

end Cert.ReferenceIdeal.RefValue

end
-- ==== Proof.PreFacts.lean ====
/-
  What the precondition says, decoded: every float argument holds real numbers only, and every graph id is one of
  0 … 63.  And a consequence: the edge aggregation (a scatter-add of products of real entries onto zeros) is real.
-/
import proofs.«426248_j35416300323760_2_alg».proof.Proof.Gen.Pre_finite_inputs
import proofs.«426248_j35416300323760_2_alg».proof.Proof.Gen.ReferenceIdeal.Read
import proofs.«426248_j35416300323760_2_alg».proof.Proof.Spec
import proofs.«426248_j35416300323760_2_alg».proof.Proof.Algebra
import Idealize.ShloMosaic.Lib.ValueIdx
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.GNSpec

/-- The scalar shape has one index. -/
instance subsingleton_scalar_idx : Subsingleton Cert.Pre_finite_inputs.S_.Idx :=
  ⟨fun a b => funext fun d => d.elim0⟩

/-- The pattern of `+inf` denotes the top of the extended reals. -/
theorem ofBits_inf : Ideal.ofBits .f32 0x7F800000#32 = ⊤ := by
  simp [Ideal.ofBits, Ideal.ieee]

/-- An extended real whose absolute value is below `+inf` is a real number. -/
theorem real_of_abs_lt (x : EReal)
    (h : Ideal.cmp .olt (max x (-x)) (Ideal.ofBits .f32 0x7F800000#32) = 1#1) : ∃ r : ℝ, x = (r : EReal) := by
  rw [ofBits_inf] at h
  have h' : max x (-x) < ⊤ := by
    by_contra hn
    have e : Ideal.cmp .olt (max x (-x)) ⊤ = 0#1 := by
      unfold Ideal.cmp
      rw [decide_eq_false hn]
      rfl
    rw [e] at h
    exact absurd h (by decide)
  induction x using EReal.rec with
  | bot => exact absurd h' (by simp)
  | coe r => exact ⟨r, rfl⟩
  | top => exact absurd h' (by simp)

/-- One `|x| < +inf` array of the precondition, read at an index. -/
theorem real_of_entry {s : Shape} (x : s.Idx → EReal) (hb : Cert.Pre_finite_inputs.S_.BroadcastsInDim s (![] : Fin 0 → Fin s.rank))
    (i : s.Idx)
    (h : cmpf (F := Ideal) (φ := .f32) .olt (Host.absf (F := Ideal) (φ := .f32) x)
        (broadcastInDim s ![] hb (constant (F := Ideal) Cert.Pre_finite_inputs.S_ .f32 0x7F800000#32)) i = 1#1) :
    ∃ r : ℝ, x i = (r : EReal) :=
  real_of_abs_lt (x i) h

/-- A 32-bit word that reads signed in `[0, 64)` is the word of a number below 64. -/
theorem word_of_range (b : BitVec 32) (h0 : (0#32 : BitVec 32).toInt ≤ b.toInt) (h1 : b.toInt < (64#32 : BitVec 32).toInt) :
    ∃ g : Fin 64, b = BitVec.ofNat 32 g.val := by
  rw [show (0#32 : BitVec 32).toInt = 0 from by decide] at h0
  rw [show (64#32 : BitVec 32).toInt = 64 from by decide] at h1
  have hlt : b.toNat < 2 ^ 32 := b.isLt
  have hb : b.toNat < 64 := by
    rw [BitVec.toInt_eq_toNat_cond] at h0 h1
    split at h0 <;> omega
  exact ⟨⟨b.toNat, hb⟩, BitVec.eq_of_toNat_eq (by rw [BitVec.toNat_ofNat]; exact (Nat.mod_eq_of_lt hlt).symm)⟩

/-- A real number plus a finite sum of real numbers is real. -/
theorem add_sum_real {ι : Type} (a : EReal) (T : Finset ι) (f : ι → EReal) (ha : ∃ r : ℝ, a = (r : EReal))
    (hf : ∀ j, ∃ r : ℝ, f j = (r : EReal)) : ∃ r : ℝ, a + ∑ j ∈ T, f j = (r : EReal) := by
  obtain ⟨r, hr⟩ := ha
  obtain ⟨S, hS⟩ := sum_real T f (fun j _ => hf j)
  exact ⟨r + S, by rw [hr, hS, EReal.coe_add]⟩

/-- A scatter-add of real updates onto a real array is real. -/
theorem scatterAdd_real {s si su : Shape} (d : ScatterDims s si su) {w : Nat} (x : s.Idx → EReal) (idx : IVec si w)
    (upd : su.Idx → EReal) (hx : IsReal x) (hu : IsReal upd) : IsReal (Ideal.hostScatterAdd d x idx upd) :=
  fun i => add_sum_real _ _ _ (hx i) hu

/-- The precondition, read: real entries everywhere, graph ids in range. -/
theorem decode [Cert.Pre_finite_inputs.Facts]
    (x0 : Cert.Pre_finite_inputs.S100000x64.Idx → EReal) (x1 : Cert.Pre_finite_inputs.S2x1600000.Idx → BitVec 32)
    (x2 : Cert.Pre_finite_inputs.S1600000.Idx → EReal) (x3 : Cert.Pre_finite_inputs.S100000.Idx → BitVec 32)
    (x4 : Cert.Pre_finite_inputs.S64x64.Idx → EReal) (x5 : Cert.Pre_finite_inputs.S64.Idx → EReal)
    (x6 : Cert.Pre_finite_inputs.S64x64.Idx → EReal) (x7 x8 x9 : Cert.Pre_finite_inputs.S64.Idx → EReal)
    (h : Cert.Pre_finite_inputs.fn (F := Ideal) x0 x1 x2 x3 x4 x5 x6 x7 x8 x9 = fun _ => 1#1) :
    IsReal x0 ∧ IsReal x2 ∧ IsReal x4 ∧ IsReal x5 ∧ IsReal x6 ∧ IsReal x7 ∧ IsReal x8 ∧ IsReal x9
      ∧ ∀ n : Fin 100000, ∃ g : Fin 64, x3 (ix1 n) = BitVec.ofNat 32 g.val := by
  have h' := congrFun h ValueIdx.ix0
  dsimp only [Cert.Pre_finite_inputs.fn, Cert.Pre_finite_inputs.fn_part1, Cert.Pre_finite_inputs.fn_part2, andi] at h'
  simp only [IntOp.andi_eq_one] at h'
  obtain ⟨⟨⟨⟨⟨⟨⟨⟨e0, e2⟩, e4⟩, e5⟩, e6⟩, e7⟩, e8⟩, e9⟩, e3⟩ := h'
  refine ⟨fun i => real_of_entry x0 _ i (Host.reduce_andi_all _ _ _ _ _ e0 i),
    fun i => real_of_entry x2 _ i (Host.reduce_andi_all _ _ _ _ _ e2 i),
    fun i => real_of_entry x4 _ i (Host.reduce_andi_all _ _ _ _ _ e4 i),
    fun i => real_of_entry x5 _ i (Host.reduce_andi_all _ _ _ _ _ e5 i),
    fun i => real_of_entry x6 _ i (Host.reduce_andi_all _ _ _ _ _ e6 i),
    fun i => real_of_entry x7 _ i (Host.reduce_andi_all _ _ _ _ _ e7 i),
    fun i => real_of_entry x8 _ i (Host.reduce_andi_all _ _ _ _ _ e8 i),
    fun i => real_of_entry x9 _ i (Host.reduce_andi_all _ _ _ _ _ e9 i), fun n => ?_⟩
  have hn := Host.reduce_andi_all _ _ _ _ _ e3 (ix1 n)
  obtain ⟨ha, hb⟩ := IntOp.andi_eq_one.1 hn
  exact word_of_range _ (IntOp.cmpi_sge.1 ha) (IntOp.cmpi_slt.1 hb)

/-- The edge aggregation of real features and real edge weights is real. -/
theorem agg_real (x0 : Cert.ReferenceIdeal.S100000x64.Idx → EReal) (x1 : Cert.ReferenceIdeal.S2x1600000.Idx → BitVec 32)
    (x2 : Cert.ReferenceIdeal.S1600000.Idx → EReal) (h0 : IsReal x0) (h2 : IsReal x2) :
    IsReal (Cert.ReferenceIdeal.Read.val_main_v16 (F := Ideal) x0 x1 x2) := by
  have hz : IsReal (Cert.ReferenceIdeal.Read.val_main_v14 (F := Ideal)) := by
    intro i
    refine ⟨0, ?_⟩
    rw [Cert.ReferenceIdeal.Read.val_main_v14_apply, Cert.ReferenceIdeal.Read.val_main_cst_apply]
    exact Ideal.ofBits_zero_f32
  have hu : IsReal (Cert.ReferenceIdeal.Read.val_main_v13 (F := Ideal) x0 x1 x2) := by
    intro j
    rw [Cert.ReferenceIdeal.Read.val_main_v13_apply, Cert.ReferenceIdeal.Read.val_main_v12_apply,
      Cert.ReferenceIdeal.Read.val_main_v4_apply]
    obtain ⟨a, ha⟩ := h2 (Cert.ReferenceIdeal.Read.idx_main_v4 (Cert.ReferenceIdeal.Read.idx_main_v12 j))
    obtain ⟨b, hb⟩ : ∃ b : ℝ, Cert.ReferenceIdeal.Read.val_main_v11 (F := Ideal) x0 x1 j = (b : EReal) := h0 _
    rw [ha, hb]
    exact ⟨a * b, (EReal.coe_mul a b).symm⟩
  exact scatterAdd_real _ _ (Cert.ReferenceIdeal.Read.val_main_v15 (F := Ideal) x1) _ hz hu

end Cert.PreFacts

end
-- ==== Proof.lean ====
/-
  The certificate of a graph-convolution block with graph normalisation, kernel against reference, on the extended reals.

  Both programs compute, for node n of graph g = batch_index[n] and feature d,
      w[d] · (h[n,d] − mean[g,d] · s[d]) / sqrt (var[g,d] + eps) + bias[d],
  with h = relu (agg · W_relᵀ + b_rel + x · W_rootᵀ), agg the same scatter-add of edge_attr · x[src] on both sides, and
  mean the per-graph mean of h.  They differ in the variance: the reference averages the squared deviations
  (h − mean · s)² over the graph; the kernel accumulates Σh and Σh² per graph (one-hot matrix products, two halves of
  the node range summed on the host) and takes Σh²/c − mean² · s · (2 − s).  For real entries and a nonempty graph the
  two agree (expand the square; Σh = c · mean), and the graph of a node is nonempty.  The precondition supplies the
  real entries and graph ids in 0 … 63; the one-hot products then pick the graph's row of each table, which is what
  the reference's gathers read, and its scatter-adds are the per-graph sums.
-/
import proofs.«426248_j35416300323760_2_alg».proof.Defs
import proofs.«426248_j35416300323760_2_alg».proof.Proof.Gen.Kernel
import proofs.«426248_j35416300323760_2_alg».proof.Proof.Gen.Kernel.Skeleton
import proofs.«426248_j35416300323760_2_alg».proof.Proof.Gen.Kernel.Launch
import proofs.«426248_j35416300323760_2_alg».proof.Proof.Gen.Kernel.Points
import proofs.«426248_j35416300323760_2_alg».proof.Proof.Gen.Kernel.Frame
import proofs.«426248_j35416300323760_2_alg».proof.Proof.Gen.KernelIdeal
import proofs.«426248_j35416300323760_2_alg».proof.Proof.Gen.KernelIdeal.Skeleton
import proofs.«426248_j35416300323760_2_alg».proof.Proof.Gen.KernelIdeal.Launch
import proofs.«426248_j35416300323760_2_alg».proof.Proof.Gen.KernelIdeal.Points
import proofs.«426248_j35416300323760_2_alg».proof.Proof.Gen.KernelIdeal.Frame
import proofs.«426248_j35416300323760_2_alg».proof.Proof.Gen.ReferenceIdeal
import proofs.«426248_j35416300323760_2_alg».proof.Proof.Gen.Pre_finite_inputs
import proofs.«426248_j35416300323760_2_alg».proof.Proof.Gen.ReferenceIdeal.Run
import proofs.«426248_j35416300323760_2_alg».proof.Proof.Gen.ReferenceIdeal.Read
import proofs.«426248_j35416300323760_2_alg».proof.Proof.KernelRun
import proofs.«426248_j35416300323760_2_alg».proof.Proof.KernelValue
import proofs.«426248_j35416300323760_2_alg».proof.Proof.RefValue
import proofs.«426248_j35416300323760_2_alg».proof.Proof.PreFacts
import proofs.«426248_j35416300323760_2_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx

section Claims
variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two results are one array: index by index the reference's is the normalised output with its variance, the
    kernel's the same with the kernel's variance, and the variances agree on real data. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v44),
    Cert.KernelIdeal.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v68_eq, e0, e1, e2, e3, e4, e5, e6, e7, e8, e9]
  obtain ⟨r0, r2, r4, r5, r6, r7, r8, r9, hb⟩ := Cert.PreFacts.decode _ _ _ _ _ _ _ _ _ _ (hpre c)
  choose β hβ using hb
  funext i
  obtain ⟨n, d, rfl⟩ : ∃ (n : Fin 100000) (d : Fin 64), i = ix2 n d := ⟨i 0, i 1, eq_ix2 i⟩
  have hH : ∀ n d, ∃ r : ℝ, Cert.KernelIdeal.KV.Hk m c n d = (r : EReal) := fun n d =>
    Cert.GNSpec.hval_real (Cert.PreFacts.agg_real _ _ _ r0 r2) r0 r4 r6 r5 n d
  refine (Cert.ReferenceIdeal.RefValue.ref_apply _ _ _ _ _ _ _ _ _ _ β hβ n d).trans ?_
  refine (congrFun (congrFun (Cert.GNSpec.out_eq (Cert.KernelIdeal.KV.Hk m c) β _ _ _ hH (fun d => r9 (ix1 d))) n) d).symm.trans ?_
  exact (Cert.KernelIdeal.KV.kernel_value m ρ c β hβ n d).symm

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
